-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50257 : Shape := ⟨2, ![2048, 50257]⟩
abbrev S2048x20 : Shape := ⟨2, ![2048, 20]⟩
abbrev S_ : Shape := ⟨0, ![]⟩

class Facts : Prop where
  bcast_S_S2048x50257 : S_.BroadcastsInDim S2048x50257 (![] : Fin 0 → Fin S2048x50257.rank)
  reducesTo_S2048x50257_S_d0_1 : S2048x50257.ReducesTo [0, 1] S_
  h_S_ : 0 < S_.numel
  bcast_S_S2048x20 : S_.BroadcastsInDim S2048x20 (![] : Fin 0 → Fin S2048x20.rank)
  reducesTo_S2048x20_S_d0_1 : S2048x20.ReducesTo [0, 1] S_

variable [Facts]

def fn {F : FTy → Type} [FloatOps F] (main_arg0 : FVec F S2048x50257 .f32) (main_arg1 : IVec S2048x20 32) : IVec S_ 1 :=
  let main_v0 : FVec F S2048x50257 .f32 := Host.absf main_arg0
  let main_cst : FVec F S_ .f32 := constant S_ .f32 0x7F800000#32
  let main_v1 : FVec F S2048x50257 .f32 := broadcastInDim S2048x50257 ![] bcast_S_S2048x50257 main_cst
  let main_v2 : IVec S2048x50257 1 := cmpf .olt main_v0 main_v1
  let main_c : IVec S_ 1 := constantI S_ 1 1#1
  let main_v3 : IVec S_ 1 := (fun x v => Host.reduce IntOp.andi x v reducesTo_S2048x50257_S_d0_1 h_S_) main_v2 main_c
  let main_c_0 : IVec S_ 32 := constantI S_ 32 0#32
  let main_v4 : IVec S2048x20 32 := broadcastInDim S2048x20 ![] bcast_S_S2048x20 main_c_0
  let main_v5 : IVec S2048x20 1 := cmpi .sge main_arg1 main_v4
  let main_c_1 : IVec S_ 1 := constantI S_ 1 1#1
  let main_v6 : IVec S_ 1 := (fun x v => Host.reduce IntOp.andi x v reducesTo_S2048x20_S_d0_1 h_S_) main_v5 main_c_1
  let main_v7 : IVec S_ 1 := andi main_v3 main_v6
  let main_c_2 : IVec S_ 32 := constantI S_ 32 50257#32
  let main_v8 : IVec S2048x20 32 := broadcastInDim S2048x20 ![] bcast_S_S2048x20 main_c_2
  let main_v9 : IVec S2048x20 1 := cmpi .slt main_arg1 main_v8
  let main_c_3 : IVec S_ 1 := constantI S_ 1 1#1
  let main_v10 : IVec S_ 1 := (fun x v => Host.reduce IntOp.andi x v reducesTo_S2048x20_S_d0_1 h_S_) main_v9 main_c_3
  let main_v11 : IVec S_ 1 := andi main_v7 main_v10
  main_v11
-- ==== Kernel.lean ====
abbrev S2048x50257 : Shape := ⟨2, ![2048, 50257]⟩
abbrev S2048x20 : Shape := ⟨2, ![2048, 20]⟩
abbrev S2048x1 : Shape := ⟨2, ![2048, 1]⟩
abbrev S64x50257 : Shape := ⟨2, ![64, 50257]⟩
abbrev S64x1 : Shape := ⟨2, ![64, 1]⟩
abbrev S64x8192 : Shape := ⟨2, ![64, 8192]⟩
abbrev S64 : Shape := ⟨1, ![64]⟩
abbrev S64x1105 : Shape := ⟨2, ![64, 1105]⟩
abbrev S2048 : Shape := ⟨1, ![2048]⟩
abbrev S_ : Shape := ⟨0, ![]⟩
abbrev S2048x20x1 : Shape := ⟨3, ![2048, 20, 1]⟩
abbrev S1 : Shape := ⟨1, ![1]⟩
abbrev S1x1x1 : Shape := ⟨3, ![1, 1, 1]⟩
abbrev S2048x1x20 : Shape := ⟨3, ![2048, 1, 20]⟩
abbrev S2048x20x20 : Shape := ⟨3, ![2048, 20, 20]⟩
abbrev S20x20 : Shape := ⟨2, ![20, 20]⟩
abbrev S1x20x20 : Shape := ⟨3, ![1, 20, 20]⟩

abbrev nBuf : Space → Nat
  | .hbm => 106
  | .vmem => 4
  | .smem => 0
  | _ => 0

abbrev bufTy : (tb : Table) → Fin (tcTables nBuf tb) → BufTy
  | .hbm, ⟨0, _⟩ => ⟨S2048x50257, .f32⟩
  | .hbm, ⟨1, _⟩ => ⟨S2048x20, .i32⟩
  | .hbm, ⟨2, _⟩ => ⟨S2048x1, .f32⟩
  | .hbm, ⟨3, _⟩ => ⟨S2048, .f32⟩
  | .hbm, ⟨4, _⟩ => ⟨S_, .i32⟩
  | .hbm, ⟨5, _⟩ => ⟨S2048x20, .i32⟩
  | .hbm, ⟨6, _⟩ => ⟨S2048x20, .i1⟩
  | .hbm, ⟨7, _⟩ => ⟨S_, .i32⟩
  | .hbm, ⟨8, _⟩ => ⟨S2048x20, .i32⟩
  | .hbm, ⟨9, _⟩ => ⟨S2048x20, .i32⟩
  | .hbm, ⟨10, _⟩ => ⟨S2048x20, .i32⟩
  | .hbm, ⟨11, _⟩ => ⟨S2048x20x1, .i32⟩
  | .hbm, ⟨12, _⟩ => ⟨S1, .i32⟩
  | .hbm, ⟨13, _⟩ => ⟨S_, .i32⟩
  | .hbm, ⟨14, _⟩ => ⟨S2048x20x1, .i32⟩
  | .hbm, ⟨15, _⟩ => ⟨S2048x20x1, .i1⟩
  | .hbm, ⟨16, _⟩ => ⟨S1x1x1, .i32⟩
  | .hbm, ⟨17, _⟩ => ⟨S2048x20x1, .i32⟩
  | .hbm, ⟨18, _⟩ => ⟨S2048x20x1, .i1⟩
  | .hbm, ⟨19, _⟩ => ⟨S2048x20x1, .i1⟩
  | .hbm, ⟨20, _⟩ => ⟨S_, .i1⟩
  | .hbm, ⟨21, _⟩ => ⟨S2048x20, .i1⟩
  | .hbm, ⟨22, _⟩ => ⟨S2048x20, .f32⟩
  | .hbm, ⟨23, _⟩ => ⟨S_, .f32⟩
  | .hbm, ⟨24, _⟩ => ⟨S2048x20, .f32⟩
  | .hbm, ⟨25, _⟩ => ⟨S2048x20, .f32⟩
  | .hbm, ⟨26, _⟩ => ⟨S2048x20, .f32⟩
  | .hbm, ⟨27, _⟩ => ⟨S_, .f32⟩
  | .hbm, ⟨28, _⟩ => ⟨S2048x20, .f32⟩
  | .hbm, ⟨29, _⟩ => ⟨S2048x20, .f32⟩
  | .hbm, ⟨30, _⟩ => ⟨S2048x20, .f32⟩
  | .hbm, ⟨31, _⟩ => ⟨S2048x20, .f32⟩
  | .hbm, ⟨32, _⟩ => ⟨S2048x20, .i1⟩
  | .hbm, ⟨33, _⟩ => ⟨S2048x20, .f32⟩
  | .hbm, ⟨34, _⟩ => ⟨S2048x20, .f32⟩
  | .hbm, ⟨35, _⟩ => ⟨S2048x20, .f32⟩
  | .hbm, ⟨36, _⟩ => ⟨S2048x20, .f32⟩
  | .hbm, ⟨37, _⟩ => ⟨S2048x20, .f32⟩
  | .hbm, ⟨38, _⟩ => ⟨S2048x20, .f32⟩
  | .hbm, ⟨39, _⟩ => ⟨S2048x20, .f32⟩
  | .hbm, ⟨40, _⟩ => ⟨S2048x20, .f32⟩
  | .hbm, ⟨41, _⟩ => ⟨S2048x20, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048x20, .f32⟩
  | .hbm, ⟨48, _⟩ => ⟨S2048x20, .f32⟩
  | .hbm, ⟨49, _⟩ => ⟨S_, .f32⟩
  | .hbm, ⟨50, _⟩ => ⟨S2048x20, .f32⟩
  | .hbm, ⟨51, _⟩ => ⟨S2048x20, .f32⟩
  | .hbm, ⟨52, _⟩ => ⟨S2048x20, .f32⟩
  | .hbm, ⟨53, _⟩ => ⟨S2048x20, .f32⟩
  | .hbm, ⟨54, _⟩ => ⟨S2048x20, .i1⟩
  | .hbm, ⟨55, _⟩ => ⟨S2048x20, .f32⟩
  | .hbm, ⟨56, _⟩ => ⟨S2048x20, .f32⟩
  | .hbm, ⟨57, _⟩ => ⟨S2048x20, .f32⟩
  | .hbm, ⟨58, _⟩ => ⟨S2048x20, .f32⟩
  | .hbm, ⟨59, _⟩ => ⟨S2048x20, .f32⟩
  | .hbm, ⟨60, _⟩ => ⟨S2048x20, .f32⟩
  | .hbm, ⟨61, _⟩ => ⟨S2048x20, .f32⟩
  | .hbm, ⟨62, _⟩ => ⟨S2048x20, .f32⟩
  | .hbm, ⟨63, _⟩ => ⟨S2048x20, .f32⟩
  | .hbm, ⟨64, _⟩ => ⟨S2048x20x1, .i32⟩
  | .hbm, ⟨65, _⟩ => ⟨S2048x1x20, .i32⟩
  | .hbm, ⟨66, _⟩ => ⟨S2048x20x20, .i32⟩
  | .hbm, ⟨67, _⟩ => ⟨S2048x20x20, .i32⟩
  | .hbm, ⟨68, _⟩ => ⟨S2048x20x20, .i1⟩
  | .hbm, ⟨69, _⟩ => ⟨S_, .i1⟩
  | .hbm, ⟨70, _⟩ => ⟨S20x20, .i1⟩
  | .hbm, ⟨71, _⟩ => ⟨S20x20, .i32⟩
  | .hbm, ⟨72, _⟩ => ⟨S_, .i32⟩
  | .hbm, ⟨73, _⟩ => ⟨S20x20, .i32⟩
  | .hbm, ⟨74, _⟩ => ⟨S20x20, .i32⟩
  | .hbm, ⟨75, _⟩ => ⟨S20x20, .i32⟩
  | .hbm, ⟨76, _⟩ => ⟨S20x20, .i1⟩
  | .hbm, ⟨77, _⟩ => ⟨S_, .i1⟩
  | .hbm, ⟨78, _⟩ => ⟨S20x20, .i1⟩
  | .hbm, ⟨79, _⟩ => ⟨S20x20, .i1⟩
  | .hbm, ⟨80, _⟩ => ⟨S1x20x20, .i1⟩
  | .hbm, ⟨81, _⟩ => ⟨S2048x20x20, .i1⟩
  | .hbm, ⟨82, _⟩ => ⟨S2048x20x20, .i1⟩
  | .hbm, ⟨83, _⟩ => ⟨S_, .i1⟩
  | .hbm, ⟨84, _⟩ => ⟨S2048x20, .i1⟩
  | .hbm, ⟨85, _⟩ => ⟨S2048x20, .i1⟩
  | .hbm, ⟨86, _⟩ => ⟨S2048x20, .f32⟩
  | .hbm, ⟨87, _⟩ => ⟨S_, .f32⟩
  | .hbm, ⟨88, _⟩ => ⟨S2048, .f32⟩
  | .hbm, ⟨89, _⟩ => ⟨S_, .f32⟩
  | .hbm, ⟨90, _⟩ => ⟨S_, .f32⟩
  | .hbm, ⟨91, _⟩ => ⟨S2048x20, .f32⟩
  | .hbm, ⟨92, _⟩ => ⟨S2048x20, .f32⟩
  | .hbm, ⟨93, _⟩ => ⟨S_, .f32⟩
  | .hbm, ⟨94, _⟩ => ⟨S2048, .f32⟩
  | .hbm, ⟨95, _⟩ => ⟨S2048, .f32⟩
  | .hbm, ⟨96, _⟩ => ⟨S_, .f32⟩
  | .hbm, ⟨97, _⟩ => ⟨S2048, .f32⟩
  | .hbm, ⟨98, _⟩ => ⟨S2048, .f32⟩
  | .hbm, ⟨99, _⟩ => ⟨S2048, .f32⟩
  | .hbm, ⟨100, _⟩ => ⟨S2048, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .local _ .vmem, ⟨0, _⟩ => ⟨S64x50257, .f32⟩
  | .local _ .vmem, ⟨1, _⟩ => ⟨S64x50257, .f32⟩
  | .local _ .vmem, ⟨2, _⟩ => ⟨S64x1, .f32⟩
  | .local _ .vmem, ⟨3, _⟩ => ⟨S64x1, .f32⟩
  | _, _ => ⟨S2048x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩
abbrev main_call1_v0 : Ref sig .tc := ⟨.hbm, 26, rfl⟩
abbrev main_call1_call0_cst : Ref sig .tc := ⟨.hbm, 27, rfl⟩
abbrev main_call1_call0_v0 : Ref sig .tc := ⟨.hbm, 28, rfl⟩
abbrev main_call1_call0_v1 : Ref sig .tc := ⟨.hbm, 29, rfl⟩
abbrev main_call1_call0_v2 : Ref sig .tc := ⟨.hbm, 30, rfl⟩
abbrev main_call1_call0_v3 : Ref sig .tc := ⟨.hbm, 31, rfl⟩
abbrev main_call1_call0_v4 : Ref sig .tc := ⟨.hbm, 32, rfl⟩
abbrev main_call1_call0_v5 : Ref sig .tc := ⟨.hbm, 33, rfl⟩
abbrev main_call1_call0_v6 : Ref sig .tc := ⟨.hbm, 34, rfl⟩
abbrev main_call1_call0_v7 : Ref sig .tc := ⟨.hbm, 35, rfl⟩
abbrev main_call1_call0_v8 : Ref sig .tc := ⟨.hbm, 36, rfl⟩
abbrev main_call1_call0_v9 : Ref sig .tc := ⟨.hbm, 37, rfl⟩
abbrev main_call1_call0_v10 : Ref sig .tc := ⟨.hbm, 38, rfl⟩
abbrev main_call1_call0_v11 : Ref sig .tc := ⟨.hbm, 39, rfl⟩
abbrev main_call1_v1 : Ref sig .tc := ⟨.hbm, 40, rfl⟩
abbrev main_v3 : Ref sig .tc := ⟨.hbm, 41, rfl⟩
abbrev main_cst : Ref sig .tc := ⟨.hbm, 42, rfl⟩
abbrev main_v4 : Ref sig .tc := ⟨.hbm, 43, rfl⟩
abbrev main_cst_0 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_call2_v0 : Ref sig .tc := ⟨.hbm, 48, rfl⟩
abbrev main_call2_call0_cst : Ref sig .tc := ⟨.hbm, 49, rfl⟩
abbrev main_call2_call0_v0 : Ref sig .tc := ⟨.hbm, 50, rfl⟩
abbrev main_call2_call0_v1 : Ref sig .tc := ⟨.hbm, 51, rfl⟩
abbrev main_call2_call0_v2 : Ref sig .tc := ⟨.hbm, 52, rfl⟩
abbrev main_call2_call0_v3 : Ref sig .tc := ⟨.hbm, 53, rfl⟩
abbrev main_call2_call0_v4 : Ref sig .tc := ⟨.hbm, 54, rfl⟩
abbrev main_call2_call0_v5 : Ref sig .tc := ⟨.hbm, 55, rfl⟩
abbrev main_call2_call0_v6 : Ref sig .tc := ⟨.hbm, 56, rfl⟩
abbrev main_call2_call0_v7 : Ref sig .tc := ⟨.hbm, 57, rfl⟩
abbrev main_call2_call0_v8 : Ref sig .tc := ⟨.hbm, 58, rfl⟩
abbrev main_call2_call0_v9 : Ref sig .tc := ⟨.hbm, 59, rfl⟩
abbrev main_call2_call0_v10 : Ref sig .tc := ⟨.hbm, 60, rfl⟩
abbrev main_call2_call0_v11 : Ref sig .tc := ⟨.hbm, 61, rfl⟩
abbrev main_call2_v1 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_c : Ref sig .tc := ⟨.hbm, 69, rfl⟩
abbrev main_v14 : Ref sig .tc := ⟨.hbm, 70, rfl⟩
abbrev main_call3_v0 : Ref sig .tc := ⟨.hbm, 71, rfl⟩
abbrev main_call3_c : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_c_0 : Ref sig .tc := ⟨.hbm, 77, rfl⟩
abbrev main_call3_v5 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_c_1 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_cst_2 : Ref sig .tc := ⟨.hbm, 87, rfl⟩
abbrev main_v22 : Ref sig .tc := ⟨.hbm, 88, rfl⟩
abbrev main_cst_3 : Ref sig .tc := ⟨.hbm, 89, rfl⟩
abbrev main_call4_v0 : Ref sig .tc := ⟨.hbm, 90, rfl⟩
abbrev main_call4_v1 : Ref sig .tc := ⟨.hbm, 91, rfl⟩
abbrev main_v23 : Ref sig .tc := ⟨.hbm, 92, rfl⟩
abbrev main_cst_4 : Ref sig .tc := ⟨.hbm, 93, rfl⟩
abbrev main_v24 : Ref sig .tc := ⟨.hbm, 94, rfl⟩
abbrev main_v25 : Ref sig .tc := ⟨.hbm, 95, rfl⟩
abbrev main_cst_5 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_cst_6 : Ref sig .tc := ⟨.hbm, 101, rfl⟩
abbrev main_v30 : Ref sig .tc := ⟨.hbm, 102, rfl⟩
abbrev main_cst_7 : Ref sig .tc := ⟨.hbm, 103, rfl⟩
abbrev main_v31 : Ref sig .tc := ⟨.hbm, 104, rfl⟩
abbrev main_v32 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c8192_i32 : BitVec 32 := 8192#32
  let v1 : BitVec 32 := Scalar.muli c0_i32 c8192_i32
  v1
def k0_off1 (c0_i32 : BitVec 32) : Fin 2 → Nat :=
  let c0 : Index := 0#32
  let c8192_i32 : BitVec 32 := 8192#32
  let v1 : BitVec 32 := Scalar.muli c0_i32 c8192_i32
  let v2 : BitVec 32 := v1
  let v3 : Index := Scalar.indexCast v2
  ![0, v3.toNat]
def k0_mult2 : BitVec 32 :=
  let c1_i32 : BitVec 32 := 1#32
  let c8192_i32_4 : BitVec 32 := 8192#32
  let v18 : BitVec 32 := Scalar.muli c1_i32 c8192_i32_4
  v18
def k0_mult3 : BitVec 32 :=
  let c2_i32 : BitVec 32 := 2#32
  let c8192_i32_10 : BitVec 32 := 8192#32
  let v35 : BitVec 32 := Scalar.muli c2_i32 c8192_i32_10
  v35
def k0_mult4 : BitVec 32 :=
  let c3_i32 : BitVec 32 := 3#32
  let c8192_i32_16 : BitVec 32 := 8192#32
  let v52 : BitVec 32 := Scalar.muli c3_i32 c8192_i32_16
  v52
def k0_mult5 : BitVec 32 :=
  let c4_i32 : BitVec 32 := 4#32
  let c8192_i32_22 : BitVec 32 := 8192#32
  let v69 : BitVec 32 := Scalar.muli c4_i32 c8192_i32_22
  v69
def k0_mult6 : BitVec 32 :=
  let c5_i32 : BitVec 32 := 5#32
  let c8192_i32_28 : BitVec 32 := 8192#32
  let v86 : BitVec 32 := Scalar.muli c5_i32 c8192_i32_28
  v86
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S64x8192 : 0 < S64x8192.numel
  reduces_S64x8192_S64 : S64x8192.Reduces [1] S64
  shapeCasts_S64_S64x1 : S64.ShapeCasts S64x1
  inb_S64x50257_S64x1105_0_49152 : ∀ a, (![0, 49152] : Fin 2 → Nat) a + S64x1105.size a ≤ S64x50257.size a
  h_S64x1105 : 0 < S64x1105.numel
  reduces_S64x1105_S64 : S64x1105.Reduces [1] S64
  inb_S64x1_S64x1_0_0 : ∀ a, (![0, 0] : Fin 2 → Nat) a + S64x1.size a ≤ S64x1.size a
  h_S64x1 : 0 < S64x1.numel
  shapeCasts_S2048x1_S2048 : S2048x1.ShapeCasts S2048
  bcast_S_S2048x20 : S_.BroadcastsInDim S2048x20 (![] : Fin 0 → Fin S2048x20.rank)
  shapeCasts_S2048x20_S2048x20x1 : S2048x20.ShapeCasts S2048x20x1
  bcast_S_S2048x20x1 : S_.BroadcastsInDim S2048x20x1 (![] : Fin 0 → Fin S2048x20x1.rank)
  bcast_S1_S1x1x1_2 : S1.BroadcastsInDim S1x1x1 (![2] : Fin 1 → Fin S1x1x1.rank)
  bcast_S1x1x1_S2048x20x1_0_1_2 : S1x1x1.BroadcastsInDim S2048x20x1 (![0, 1, 2] : Fin 3 → Fin S2048x20x1.rank)
  reducesTo_S2048x20x1_S2048x20_d2 : S2048x20x1.ReducesTo [2] S2048x20
  h_S_ : 0 < S_.numel
  reducesTo_S2048x20_S2048_d1 : S2048x20.ReducesTo [1] S2048
  bcast_S_S2048 : S_.BroadcastsInDim S2048 (![] : Fin 0 → Fin S2048.rank)
  bcast_S2048x20_S2048x20x1_0_1 : S2048x20.BroadcastsInDim S2048x20x1 (![0, 1] : Fin 2 → Fin S2048x20x1.rank)
  bcast_S2048x20_S2048x1x20_0_2 : S2048x20.BroadcastsInDim S2048x1x20 (![0, 2] : Fin 2 → Fin S2048x1x20.rank)
  bcast_S2048x20x1_S2048x20x20_0_1_2 : S2048x20x1.BroadcastsInDim S2048x20x20 (![0, 1, 2] : Fin 3 → Fin S2048x20x20.rank)
  bcast_S2048x1x20_S2048x20x20_0_1_2 : S2048x1x20.BroadcastsInDim S2048x20x20 (![0, 1, 2] : Fin 3 → Fin S2048x20x20.rank)
  bcast_S_S20x20 : S_.BroadcastsInDim S20x20 (![] : Fin 0 → Fin S20x20.rank)
  bcast_S20x20_S1x20x20_1_2 : S20x20.BroadcastsInDim S1x20x20 (![1, 2] : Fin 2 → Fin S1x20x20.rank)
  bcast_S1x20x20_S2048x20x20_0_1_2 : S1x20x20.BroadcastsInDim S2048x20x20 (![0, 1, 2] : Fin 3 → Fin S2048x20x20.rank)
  reducesTo_S2048x20x20_S2048x20_d2 : S2048x20x20.ReducesTo [2] S2048x20
  reducesTo_S2048_S_d0 : S2048.ReducesTo [0] S_
  gather_S2048x50257_S2048x20x1_S2048x20_n_1_0_0_1_2_11_wf : GatherDims.WF S2048x50257 S2048x20x1 S2048x20 [] [1] [0] [1] [0] 2 ![1, 1]
  hrank0 : 0 < grid0.rank
  k0_mult1_dvd : 8192 ∣ k0_mult1.toNat
  k0_off1_inb : ∀ (r : Fin 6), ∀ a, (k0_off1 (BitVec.ofNat 32 r.val)) a + S64x8192.size a ≤ S64x50257.size a
  k0_mult2_dvd : 8192 ∣ k0_mult2.toNat
  k0_mult3_dvd : 8192 ∣ k0_mult3.toNat
  k0_mult4_dvd : 8192 ∣ k0_mult4.toNat
  k0_mult5_dvd : 8192 ∣ k0_mult5.toNat
  k0_mult6_dvd : 8192 ∣ k0_mult6.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x50257.size a ≤ S2048x50257.size a
  hwx0_0 : ∀ i : grid0.Coords, EltTy.bits .f32 = 32 ∨ (Rect.block (s := S2048x50257) S64x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S2048x1.size a
  hwx0_1 : ∀ i : grid0.Coords, EltTy.bits .f32 = 32 ∨ (Rect.block (s := S2048x1) S64x1.size (cc0_transform_1 i) (hinb0_1 i)).WholeWords (EltTy.packing .f32)

variable [Facts₀]

def gather_S2048x50257_S2048x20x1_S2048x20_n_1_0_0_1_2_11 : GatherDims S2048x50257 S2048x20x1 S2048x20 where
  offsetDims := []
  collapsedSliceDims := [1]
  operandBatchingDims := [0]
  startIndicesBatchingDims := [0]
  startIndexMap := [1]
  indexVectorDim := 2
  sliceSizes := ![1, 1]
  wf := gather_S2048x50257_S2048x20x1_S2048x20_n_1_0_0_1_2_11_wf

abbrev win0_0 : Pipeline.Window sig grid0 :=
  Pipeline.Window.ofSpec (Memref.whole main_arg0) S64x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x50257 : Shape := ⟨2, ![2048, 50257]⟩
abbrev S2048x20 : Shape := ⟨2, ![2048, 20]⟩
abbrev S_ : Shape := ⟨0, ![]⟩
abbrev S2048x20x1 : Shape := ⟨3, ![2048, 20, 1]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S2048x20x2 : Shape := ⟨3, ![2048, 20, 2]⟩

abbrev nBuf : Space → Nat
  | .hbm => 104
  | .vmem => 0
  | .smem => 0
  | _ => 0

abbrev bufTy : (tb : Table) → Fin (tcTables nBuf tb) → BufTy
  | .hbm, ⟨0, _⟩ => ⟨S2048x50257, .f32⟩
  | .hbm, ⟨1, _⟩ => ⟨S2048x20, .i32⟩
  | .hbm, ⟨2, _⟩ => ⟨S_, .i32⟩
  | .hbm, ⟨3, _⟩ => ⟨S2048x20, .i32⟩
  | .hbm, ⟨4, _⟩ => ⟨S2048x20, .i1⟩
  | .hbm, ⟨5, _⟩ => ⟨S_, .i32⟩
  | .hbm, ⟨6, _⟩ => ⟨S2048x20, .i32⟩
  | .hbm, ⟨7, _⟩ => ⟨S2048x20, .i32⟩
  | .hbm, ⟨8, _⟩ => ⟨S2048x20, .i32⟩
  | .hbm, ⟨9, _⟩ => ⟨S2048x20x1, .i32⟩
  | .hbm, ⟨10, _⟩ => ⟨S1, .i32⟩
  | .hbm, ⟨11, _⟩ => ⟨S_, .i32⟩
  | .hbm, ⟨12, _⟩ => ⟨S2048x20x1, .i32⟩
  | .hbm, ⟨13, _⟩ => ⟨S2048x20x1, .i1⟩
  | .hbm, ⟨14, _⟩ => ⟨S1x1x1, .i32⟩
  | .hbm, ⟨15, _⟩ => ⟨S2048x20x1, .i32⟩
  | .hbm, ⟨16, _⟩ => ⟨S2048x20x1, .i1⟩
  | .hbm, ⟨17, _⟩ => ⟨S2048x20x1, .i1⟩
  | .hbm, ⟨18, _⟩ => ⟨S_, .i1⟩
  | .hbm, ⟨19, _⟩ => ⟨S2048x20, .i1⟩
  | .hbm, ⟨20, _⟩ => ⟨S2048x20, .f32⟩
  | .hbm, ⟨21, _⟩ => ⟨S_, .f32⟩
  | .hbm, ⟨22, _⟩ => ⟨S2048x20, .f32⟩
  | .hbm, ⟨23, _⟩ => ⟨S2048x20, .f32⟩
  | .hbm, ⟨24, _⟩ => ⟨S2048x20, .f32⟩
  | .hbm, ⟨25, _⟩ => ⟨S_, .f32⟩
  | .hbm, ⟨26, _⟩ => ⟨S2048x20, .f32⟩
  | .hbm, ⟨27, _⟩ => ⟨S2048x20, .f32⟩
  | .hbm, ⟨28, _⟩ => ⟨S2048x20, .f32⟩
  | .hbm, ⟨29, _⟩ => ⟨S2048x20, .f32⟩
  | .hbm, ⟨30, _⟩ => ⟨S2048x20, .i1⟩
  | .hbm, ⟨31, _⟩ => ⟨S2048x20, .f32⟩
  | .hbm, ⟨32, _⟩ => ⟨S2048x20, .f32⟩
  | .hbm, ⟨33, _⟩ => ⟨S2048x20, .f32⟩
  | .hbm, ⟨34, _⟩ => ⟨S2048x20, .f32⟩
  | .hbm, ⟨35, _⟩ => ⟨S2048x20, .f32⟩
  | .hbm, ⟨36, _⟩ => ⟨S2048x20, .f32⟩
  | .hbm, ⟨37, _⟩ => ⟨S2048x20, .f32⟩
  | .hbm, ⟨38, _⟩ => ⟨S2048x20, .f32⟩
  | .hbm, ⟨39, _⟩ => ⟨S2048x20, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048, .i32⟩
  | .hbm, ⟨46, _⟩ => ⟨S2048x1, .i32⟩
  | .hbm, ⟨47, _⟩ => ⟨S_, .i1⟩
  | .hbm, ⟨48, _⟩ => ⟨S2048x50257, .i1⟩
  | .hbm, ⟨49, _⟩ => ⟨S_, .i32⟩
  | .hbm, ⟨50, _⟩ => ⟨S2048x1, .i32⟩
  | .hbm, ⟨51, _⟩ => ⟨S2048x1, .i1⟩
  | .hbm, ⟨52, _⟩ => ⟨S_, .i32⟩
  | .hbm, ⟨53, _⟩ => ⟨S2048x1, .i32⟩
  | .hbm, ⟨54, _⟩ => ⟨S2048x1, .i32⟩
  | .hbm, ⟨55, _⟩ => ⟨S2048x1, .i32⟩
  | .hbm, ⟨56, _⟩ => ⟨S_, .i32⟩
  | .hbm, ⟨57, _⟩ => ⟨S2048x20, .i32⟩
  | .hbm, ⟨58, _⟩ => ⟨S2048x20, .i1⟩
  | .hbm, ⟨59, _⟩ => ⟨S_, .i32⟩
  | .hbm, ⟨60, _⟩ => ⟨S2048x20, .i32⟩
  | .hbm, ⟨61, _⟩ => ⟨S2048x20, .i32⟩
  | .hbm, ⟨62, _⟩ => ⟨S2048x20, .i32⟩
  | .hbm, ⟨63, _⟩ => ⟨S2048x20, .i32⟩
  | .hbm, ⟨64, _⟩ => ⟨S2048x20x1, .i32⟩
  | .hbm, ⟨65, _⟩ => ⟨S2048x20x1, .i32⟩
  | .hbm, ⟨66, _⟩ => ⟨S2048x20x2, .i32⟩
  | .hbm, ⟨67, _⟩ => ⟨S_, .i1⟩
  | .hbm, ⟨68, _⟩ => ⟨S2048x20, .i1⟩
  | .hbm, ⟨69, _⟩ => ⟨S2048x50257, .i1⟩
  | .hbm, ⟨70, _⟩ => ⟨S2048x50257, .f32⟩
  | .hbm, ⟨71, _⟩ => ⟨S2048x50257, .f32⟩
  | .hbm, ⟨72, _⟩ => ⟨S_, .f32⟩
  | .hbm, ⟨73, _⟩ => ⟨S2048x50257, .f32⟩
  | .hbm, ⟨74, _⟩ => ⟨S2048x50257, .f32⟩
  | .hbm, ⟨75, _⟩ => ⟨S2048x50257, .f32⟩
  | .hbm, ⟨76, _⟩ => ⟨S2048x50257, .f32⟩
  | .hbm, ⟨77, _⟩ => ⟨S2048x50257, .i1⟩
  | .hbm, ⟨78, _⟩ => ⟨S2048x50257, .f32⟩
  | .hbm, ⟨79, _⟩ => ⟨S2048x50257, .f32⟩
  | .hbm, ⟨80, _⟩ => ⟨S2048x50257, .f32⟩
  | .hbm, ⟨81, _⟩ => ⟨S2048x50257, .f32⟩
  | .hbm, ⟨82, _⟩ => ⟨S2048x50257, .f32⟩
  | .hbm, ⟨83, _⟩ => ⟨S2048x50257, .f32⟩
  | .hbm, ⟨84, _⟩ => ⟨S2048x50257, .f32⟩
  | .hbm, ⟨85, _⟩ => ⟨S2048x50257, .f32⟩
  | .hbm, ⟨86, _⟩ => ⟨S2048x50257, .f32⟩
  | .hbm, ⟨87, _⟩ => ⟨S_, .f32⟩
  | .hbm, ⟨88, _⟩ => ⟨S_, .f32⟩
  | .hbm, ⟨89, _⟩ => ⟨S2048x50257, .f32⟩
  | .hbm, ⟨90, _⟩ => ⟨S2048x50257, .f32⟩
  | .hbm, ⟨91, _⟩ => ⟨S_, .f32⟩
  | .hbm, ⟨92, _⟩ => ⟨S2048, .f32⟩
  | .hbm, ⟨93, _⟩ => ⟨S2048x50257, .i32⟩
  | .hbm, ⟨94, _⟩ => ⟨S_, .i32⟩
  | .hbm, ⟨95, _⟩ => ⟨S2048, .i32⟩
  | .hbm, ⟨96, _⟩ => ⟨S2048, .f32⟩
  | .hbm, ⟨97, _⟩ => ⟨S2048, .f32⟩
  | .hbm, ⟨98, _⟩ => ⟨S2048, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S2048x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩
abbrev main_call1_v0 : Ref sig .tc := ⟨.hbm, 24, rfl⟩
abbrev main_call1_call0_cst : Ref sig .tc := ⟨.hbm, 25, rfl⟩
abbrev main_call1_call0_v0 : Ref sig .tc := ⟨.hbm, 26, rfl⟩
abbrev main_call1_call0_v1 : Ref sig .tc := ⟨.hbm, 27, rfl⟩
abbrev main_call1_call0_v2 : Ref sig .tc := ⟨.hbm, 28, rfl⟩
abbrev main_call1_call0_v3 : Ref sig .tc := ⟨.hbm, 29, rfl⟩
abbrev main_call1_call0_v4 : Ref sig .tc := ⟨.hbm, 30, rfl⟩
abbrev main_call1_call0_v5 : Ref sig .tc := ⟨.hbm, 31, rfl⟩
abbrev main_call1_call0_v6 : Ref sig .tc := ⟨.hbm, 32, rfl⟩
abbrev main_call1_call0_v7 : Ref sig .tc := ⟨.hbm, 33, rfl⟩
abbrev main_call1_call0_v8 : Ref sig .tc := ⟨.hbm, 34, rfl⟩
abbrev main_call1_call0_v9 : Ref sig .tc := ⟨.hbm, 35, rfl⟩
abbrev main_call1_call0_v10 : Ref sig .tc := ⟨.hbm, 36, rfl⟩
abbrev main_call1_call0_v11 : Ref sig .tc := ⟨.hbm, 37, rfl⟩
abbrev main_call1_v1 : Ref sig .tc := ⟨.hbm, 38, rfl⟩
abbrev main_v1 : Ref sig .tc := ⟨.hbm, 39, rfl⟩
abbrev main_cst : Ref sig .tc := ⟨.hbm, 40, rfl⟩
abbrev main_v2 : Ref sig .tc := ⟨.hbm, 41, rfl⟩
abbrev main_cst_0 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_c : Ref sig .tc := ⟨.hbm, 47, rfl⟩
abbrev main_v7 : Ref sig .tc := ⟨.hbm, 48, rfl⟩
abbrev main_c_1 : Ref sig .tc := ⟨.hbm, 49, rfl⟩
abbrev main_v8 : Ref sig .tc := ⟨.hbm, 50, rfl⟩
abbrev main_v9 : Ref sig .tc := ⟨.hbm, 51, rfl⟩
abbrev main_c_2 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_c_3 : Ref sig .tc := ⟨.hbm, 56, rfl⟩
abbrev main_v13 : Ref sig .tc := ⟨.hbm, 57, rfl⟩
abbrev main_v14 : Ref sig .tc := ⟨.hbm, 58, rfl⟩
abbrev main_c_4 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_c_5 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_call2_v0 : Ref sig .tc := ⟨.hbm, 71, rfl⟩
abbrev main_call2_call0_cst : Ref sig .tc := ⟨.hbm, 72, rfl⟩
abbrev main_call2_call0_v0 : Ref sig .tc := ⟨.hbm, 73, rfl⟩
abbrev main_call2_call0_v1 : Ref sig .tc := ⟨.hbm, 74, rfl⟩
abbrev main_call2_call0_v2 : Ref sig .tc := ⟨.hbm, 75, rfl⟩
abbrev main_call2_call0_v3 : Ref sig .tc := ⟨.hbm, 76, rfl⟩
abbrev main_call2_call0_v4 : Ref sig .tc := ⟨.hbm, 77, rfl⟩
abbrev main_call2_call0_v5 : Ref sig .tc := ⟨.hbm, 78, rfl⟩
abbrev main_call2_call0_v6 : Ref sig .tc := ⟨.hbm, 79, rfl⟩
abbrev main_call2_call0_v7 : Ref sig .tc := ⟨.hbm, 80, rfl⟩
abbrev main_call2_call0_v8 : Ref sig .tc := ⟨.hbm, 81, rfl⟩
abbrev main_call2_call0_v9 : Ref sig .tc := ⟨.hbm, 82, rfl⟩
abbrev main_call2_call0_v10 : Ref sig .tc := ⟨.hbm, 83, rfl⟩
abbrev main_call2_call0_v11 : Ref sig .tc := ⟨.hbm, 84, rfl⟩
abbrev main_call2_v1 : Ref sig .tc := ⟨.hbm, 85, rfl⟩
abbrev main_v25 : Ref sig .tc := ⟨.hbm, 86, rfl⟩
abbrev main_cst_6 : Ref sig .tc := ⟨.hbm, 87, rfl⟩
abbrev main_call3_v0 : Ref sig .tc := ⟨.hbm, 88, rfl⟩
abbrev main_call3_v1 : Ref sig .tc := ⟨.hbm, 89, rfl⟩
abbrev main_v26 : Ref sig .tc := ⟨.hbm, 90, rfl⟩
abbrev main_cst_7 : Ref sig .tc := ⟨.hbm, 91, rfl⟩
abbrev main_v27 : Ref sig .tc := ⟨.hbm, 92, rfl⟩
abbrev main_v28 : Ref sig .tc := ⟨.hbm, 93, rfl⟩
abbrev main_c_8 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_cst_9 : Ref sig .tc := ⟨.hbm, 99, rfl⟩
abbrev main_v33 : Ref sig .tc := ⟨.hbm, 100, rfl⟩
abbrev main_cst_10 : Ref sig .tc := ⟨.hbm, 101, rfl⟩
abbrev main_v34 : Ref sig .tc := ⟨.hbm, 102, rfl⟩
abbrev main_v35 : Ref sig .tc := ⟨.hbm, 103, rfl⟩

abbrev nD : Nat := 1
abbrev τ : Topo := Topo.v7x

variable {F : FTy → Type} [FloatOps F]

class Facts₀ : Prop where
  bcast_S_S2048x20 : S_.BroadcastsInDim S2048x20 (![] : Fin 0 → Fin S2048x20.rank)
  shapeCasts_S2048x20_S2048x20x1 : S2048x20.ShapeCasts S2048x20x1
  bcast_S_S2048x20x1 : S_.BroadcastsInDim S2048x20x1 (![] : Fin 0 → Fin S2048x20x1.rank)
  bcast_S1_S1x1x1_2 : S1.BroadcastsInDim S1x1x1 (![2] : Fin 1 → Fin S1x1x1.rank)
  bcast_S1x1x1_S2048x20x1_0_1_2 : S1x1x1.BroadcastsInDim S2048x20x1 (![0, 1, 2] : Fin 3 → Fin S2048x20x1.rank)
  reducesTo_S2048x20x1_S2048x20_d2 : S2048x20x1.ReducesTo [2] S2048x20
  h_S_ : 0 < S_.numel
  reducesTo_S2048x20_S2048_d1 : S2048x20.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S_S2048x50257 : S_.BroadcastsInDim S2048x50257 (![] : Fin 0 → Fin S2048x50257.rank)
  bcast_S_S2048x1 : S_.BroadcastsInDim S2048x1 (![] : Fin 0 → Fin S2048x1.rank)
  bcast_S2048x1_S2048x20_0_1 : S2048x1.BroadcastsInDim S2048x20 (![0, 1] : Fin 2 → Fin S2048x20.rank)
  bcast_S2048x20_S2048x20x1_0_1 : S2048x20.BroadcastsInDim S2048x20x1 (![0, 1] : Fin 2 → Fin S2048x20x1.rank)
  concatenates_S2048x20x1_S2048x20x1_S2048x20x2_d2 : Shape.Concatenates [S2048x20x1, S2048x20x1] S2048x20x2 2
  reducesTo_S2048x50257_S2048_d1 : S2048x50257.ReducesTo [1] S2048
  natLt_1_32 : 1 < 32
  reducesTo_S2048_S_d0 : S2048.ReducesTo [0] S_
  gather_S2048x50257_S2048x20x1_S2048x20_n_1_0_0_1_2_11_wf : GatherDims.WF S2048x50257 S2048x20x1 S2048x20 [] [1] [0] [1] [0] 2 ![1, 1]
  scatter_S2048x50257_S2048x20x2_S2048x20_n_01_01_2_wf : ScatterDims.WF S2048x50257 S2048x20x2 S2048x20 [] [0, 1] [0, 1] 2

variable [Facts₀]

def gather_S2048x50257_S2048x20x1_S2048x20_n_1_0_0_1_2_11 : GatherDims S2048x50257 S2048x20x1 S2048x20 where
  offsetDims := []
  collapsedSliceDims := [1]
  operandBatchingDims := [0]
  startIndicesBatchingDims := [0]
  startIndexMap := [1]
  indexVectorDim := 2
  sliceSizes := ![1, 1]
  wf := gather_S2048x50257_S2048x20x1_S2048x20_n_1_0_0_1_2_11_wf
def scatter_S2048x50257_S2048x20x2_S2048x20_n_01_01_2 : ScatterDims S2048x50257 S2048x20x2 S2048x20 where
  updateWindowDims := []
  insertedWindowDims := [0, 1]
  scatterDimsToOperandDims := [0, 1]
  indexVectorDim := 2
  wf := scatter_S2048x50257_S2048x20x2_S2048x20_n_01_01_2_wf

class Facts : Prop extends Facts₀ where

variable [Facts]
-- ==== Proof.KFrame.lean ====
/-
  The frame of the kernel program: @main is one pipelined region of 32 points followed by ten stretches of host
  operations. At each point the body reads seven rectangles of its input block (six of 8192 columns and a last of
  1105), reads its output buffer once without using the value, and stores the output buffer whole; so what the
  output buffer holds after the body is a closed function of the input block alone. This file states that function,
  the region's proof data, the body's triple and obligation, the run around the region with the host stretches
  after it, and the frame claim: both argument arrays end as they began.
-/
import proofs.«420997_j88828513616443_3_alg».proof.Proof.Gen.KernelIdeal.Launch
import proofs.«420997_j88828513616443_3_alg».proof.Proof.Gen.KernelIdeal.Skeleton
import proofs.«420997_j88828513616443_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of long extents is checked structurally, one step per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The ten stretches of host operations that follow the region, in order. -/
abbrev opss : List (List (HloOp τ sig (Elt F))) :=
  [hostOps1, hostOps1_1, hostOps1_2, hostOps1_3, hostOps1_4, hostOps1_5, hostOps1_6, hostOps1_7, hostOps1_8, hostOps1_9]

/-- A core's buffer contents when the region is entered, as a valuation: no host operation precedes the region, so
    they are the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The six rectangles of 8192 columns, at column offsets 0, 8192, …, 40960, and the last of 1105 columns at 49152. -/
abbrev rIn0 : Rect S64x50257 := Rect.unit (s := S64x50257) (k0_off1 0#32) S64x8192.size (k0_off1_inb 0)
abbrev rIn1 : Rect S64x50257 := Rect.unit (s := S64x50257) (k0_off1 1#32) S64x8192.size (k0_off1_inb 1)
abbrev rIn2 : Rect S64x50257 := Rect.unit (s := S64x50257) (k0_off1 2#32) S64x8192.size (k0_off1_inb 2)
abbrev rIn3 : Rect S64x50257 := Rect.unit (s := S64x50257) (k0_off1 3#32) S64x8192.size (k0_off1_inb 3)
abbrev rIn4 : Rect S64x50257 := Rect.unit (s := S64x50257) (k0_off1 4#32) S64x8192.size (k0_off1_inb 4)
abbrev rIn5 : Rect S64x50257 := Rect.unit (s := S64x50257) (k0_off1 5#32) S64x8192.size (k0_off1_inb 5)
abbrev rIn6 : Rect S64x50257 := Rect.unit (s := S64x50257) ![0, 49152] S64x1105.size inb_S64x50257_S64x1105_0_49152
/-- The output buffer, whole. -/
abbrev rOut : Rect S64x1 := Rect.unit (s := S64x1) ![0, 0] S64x1.size inb_S64x1_S64x1_0_0

/-! ## What the body leaves in the output window's buffer -/

/-- The value the body stores, from the input block: the payloads composed over the seven loaded rectangles. -/
def stored (x0 : Vec F S64x50257 .f32) : FVec F S64x1 .f32 :=
  k0_pay1
    (k0_pay4 (k0_pay2 (View.ld x0 rIn0) (View.ld x0 rIn1)) (View.ld x0 rIn2) (k0_pay3 (F := F)) (View.ld x0 rIn3))
    (k0_pay5 (View.ld x0 rIn4)) (View.ld x0 rIn5) (View.ld x0 rIn6)

/-- The output window's staging buffer after the body: its one store, laid over the buffer. -/
def out0_1 (x0 : Vec F S64x50257 .f32) : Vec F S64x1 .f32 :=
  View.canon [⟨rOut, stored x0⟩]

/-- The one store fills the buffer, so it covers it. -/
theorem cover0_1 (p0 : Vec F S64x1 .f32) (y : S64x1.Idx) :
    ∃ pc ∈ ([⟨rOut, p0⟩] : List (View.Piece (Elt F) S64x1 .f32)), y ∈ pc.1.set :=
  View.cover_of_tiled [⟨rOut, p0⟩] S64x1.size (by rfl) y

/-! ## The body's triple -/

set_option maxHeartbeats 4000000 in
/-- The kernel body on whole staging memrefs, the input's at read contents `x0` and the output's at anything, runs to
    the continuation holding the input's as it was and the output's at `out0_1 x0`. -/
theorem sound_kernel (c : Dev nD) (E : Set ℕ) (i : grid0.Coords) (arg1 : Memref sig .tc .vmem S64x50257 .f32) (harg1 : arg1.IsWhole) (arg2 : Memref sig .tc .vmem S64x1 .f32) (harg2 : arg2.IsWhole)
    (x0 : Vec F S64x50257 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__neg_sum_kernel i arg1 harg1 arg2 harg2) K := by
  simp only [cc0__neg_sum_kernel_eq_skeleton]; unfold cc0__neg_sum_kernel_skel
  simp only [k0_part1_eq_skeleton, k0_part2_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the one pipeline on core `c`: the arrays as the region finds them; after the body at point
    `t` the input's buffer at its block and the output's at `out0_1` of the input block; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- The input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The host stretches after the region -/

/-- A property of every operation of every stretch, from the property stretch by stretch. -/
theorem forall_opss {p : HloOp τ sig (Elt F) → Prop}
    (h0 : (hostOps1 : List (HloOp τ sig (Elt F))).Forall p) (h1 : (hostOps1_1 : List (HloOp τ sig (Elt F))).Forall p)
    (h2 : (hostOps1_2 : List (HloOp τ sig (Elt F))).Forall p) (h3 : (hostOps1_3 : List (HloOp τ sig (Elt F))).Forall p)
    (h4 : (hostOps1_4 : List (HloOp τ sig (Elt F))).Forall p) (h5 : (hostOps1_5 : List (HloOp τ sig (Elt F))).Forall p)
    (h6 : (hostOps1_6 : List (HloOp τ sig (Elt F))).Forall p) (h7 : (hostOps1_7 : List (HloOp τ sig (Elt F))).Forall p)
    (h8 : (hostOps1_8 : List (HloOp τ sig (Elt F))).Forall p) (h9 : (hostOps1_9 : List (HloOp τ sig (Elt F))).Forall p) :
    ∀ ops ∈ (opss : List (List (HloOp τ sig (Elt F)))), ∀ op ∈ ops, p op := by
  intro ops hops op hop
  simp only [List.mem_cons, List.mem_nil_iff, or_false] at hops
  rcases hops with rfl | rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop
  · exact (List.forall_iff_forall_mem.mp h9) op hop

/-- No stretch allocates. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor

/-- The three buffers no host operation after the region writes: the two windows' arrays and the second argument. -/
abbrev kept : Fin 3 → Ref sig .tc := fun | 0 => main_arg0 | 1 => main_v0 | 2 => main_arg1
/-- An operation writes none of them. -/
def Keeps (op : HloOp τ sig (Elt F)) : Prop := ∀ w : Fin 3, Proc.devRef (τ := τ) .tc (kept w) ∉ op.writes

/-- Each operation writes only its own result buffer, which is none of the three. -/
theorem hostOps1_keeps : (hostOps1 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_1_keeps : (hostOps1_1 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_2_keeps : (hostOps1_2 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_3_keeps : (hostOps1_3 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_4_keeps : (hostOps1_4 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_5_keeps : (hostOps1_5 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_6_keeps : (hostOps1_6 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_7_keeps : (hostOps1_7 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_8_keeps : (hostOps1_8 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_9_keeps : (hostOps1_9 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

/-- @main around the region: the region, continued by the host stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [] opss (by simp only [List.Forall])
    (by simp only [List.Forall]) main_chain

/-- The stretches touch the pipeline's arrays and the bypassing buffers only: each operation's buffers are unscoped
    TensorCore references, and with nothing prefetched every such reference is one or the other. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  exact forall_opss (p := fun op => op.bufs ⊆ Pipeline.ucRefs τ sig)
    (List.forall_iff_forall_mem.mpr fun op h => Pipeline.sub_ucRefs op ((List.forall_iff_forall_mem.mp hostOps1_sub) op h))
    (List.forall_iff_forall_mem.mpr fun op h => Pipeline.sub_ucRefs op ((List.forall_iff_forall_mem.mp hostOps1_1_sub) op h))
    (List.forall_iff_forall_mem.mpr fun op h => Pipeline.sub_ucRefs op ((List.forall_iff_forall_mem.mp hostOps1_2_sub) op h))
    (List.forall_iff_forall_mem.mpr fun op h => Pipeline.sub_ucRefs op ((List.forall_iff_forall_mem.mp hostOps1_3_sub) op h))
    (List.forall_iff_forall_mem.mpr fun op h => Pipeline.sub_ucRefs op ((List.forall_iff_forall_mem.mp hostOps1_4_sub) op h))
    (List.forall_iff_forall_mem.mpr fun op h => Pipeline.sub_ucRefs op ((List.forall_iff_forall_mem.mp hostOps1_5_sub) op h))
    (List.forall_iff_forall_mem.mpr fun op h => Pipeline.sub_ucRefs op ((List.forall_iff_forall_mem.mp hostOps1_6_sub) op h))
    (List.forall_iff_forall_mem.mpr fun op h => Pipeline.sub_ucRefs op ((List.forall_iff_forall_mem.mp hostOps1_7_sub) op h))
    (List.forall_iff_forall_mem.mpr fun op h => Pipeline.sub_ucRefs op ((List.forall_iff_forall_mem.mp hostOps1_8_sub) op h))
    (List.forall_iff_forall_mem.mpr fun op h => Pipeline.sub_ucRefs op ((List.forall_iff_forall_mem.mp hostOps1_9_sub) op h))
/-- They allocate nothing. -/
theorem sfx_fresh : ∀ ops ∈ (opss : List (List (HloOp τ sig (Elt F)))), ∀ op ∈ ops, op.fresh = ∅ :=
  forall_opss hostOps1_fresh hostOps1_1_fresh hostOps1_2_fresh hostOps1_3_fresh hostOps1_4_fresh hostOps1_5_fresh
    hostOps1_6_fresh hostOps1_7_fresh hostOps1_8_fresh hostOps1_9_fresh
/-- They write none of the three kept buffers; -/
theorem sfx_kept : ∀ ops ∈ (opss : List (List (HloOp τ sig (Elt F)))), ∀ op ∈ ops, Keeps op :=
  forall_opss hostOps1_keeps hostOps1_1_keeps hostOps1_2_keeps hostOps1_3_keeps hostOps1_4_keeps hostOps1_5_keeps
    hostOps1_6_keeps hostOps1_7_keeps hostOps1_8_keeps hostOps1_9_keeps
/-- in particular no array of the pipeline. -/
theorem sfx_keeps : ∀ ops ∈ (opss : List (List (HloOp τ sig (Elt F)))), ∀ op ∈ ops,
    ∀ w, Proc.devRef .tc (Pipeline.arrRef spec0 w) ∉ op.writes := by
  intro ops hops op hop w
  have h := sfx_kept ops hops op hop
  fin_cases w
  · exact h 0
  · exact h 1

/-! ## The run and the frame -/

set_option backward.isDefEq.respectTransparency.types false in
/-- From any memory with zero counters, every weakly fair execution of @main on the TensorCores terminates, and every
    final state has every array of the pipeline at what the library computes from the proof data and every other
    unscoped buffer as the host stretches after the region leave it. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-! ## The contents the region leaves, and the run's post read through them -/

/-- A core's buffer contents when the region is left: the pipeline's arrays at what the library computes from the
    proof data, every other buffer as the region found it. -/
abbrev W (c : Dev nD) : Valuation τ sig (Elt F) :=
  Pipeline.withArrays spec0 c (V0 m c) fun w => (dats m 0 c).arrAt w cfg0.N

/-- The run's post at a buffer that bypasses the region: the host stretches' fold from the region's exit contents. -/
theorem post_rest {r : PUnit × MemSt nD τ sig (Elt F)}
    (h : Pipeline.FramePost cfgs (dats m) 0 (Pipeline.afterTail₀ cfgs (dats m) 0 (V0 m) opss) r) (c : Dev nD) (b : Ref sig .tc)
    (hb : b ∈ Pipeline.restRefs sig spec0) :
    r.2.mem ((c.tc : Thread nD τ).loc b) = StableHlo.after (List.flatten opss) (W m c) (Proc.devRef .tc b) :=
  (h c).2 b hb

/-- The first argument is the input window's array, which the pipeline leaves as launched. -/
theorem W_arg0 (c : Dev nD) : W m c (Proc.devRef .tc main_arg0) = m ((c.tc : Thread nD τ).loc main_arg0) :=
  (Pipeline.withArrays_arr spec0 launch0.win.arr_inj c (V0 m c) (fun w => (dats m 0 c).arrAt w cfg0.N) 0).trans
    (((dats m 0 c).arrAt_in 0 rfl _).trans ((A_eq m c 0).trans (V_main_arg0 m c)))

/-- The second argument is no array of the pipeline, so it is as launched. -/
theorem W_arg1 (c : Dev nD) : W m c (Proc.devRef .tc main_arg1) = m ((c.tc : Thread nD τ).loc main_arg1) :=
  (Pipeline.withArrays_of_ne spec0 c (V0 m c) (fun w => (dats m 0 c).arrAt w cfg0.N) main_arg1 (by decide)).trans
    (V_main_arg1 m c)

/-- The region's result is the output window's array, at what the library computes after the last point. -/
theorem W_v0 (c : Dev nD) : W m c (Proc.devRef .tc main_v0) = (dats m 0 c).arrAt 1 cfg0.N :=
  Pipeline.withArrays_arr spec0 launch0.win.arr_inj c (V0 m c) (fun w => (dats m 0 c).arrAt w cfg0.N) 1

/-- The run's post at the first argument: as launched. -/
theorem post_arg0 {r : PUnit × MemSt nD τ sig (Elt F)}
    (h : Pipeline.FramePost cfgs (dats m) 0 (Pipeline.afterTail₀ cfgs (dats m) 0 (V0 m) opss) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- The run's post at the second argument: no host operation after the region writes it, so it is as launched. -/
theorem post_arg1 {r : PUnit × MemSt nD τ sig (Elt F)}
    (h : Pipeline.FramePost cfgs (dats m) 0 (Pipeline.afterTail₀ cfgs (dats m) 0 (V0 m) opss) r) (c : Dev nD) :
    r.2.mem ((c.tc : Thread nD τ).loc main_arg1) = m ((c.tc : Thread nD τ).loc main_arg1) := by
  have hw : ∀ op ∈ (opss (F := F)).flatten, Proc.devRef (τ := τ) .tc main_arg1 ∉ op.writes := fun op hop => by
    obtain ⟨ops, hops, h⟩ := List.mem_flatten.mp hop
    exact sfx_kept ops hops op h 2
  rw [post_rest m h c main_arg1 (Pipeline.mem_restRefs_of main_arg1 rfl (by decide)),
    StableHlo.after_of_forall_not_mem _ _ hw]
  exact W_arg1 m c

/-- Both argument arrays end as they began: the first is the input window's array, which the pipeline only reads;
    the second bypasses the region and no host operation after it writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨post_arg0 m h c, post_arg1 m h c⟩) (run_main m ρ)

end Cert.KernelIdeal.Hand

end
-- ==== Proof.KFrameBits.lean ====
/-
  The frame of the kernel program: @main is one pipelined region of 32 points followed by ten stretches of host
  operations. At each point the body reads seven rectangles of its input block (six of 8192 columns and a last of
  1105), reads its output buffer once without using the value, and stores the output buffer whole; so what the
  output buffer holds after the body is a closed function of the input block alone. This file states that function,
  the region's proof data, the body's triple and obligation, the run around the region with the host stretches
  after it, and the frame claim: both argument arrays end as they began.
-/
import proofs.«420997_j88828513616443_3_alg».proof.Proof.Gen.Kernel.Launch
import proofs.«420997_j88828513616443_3_alg».proof.Proof.Gen.Kernel.Skeleton
import proofs.«420997_j88828513616443_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of long extents is checked structurally, one step per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The ten stretches of host operations that follow the region, in order. -/
abbrev opss : List (List (HloOp τ sig (Elt F))) :=
  [hostOps1, hostOps1_1, hostOps1_2, hostOps1_3, hostOps1_4, hostOps1_5, hostOps1_6, hostOps1_7, hostOps1_8, hostOps1_9]

/-- A core's buffer contents when the region is entered, as a valuation: no host operation precedes the region, so
    they are the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The six rectangles of 8192 columns, at column offsets 0, 8192, …, 40960, and the last of 1105 columns at 49152. -/
abbrev rIn0 : Rect S64x50257 := Rect.unit (s := S64x50257) (k0_off1 0#32) S64x8192.size (k0_off1_inb 0)
abbrev rIn1 : Rect S64x50257 := Rect.unit (s := S64x50257) (k0_off1 1#32) S64x8192.size (k0_off1_inb 1)
abbrev rIn2 : Rect S64x50257 := Rect.unit (s := S64x50257) (k0_off1 2#32) S64x8192.size (k0_off1_inb 2)
abbrev rIn3 : Rect S64x50257 := Rect.unit (s := S64x50257) (k0_off1 3#32) S64x8192.size (k0_off1_inb 3)
abbrev rIn4 : Rect S64x50257 := Rect.unit (s := S64x50257) (k0_off1 4#32) S64x8192.size (k0_off1_inb 4)
abbrev rIn5 : Rect S64x50257 := Rect.unit (s := S64x50257) (k0_off1 5#32) S64x8192.size (k0_off1_inb 5)
abbrev rIn6 : Rect S64x50257 := Rect.unit (s := S64x50257) ![0, 49152] S64x1105.size inb_S64x50257_S64x1105_0_49152
/-- The output buffer, whole. -/
abbrev rOut : Rect S64x1 := Rect.unit (s := S64x1) ![0, 0] S64x1.size inb_S64x1_S64x1_0_0

/-! ## What the body leaves in the output window's buffer -/

/-- The value the body stores, from the input block: the payloads composed over the seven loaded rectangles. -/
def stored (x0 : Vec F S64x50257 .f32) : FVec F S64x1 .f32 :=
  k0_pay1
    (k0_pay4 (k0_pay2 (View.ld x0 rIn0) (View.ld x0 rIn1)) (View.ld x0 rIn2) (k0_pay3 (F := F)) (View.ld x0 rIn3))
    (k0_pay5 (View.ld x0 rIn4)) (View.ld x0 rIn5) (View.ld x0 rIn6)

/-- The output window's staging buffer after the body: its one store, laid over the buffer. -/
def out0_1 (x0 : Vec F S64x50257 .f32) : Vec F S64x1 .f32 :=
  View.canon [⟨rOut, stored x0⟩]

/-- The one store fills the buffer, so it covers it. -/
theorem cover0_1 (p0 : Vec F S64x1 .f32) (y : S64x1.Idx) :
    ∃ pc ∈ ([⟨rOut, p0⟩] : List (View.Piece (Elt F) S64x1 .f32)), y ∈ pc.1.set :=
  View.cover_of_tiled [⟨rOut, p0⟩] S64x1.size (by rfl) y

/-! ## The body's triple -/

set_option maxHeartbeats 4000000 in
/-- The kernel body on whole staging memrefs, the input's at read contents `x0` and the output's at anything, runs to
    the continuation holding the input's as it was and the output's at `out0_1 x0`. -/
theorem sound_kernel (c : Dev nD) (E : Set ℕ) (i : grid0.Coords) (arg1 : Memref sig .tc .vmem S64x50257 .f32) (harg1 : arg1.IsWhole) (arg2 : Memref sig .tc .vmem S64x1 .f32) (harg2 : arg2.IsWhole)
    (x0 : Vec F S64x50257 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__neg_sum_kernel i arg1 harg1 arg2 harg2) K := by
  simp only [cc0__neg_sum_kernel_eq_skeleton]; unfold cc0__neg_sum_kernel_skel
  simp only [k0_part1_eq_skeleton, k0_part2_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the one pipeline on core `c`: the arrays as the region finds them; after the body at point
    `t` the input's buffer at its block and the output's at `out0_1` of the input block; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- The input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The host stretches after the region -/

/-- A property of every operation of every stretch, from the property stretch by stretch. -/
theorem forall_opss {p : HloOp τ sig (Elt F) → Prop}
    (h0 : (hostOps1 : List (HloOp τ sig (Elt F))).Forall p) (h1 : (hostOps1_1 : List (HloOp τ sig (Elt F))).Forall p)
    (h2 : (hostOps1_2 : List (HloOp τ sig (Elt F))).Forall p) (h3 : (hostOps1_3 : List (HloOp τ sig (Elt F))).Forall p)
    (h4 : (hostOps1_4 : List (HloOp τ sig (Elt F))).Forall p) (h5 : (hostOps1_5 : List (HloOp τ sig (Elt F))).Forall p)
    (h6 : (hostOps1_6 : List (HloOp τ sig (Elt F))).Forall p) (h7 : (hostOps1_7 : List (HloOp τ sig (Elt F))).Forall p)
    (h8 : (hostOps1_8 : List (HloOp τ sig (Elt F))).Forall p) (h9 : (hostOps1_9 : List (HloOp τ sig (Elt F))).Forall p) :
    ∀ ops ∈ (opss : List (List (HloOp τ sig (Elt F)))), ∀ op ∈ ops, p op := by
  intro ops hops op hop
  simp only [List.mem_cons, List.mem_nil_iff, or_false] at hops
  rcases hops with rfl | rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop
  · exact (List.forall_iff_forall_mem.mp h9) op hop

/-- No stretch allocates. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor

/-- The three buffers no host operation after the region writes: the two windows' arrays and the second argument. -/
abbrev kept : Fin 3 → Ref sig .tc := fun | 0 => main_arg0 | 1 => main_v0 | 2 => main_arg1
/-- An operation writes none of them. -/
def Keeps (op : HloOp τ sig (Elt F)) : Prop := ∀ w : Fin 3, Proc.devRef (τ := τ) .tc (kept w) ∉ op.writes

/-- Each operation writes only its own result buffer, which is none of the three. -/
theorem hostOps1_keeps : (hostOps1 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_1_keeps : (hostOps1_1 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_2_keeps : (hostOps1_2 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_3_keeps : (hostOps1_3 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_4_keeps : (hostOps1_4 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_5_keeps : (hostOps1_5 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_6_keeps : (hostOps1_6 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_7_keeps : (hostOps1_7 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_8_keeps : (hostOps1_8 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_9_keeps : (hostOps1_9 : List (HloOp τ sig (Elt F))).Forall (Keeps (F := F)) := by
  simp only [List.Forall, Keeps]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

/-- @main around the region: the region, continued by the host stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [] opss (by simp only [List.Forall])
    (by simp only [List.Forall]) main_chain

/-- The stretches touch the pipeline's arrays and the bypassing buffers only: each operation's buffers are unscoped
    TensorCore references, and with nothing prefetched every such reference is one or the other. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  exact forall_opss (p := fun op => op.bufs ⊆ Pipeline.ucRefs τ sig)
    (List.forall_iff_forall_mem.mpr fun op h => Pipeline.sub_ucRefs op ((List.forall_iff_forall_mem.mp hostOps1_sub) op h))
    (List.forall_iff_forall_mem.mpr fun op h => Pipeline.sub_ucRefs op ((List.forall_iff_forall_mem.mp hostOps1_1_sub) op h))
    (List.forall_iff_forall_mem.mpr fun op h => Pipeline.sub_ucRefs op ((List.forall_iff_forall_mem.mp hostOps1_2_sub) op h))
    (List.forall_iff_forall_mem.mpr fun op h => Pipeline.sub_ucRefs op ((List.forall_iff_forall_mem.mp hostOps1_3_sub) op h))
    (List.forall_iff_forall_mem.mpr fun op h => Pipeline.sub_ucRefs op ((List.forall_iff_forall_mem.mp hostOps1_4_sub) op h))
    (List.forall_iff_forall_mem.mpr fun op h => Pipeline.sub_ucRefs op ((List.forall_iff_forall_mem.mp hostOps1_5_sub) op h))
    (List.forall_iff_forall_mem.mpr fun op h => Pipeline.sub_ucRefs op ((List.forall_iff_forall_mem.mp hostOps1_6_sub) op h))
    (List.forall_iff_forall_mem.mpr fun op h => Pipeline.sub_ucRefs op ((List.forall_iff_forall_mem.mp hostOps1_7_sub) op h))
    (List.forall_iff_forall_mem.mpr fun op h => Pipeline.sub_ucRefs op ((List.forall_iff_forall_mem.mp hostOps1_8_sub) op h))
    (List.forall_iff_forall_mem.mpr fun op h => Pipeline.sub_ucRefs op ((List.forall_iff_forall_mem.mp hostOps1_9_sub) op h))
/-- They allocate nothing. -/
theorem sfx_fresh : ∀ ops ∈ (opss : List (List (HloOp τ sig (Elt F)))), ∀ op ∈ ops, op.fresh = ∅ :=
  forall_opss hostOps1_fresh hostOps1_1_fresh hostOps1_2_fresh hostOps1_3_fresh hostOps1_4_fresh hostOps1_5_fresh
    hostOps1_6_fresh hostOps1_7_fresh hostOps1_8_fresh hostOps1_9_fresh
/-- They write none of the three kept buffers; -/
theorem sfx_kept : ∀ ops ∈ (opss : List (List (HloOp τ sig (Elt F)))), ∀ op ∈ ops, Keeps op :=
  forall_opss hostOps1_keeps hostOps1_1_keeps hostOps1_2_keeps hostOps1_3_keeps hostOps1_4_keeps hostOps1_5_keeps
    hostOps1_6_keeps hostOps1_7_keeps hostOps1_8_keeps hostOps1_9_keeps
/-- in particular no array of the pipeline. -/
theorem sfx_keeps : ∀ ops ∈ (opss : List (List (HloOp τ sig (Elt F)))), ∀ op ∈ ops,
    ∀ w, Proc.devRef .tc (Pipeline.arrRef spec0 w) ∉ op.writes := by
  intro ops hops op hop w
  have h := sfx_kept ops hops op hop
  fin_cases w
  · exact h 0
  · exact h 1

/-! ## The run and the frame -/

set_option backward.isDefEq.respectTransparency.types false in
/-- From any memory with zero counters, every weakly fair execution of @main on the TensorCores terminates, and every
    final state has every array of the pipeline at what the library computes from the proof data and every other
    unscoped buffer as the host stretches after the region leave it. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-! ## The contents the region leaves, and the run's post read through them -/

/-- A core's buffer contents when the region is left: the pipeline's arrays at what the library computes from the
    proof data, every other buffer as the region found it. -/
abbrev W (c : Dev nD) : Valuation τ sig (Elt F) :=
  Pipeline.withArrays spec0 c (V0 m c) fun w => (dats m 0 c).arrAt w cfg0.N

/-- The run's post at a buffer that bypasses the region: the host stretches' fold from the region's exit contents. -/
theorem post_rest {r : PUnit × MemSt nD τ sig (Elt F)}
    (h : Pipeline.FramePost cfgs (dats m) 0 (Pipeline.afterTail₀ cfgs (dats m) 0 (V0 m) opss) r) (c : Dev nD) (b : Ref sig .tc)
    (hb : b ∈ Pipeline.restRefs sig spec0) :
    r.2.mem ((c.tc : Thread nD τ).loc b) = StableHlo.after (List.flatten opss) (W m c) (Proc.devRef .tc b) :=
  (h c).2 b hb

/-- The first argument is the input window's array, which the pipeline leaves as launched. -/
theorem W_arg0 (c : Dev nD) : W m c (Proc.devRef .tc main_arg0) = m ((c.tc : Thread nD τ).loc main_arg0) :=
  (Pipeline.withArrays_arr spec0 launch0.win.arr_inj c (V0 m c) (fun w => (dats m 0 c).arrAt w cfg0.N) 0).trans
    (((dats m 0 c).arrAt_in 0 rfl _).trans ((A_eq m c 0).trans (V_main_arg0 m c)))

/-- The second argument is no array of the pipeline, so it is as launched. -/
theorem W_arg1 (c : Dev nD) : W m c (Proc.devRef .tc main_arg1) = m ((c.tc : Thread nD τ).loc main_arg1) :=
  (Pipeline.withArrays_of_ne spec0 c (V0 m c) (fun w => (dats m 0 c).arrAt w cfg0.N) main_arg1 (by decide)).trans
    (V_main_arg1 m c)

/-- The region's result is the output window's array, at what the library computes after the last point. -/
theorem W_v0 (c : Dev nD) : W m c (Proc.devRef .tc main_v0) = (dats m 0 c).arrAt 1 cfg0.N :=
  Pipeline.withArrays_arr spec0 launch0.win.arr_inj c (V0 m c) (fun w => (dats m 0 c).arrAt w cfg0.N) 1

/-- The run's post at the first argument: as launched. -/
theorem post_arg0 {r : PUnit × MemSt nD τ sig (Elt F)}
    (h : Pipeline.FramePost cfgs (dats m) 0 (Pipeline.afterTail₀ cfgs (dats m) 0 (V0 m) opss) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- The run's post at the second argument: no host operation after the region writes it, so it is as launched. -/
theorem post_arg1 {r : PUnit × MemSt nD τ sig (Elt F)}
    (h : Pipeline.FramePost cfgs (dats m) 0 (Pipeline.afterTail₀ cfgs (dats m) 0 (V0 m) opss) r) (c : Dev nD) :
    r.2.mem ((c.tc : Thread nD τ).loc main_arg1) = m ((c.tc : Thread nD τ).loc main_arg1) := by
  have hw : ∀ op ∈ (opss (F := F)).flatten, Proc.devRef (τ := τ) .tc main_arg1 ∉ op.writes := fun op hop => by
    obtain ⟨ops, hops, h⟩ := List.mem_flatten.mp hop
    exact sfx_kept ops hops op h 2
  rw [post_rest m h c main_arg1 (Pipeline.mem_restRefs_of main_arg1 rfl (by decide)),
    StableHlo.after_of_forall_not_mem _ _ hw]
  exact W_arg1 m c

/-- Both argument arrays end as they began: the first is the input window's array, which the pipeline only reads;
    the second bypasses the region and no host operation after it writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨post_arg0 m h c, post_arg1 m h c⟩) (run_main m ρ)

end Cert.Kernel.Hand

end
-- ==== Proof.Spec.lean ====
/-
  The two programs' host computations as pure functions of the argument arrays, written once over neutral copies of
  the printed shapes, so that the kernel's host tail, the reference's whole run and the bridge between them speak
  of the same terms.

  Per row b of the logits x (50257 classes) and its 20 labels t:
    posMean  = (1/20) sum_k log sigma(x[b, t_k])                          (both programs, the same operations)
    kernel   : negMean = (rowSum - sum over FIRST occurrences k of log sigma(-x[b, t_k])) / (50257 - number of first occurrences),
               rowSum = sum_c log sigma(-x[b, c]) computed in the pallas_call
    reference: negMean = (sum over classes c that are no label of log sigma(-x[b, c])) / (number of such classes)
    result   = -(sum_b (posMean + negMean)) / 2048
-/
import Idealize.ShloMosaic.PureOps
import Idealize.ShloMosaic.PureOps.Ideal
import Idealize.ShloMosaic.Lib.ValueIdx

noncomputable section

namespace Cert.Spec

open Idealize.ShloMosaic

abbrev S2048x50257 : Shape := ⟨2, ![2048, 50257]⟩
abbrev S2048x20 : Shape := ⟨2, ![2048, 20]⟩
abbrev S_ : Shape := ⟨0, ![]⟩
abbrev S2048x20x1 : Shape := ⟨3, ![2048, 20, 1]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S2048x20x2 : Shape := ⟨3, ![2048, 20, 2]⟩
abbrev S2048x1x20 : Shape := ⟨3, ![2048, 1, 20]⟩
abbrev S2048x20x20 : Shape := ⟨3, ![2048, 20, 20]⟩
abbrev S20x20 : Shape := ⟨2, ![20, 20]⟩
abbrev S1x20x20 : Shape := ⟨3, ![1, 20, 20]⟩

/-! ## The shape relations the operations take -/

theorem h_S_ : 0 < S_.numel := by decide
theorem bcast_S_S2048x20 : S_.BroadcastsInDim S2048x20 (![] : Fin 0 → Fin S2048x20.rank) := by decide
theorem shapeCasts_S2048x20_S2048x20x1 : S2048x20.ShapeCasts S2048x20x1 := by decide
theorem bcast_S_S2048x20x1 : S_.BroadcastsInDim S2048x20x1 (![] : Fin 0 → Fin S2048x20x1.rank) := by decide
theorem bcast_S1_S1x1x1_2 : S1.BroadcastsInDim S1x1x1 (![2] : Fin 1 → Fin S1x1x1.rank) := by decide
theorem bcast_S1x1x1_S2048x20x1_0_1_2 : S1x1x1.BroadcastsInDim S2048x20x1 (![0, 1, 2] : Fin 3 → Fin S2048x20x1.rank) := by decide
theorem reducesTo_S2048x20x1_S2048x20_d2 : S2048x20x1.ReducesTo [2] S2048x20 := by decide
theorem reducesTo_S2048x20_S2048_d1 : S2048x20.ReducesTo [1] S2048 := by decide
theorem bcast_S_S2048 : S_.BroadcastsInDim S2048 (![] : Fin 0 → Fin S2048.rank) := by decide
theorem reducesTo_S2048_S_d0 : S2048.ReducesTo [0] S_ := by decide
theorem gather_wf : GatherDims.WF S2048x50257 S2048x20x1 S2048x20 [] [1] [0] [1] [0] 2 ![1, 1] := by decide
-- the kernel's host tail
theorem shapeCasts_S2048x1_S2048 : S2048x1.ShapeCasts S2048 := by decide
theorem bcast_S2048x20_S2048x20x1_0_1 : S2048x20.BroadcastsInDim S2048x20x1 (![0, 1] : Fin 2 → Fin S2048x20x1.rank) := by decide
theorem bcast_S2048x20_S2048x1x20_0_2 : S2048x20.BroadcastsInDim S2048x1x20 (![0, 2] : Fin 2 → Fin S2048x1x20.rank) := by decide
theorem bcast_S2048x20x1_S2048x20x20_0_1_2 : S2048x20x1.BroadcastsInDim S2048x20x20 (![0, 1, 2] : Fin 3 → Fin S2048x20x20.rank) := by decide
theorem bcast_S2048x1x20_S2048x20x20_0_1_2 : S2048x1x20.BroadcastsInDim S2048x20x20 (![0, 1, 2] : Fin 3 → Fin S2048x20x20.rank) := by decide
theorem bcast_S_S20x20 : S_.BroadcastsInDim S20x20 (![] : Fin 0 → Fin S20x20.rank) := by decide
theorem bcast_S20x20_S1x20x20_1_2 : S20x20.BroadcastsInDim S1x20x20 (![1, 2] : Fin 2 → Fin S1x20x20.rank) := by decide
theorem bcast_S1x20x20_S2048x20x20_0_1_2 : S1x20x20.BroadcastsInDim S2048x20x20 (![0, 1, 2] : Fin 3 → Fin S2048x20x20.rank) := by decide
theorem reducesTo_S2048x20x20_S2048x20_d2 : S2048x20x20.ReducesTo [2] S2048x20 := by decide
-- the reference
theorem bcast_S2048_S2048x1_0 : S2048.BroadcastsInDim S2048x1 (![0] : Fin 1 → Fin S2048x1.rank) := by decide
theorem bcast_S_S2048x50257 : S_.BroadcastsInDim S2048x50257 (![] : Fin 0 → Fin S2048x50257.rank) := by decide
theorem bcast_S_S2048x1 : S_.BroadcastsInDim S2048x1 (![] : Fin 0 → Fin S2048x1.rank) := by decide
theorem bcast_S2048x1_S2048x20_0_1 : S2048x1.BroadcastsInDim S2048x20 (![0, 1] : Fin 2 → Fin S2048x20.rank) := by decide
theorem concatenates_S2048x20x1_S2048x20x1_S2048x20x2_d2 : Shape.Concatenates [S2048x20x1, S2048x20x1] S2048x20x2 2 := by decide
theorem reducesTo_S2048x50257_S2048_d1 : S2048x50257.ReducesTo [1] S2048 := by decide
theorem natLt_1_32 : 1 < 32 := by decide
theorem scatter_wf : ScatterDims.WF S2048x50257 S2048x20x2 S2048x20 [] [0, 1] [0, 1] 2 := by decide

/-- `jnp.take_along_axis(x, t, axis=1)`'s gather: one element of row b per label. -/
def gatherDims : GatherDims S2048x50257 S2048x20x1 S2048x20 where
  offsetDims := []
  collapsedSliceDims := [1]
  operandBatchingDims := [0]
  startIndicesBatchingDims := [0]
  startIndexMap := [1]
  indexVectorDim := 2
  sliceSizes := ![1, 1]
  wf := gather_wf

/-- `ones.at[rows, t].set(False)`'s scatter: one element (row, class) per label. -/
def scatterDims : ScatterDims S2048x50257 S2048x20x2 S2048x20 where
  updateWindowDims := []
  insertedWindowDims := [0, 1]
  scatterDimsToOperandDims := [0, 1]
  indexVectorDim := 2
  wf := scatter_wf

variable {F : FTy → Type} [FloatOps F]

/-! ## What both programs share -/

/-- A label read as numpy reads an index: a negative one counts from the end. -/
def wrapIdx (t : IVec S2048x20 32) : IVec S2048x20 32 :=
  select (cmpi .slt t (broadcastInDim S2048x20 ![] bcast_S_S2048x20 (constantI S_ 32 0#32)))
    (addi t (broadcastInDim S2048x20 ![] bcast_S_S2048x20 (constantI S_ 32 50257#32))) t

/-- The wrapped labels as the gather's start indices. -/
def startIdx (t : IVec S2048x20 32) : IVec S2048x20x1 32 :=
  shapeCast S2048x20x1 (wrapIdx t) shapeCasts_S2048x20_S2048x20x1

/-- Which wrapped labels lie in [0, 50256]. -/
def inRange (t : IVec S2048x20 32) : IVec S2048x20 1 :=
  Host.reduce IntOp.andi
    (andi (cmpi .sge (startIdx t) (broadcastInDim S2048x20x1 ![] bcast_S_S2048x20x1 (constantI S_ 32 0#32)))
      (cmpi .sle (startIdx t) (broadcastInDim S2048x20x1 ![0, 1, 2] bcast_S1x1x1_S2048x20x1_0_1_2
        (broadcastInDim S1x1x1 ![2] bcast_S1_S1x1x1_2 (constantI S1 32 50256#32)))))
    (constantI S_ 1 1#1) reducesTo_S2048x20x1_S2048x20_d2 h_S_

/-- `jnp.take_along_axis(x, t, axis=1)`: x[b, t[b, k]], and a fill value where the label is out of range. -/
def takeAlong (x : FVec F S2048x50257 .f32) (t : IVec S2048x20 32) : FVec F S2048x20 .f32 :=
  select (inRange t) (Host.gather gatherDims x (startIdx t))
    (broadcastInDim S2048x20 ![] bcast_S_S2048x20 (constant S_ .f32 0x7FC00000#32))

/-- `jax.nn.softplus` as lowered, over any shape: max(z, 0) + log1p(exp(-|z - 0|)), behind a test `z - 0 ≠ z - 0`. -/
def softplus (S : Shape) (hb : S_.BroadcastsInDim S (![] : Fin 0 → Fin S.rank)) (z : FVec F S .f32) : FVec F S .f32 :=
  select (cmpf .une (subf z (broadcastInDim S ![] hb (constant S_ .f32 0x00000000#32)))
                   (subf z (broadcastInDim S ![] hb (constant S_ .f32 0x00000000#32))))
    (addf z (broadcastInDim S ![] hb (constant S_ .f32 0x00000000#32)))
    (addf (maximumf z (broadcastInDim S ![] hb (constant S_ .f32 0x00000000#32)))
      (Host.log1p (Host.exp (Host.negf (Host.absf (subf z (broadcastInDim S ![] hb (constant S_ .f32 0x00000000#32))))))))

/-- `jax.nn.log_sigmoid` as lowered: -softplus(-y). -/
def logSigmoid (S : Shape) (hb : S_.BroadcastsInDim S (![] : Fin 0 → Fin S.rank)) (y : FVec F S .f32) : FVec F S .f32 :=
  Host.negf (softplus S hb (Host.negf y))

/-- The mean over a row's 20 labels of log sigma of the label's logit. -/
def posMean (x : FVec F S2048x50257 .f32) (t : IVec S2048x20 32) : FVec F S2048 .f32 :=
  Host.divf
    (Host.reduceAdd (logSigmoid S2048x20 bcast_S_S2048x20 (takeAlong x t)) (constant S_ .f32 0x00000000#32) reducesTo_S2048x20_S2048_d1 h_S_)
    (broadcastInDim S2048 ![] bcast_S_S2048 (constant S_ .f32 0x41A00000#32))

/-- The loss from the two per-row means: -(sum_b (pm b + nm b)) / 2048. -/
def finish (pm nm : FVec F S2048 .f32) : FVec F S_ .f32 :=
  Host.negf (Host.divf
    (Host.reduceAdd (addf pm nm) (constant S_ .f32 0x00000000#32) reducesTo_S2048_S_d0 h_S_)
    (constant S_ .f32 0x45000000#32))

/-! ## The kernel's host tail -/

/-- `jnp.tril(ones((20, 20), bool), k=-1)`: entry (i, j) set where j < i. -/
def trilMask : IVec S20x20 1 :=
  select (cmpi .sge (addi (iotaInDim S20x20 32 0) (broadcastInDim S20x20 ![] bcast_S_S20x20 (constantI S_ 32 4294967295#32))) (iotaInDim S20x20 32 1))
    (broadcastInDim S20x20 ![] bcast_S_S20x20 (constantI S_ 1 1#1))
    (broadcastInDim S20x20 ![] bcast_S_S20x20 (constantI S_ 1 0#1))

/-- Label k of a row is a FIRST occurrence: no earlier label of the row carries the same word. -/
def firstOcc (t : IVec S2048x20 32) : IVec S2048x20 1 :=
  noti (Host.reduce IntOp.ori
    (andi
      (cmpi .eq
        (broadcastInDim S2048x20x20 ![0, 1, 2] bcast_S2048x20x1_S2048x20x20_0_1_2 (broadcastInDim S2048x20x1 ![0, 1] bcast_S2048x20_S2048x20x1_0_1 t))
        (broadcastInDim S2048x20x20 ![0, 1, 2] bcast_S2048x1x20_S2048x20x20_0_1_2 (broadcastInDim S2048x1x20 ![0, 2] bcast_S2048x20_S2048x1x20_0_2 t)))
      (broadcastInDim S2048x20x20 ![0, 1, 2] bcast_S1x20x20_S2048x20x20_0_1_2 (broadcastInDim S1x20x20 ![1, 2] bcast_S20x20_S1x20x20_1_2 trilMask)))
    (constantI S_ 1 0#1) reducesTo_S2048x20x20_S2048x20_d2 h_S_)

/-- The kernel's mean over the classes that are no label, from the pallas_call's row sums `out`. -/
def negMeanK (x : FVec F S2048x50257 .f32) (t : IVec S2048x20 32) (out : FVec F S2048x1 .f32) : FVec F S2048 .f32 :=
  Host.divf
    (subf (shapeCast S2048 out shapeCasts_S2048x1_S2048)
      (Host.reduceAdd
        (select (firstOcc t) (logSigmoid S2048x20 bcast_S_S2048x20 (Host.negf (takeAlong x t)))
          (broadcastInDim S2048x20 ![] bcast_S_S2048x20 (id (constant S_ .f32 0x00000000#32))))
        (constant S_ .f32 0x00000000#32) reducesTo_S2048x20_S2048_d1 h_S_))
    (subf (broadcastInDim S2048 ![] bcast_S_S2048 (constant S_ .f32 0x47445100#32))
      (Host.reduceAdd (uitofp .f32 (firstOcc t)) (constant S_ .f32 0x00000000#32) reducesTo_S2048x20_S2048_d1 h_S_))

/-- The kernel program's result from the arguments and the pallas_call's output array. -/
def tailFn (x : FVec F S2048x50257 .f32) (t : IVec S2048x20 32) (out : FVec F S2048x1 .f32) : FVec F S_ .f32 :=
  finish (posMean x t) (negMeanK x t out)

/-! ## The reference -/

/-- The row numbers 0 .. 2047 as a column, read as numpy reads an index. -/
def rowIdx : IVec S2048x1 32 :=
  select (cmpi .slt (broadcastInDim S2048x1 ![0] bcast_S2048_S2048x1_0 (iotaInDim S2048 32 0)) (broadcastInDim S2048x1 ![] bcast_S_S2048x1 (constantI S_ 32 0#32)))
    (addi (broadcastInDim S2048x1 ![0] bcast_S2048_S2048x1_0 (iotaInDim S2048 32 0)) (broadcastInDim S2048x1 ![] bcast_S_S2048x1 (constantI S_ 32 2048#32)))
    (broadcastInDim S2048x1 ![0] bcast_S2048_S2048x1_0 (iotaInDim S2048 32 0))

/-- The scatter's index pairs (row, wrapped label). -/
def scatterIdx (t : IVec S2048x20 32) : IVec S2048x20x2 32 :=
  concatenate S2048x20x2 2
    [⟨S2048x20x1, broadcastInDim S2048x20x1 ![0, 1] bcast_S2048x20_S2048x20x1_0_1 (broadcastInDim S2048x20 ![0, 1] bcast_S2048x1_S2048x20_0_1 rowIdx)⟩,
     ⟨S2048x20x1, broadcastInDim S2048x20x1 ![0, 1] bcast_S2048x20_S2048x20x1_0_1 (wrapIdx t)⟩]
    concatenates_S2048x20x1_S2048x20x1_S2048x20x2_d2

/-- `ones((2048, 50257), bool).at[rows, t].set(False)`: set where class c is no label of row b. -/
def maskR (t : IVec S2048x20 32) : IVec S2048x50257 1 :=
  Host.scatter scatterDims (fun _ b => b)
    (broadcastInDim S2048x50257 ![] bcast_S_S2048x50257 (constantI S_ 1 1#1)) (scatterIdx t)
    (broadcastInDim S2048x20 ![] bcast_S_S2048x20 (constantI S_ 1 0#1))

/-- The reference's mean over the classes that are no label. -/
def negMeanR (x : FVec F S2048x50257 .f32) (t : IVec S2048x20 32) : FVec F S2048 .f32 :=
  Host.divf
    (Host.reduceAdd
      (select (maskR t) (logSigmoid S2048x50257 bcast_S_S2048x50257 (Host.negf x))
        (broadcastInDim S2048x50257 ![] bcast_S_S2048x50257 (id (constant S_ .f32 0x00000000#32))))
      (constant S_ .f32 0x00000000#32) reducesTo_S2048x50257_S2048_d1 h_S_)
    (sitofp .f32 (Host.reduce IntOp.addi (extui 32 (maskR t) natLt_1_32) (constantI S_ 32 0#32) reducesTo_S2048x50257_S2048_d1 h_S_))

/-- The reference program's result from the arguments. -/
def refFn (x : FVec F S2048x50257 .f32) (t : IVec S2048x20 32) : FVec F S_ .f32 :=
  finish (posMean x t) (negMeanR x t)

/-! ## The pallas_call's value at the ideal instance -/

/-- log sigma(-x) as the kernel body writes it on one element: min(0 - x, 0) - log1p(exp(0 - |0 - x|)). -/
def lsK (x : EReal) : EReal :=
  min (0 - x) 0 - Ideal.log1p (Ideal.exp (0 - max (0 - x) (-(0 - x))))

/-- The pallas_call's output array: per row the sum over all 50257 classes of `lsK`. -/
def rowSums (x : S2048x50257.Idx → EReal) : S2048x1.Idx → EReal :=
  fun j => ∑ c : Fin 50257, lsK (x (ValueIdx.ix2 (j 0) c))

end Cert.Spec

end
-- ==== Proof.KPayload.lean ====
/-
  The value the kernel body stores, at the ideal instance, read at one row: each of the seven column rectangles of the
  input block goes through the elementwise map min(0 - v, 0) - log1p(exp(0 - |0 - v|)) (the specification's `lsK`),
  is summed along its lanes into a column, and the seven columns are added left to right from a zero column. Also the
  pure fact that a sum over the 50257 classes of a row is the sum of the seven runs of columns the rectangles cover.
-/
import proofs.«420997_j88828513616443_3_alg».proof.Proof.Gen.KernelIdeal.Skeleton
import proofs.«420997_j88828513616443_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.HandValue

open Idealize.ShloMosaic Idealize.ShloMosaic.ValueIdx Cert.KernelIdeal Cert.KernelIdeal.Gen

/-! ## The body's pieces -/

/-- The zero vector the body broadcasts before each subtraction. -/
def zeroV (s : Shape) : FVec Ideal s .f32 := broadcast s (Scalar.ofBits .f32 0x00000000#32)

/-- Its every element is the extended real 0. -/
theorem zeroV_apply (s : Shape) (i : s.Idx) : zeroV s i = 0 := Ideal.ofBits_zero_f32

/-- The body's elementwise map of a loaded rectangle `v`, with `z` the vector the first subtraction takes `v` from:
    min(z - v, 0) - log1p(exp(0 - |z - v|)). -/
def ew {s : Shape} (z : FVec Ideal s .f32) (v : Vec Ideal s .f32) : FVec Ideal s .f32 :=
  subf (minimumf (subf z v) (zeroV s)) (log1p (exp (subf (zeroV s) (absf (subf z v)))))

/-- At an index where `z` is 0 the map is the specification's `lsK` of the element. -/
theorem ew_apply {s : Shape} (z : FVec Ideal s .f32) (v : Vec Ideal s .f32) (i : s.Idx) (hz : z i = 0) :
    ew z v i = Cert.Spec.lsK (v i) := by
  show min (z i - v i) (zeroV s i) - Ideal.log1p (Ideal.exp (zeroV s i - max (z i - v i) (-(z i - v i)))) = _
  rw [hz, zeroV_apply]
  rfl

/-- The lane sum of a [64, n] vector as a [64, 1] column: the reduction over axis 1 from the zero word, then the
    reshape. -/
def col {n : Nat} (w : FVec Ideal ⟨2, ![64, n]⟩ .f32) (h : (⟨2, ![64, n]⟩ : Shape).Reduces [1] S64) : FVec Ideal S64x1 .f32 :=
  shapeCast S64x1 (multiReduction .add [1] S64 w 0x00000000#32 h (.inl rfl) rfl) shapeCasts_S64_S64x1

/-- The column at row r is the sum of row r of the vector. -/
theorem col_apply {n : Nat} (w : FVec Ideal ⟨2, ![64, n]⟩ .f32) (h : (⟨2, ![64, n]⟩ : Shape).Reduces [1] S64) (r : Fin 64) :
    col w h (ix2 r 0) = ∑ c : Fin n, w (ix2 r c) := by
  unfold col
  refine (shapeCast_apply _ shapeCasts_S64_S64x1 (ix2 r 0) (ix1 r) ?_).trans ?_
  · rw [Shape.rowMajor_val_two, Shape.rowMajor_val_one]
    show r.val = r.val * 1 + 0
    omega
  · refine (Ideal.multiReduction_add_single w _ h _ _ (ix1 r)).trans ?_
    refine Finset.sum_congr rfl fun c _ => congrArg w ?_
    funext a
    match a with
    | ⟨0, _⟩ => rfl
    | ⟨1, _⟩ => rfl

/-- So the column of a mapped rectangle at row r is the sum of `lsK` over row r of the rectangle. -/
theorem col_ew_apply {n : Nat} (z : FVec Ideal ⟨2, ![64, n]⟩ .f32) (v : Vec Ideal ⟨2, ![64, n]⟩ .f32)
    (h : (⟨2, ![64, n]⟩ : Shape).Reduces [1] S64) (hz : ∀ i, z i = 0) (r : Fin 64) :
    col (ew z v) h (ix2 r 0) = ∑ c : Fin n, Cert.Spec.lsK (v (ix2 r c)) :=
  (col_apply _ h r).trans (Finset.sum_congr rfl fun c _ => ew_apply z v _ (hz _))

/-! ## The payloads as sums of columns -/

theorem pay2_eq (v4 v21 : Vec Ideal S64x8192 .f32) :
    k0_pay2 v4 v21
      = addf (addf (zeroV S64x1) (col (ew (zeroV S64x8192) v4) reduces_S64x8192_S64))
          (col (ew (zeroV S64x8192) v21) reduces_S64x8192_S64) := rfl

theorem pay3_eq : k0_pay3 (F := Ideal) = zeroV S64x8192 := rfl

theorem pay4_eq (v34 : FVec Ideal S64x1 .f32) (v38 : Vec Ideal S64x8192 .f32) (v39 : FVec Ideal S64x8192 .f32)
    (v55 : Vec Ideal S64x8192 .f32) :
    k0_pay4 v34 v38 v39 v55
      = addf (addf v34 (col (ew v39 v38) reduces_S64x8192_S64)) (col (ew (zeroV S64x8192) v55) reduces_S64x8192_S64) := rfl

theorem pay5_eq (v72 : Vec Ideal S64x8192 .f32) : k0_pay5 v72 = ew (zeroV S64x8192) v72 := rfl

theorem pay1_eq (v68 : FVec Ideal S64x1 .f32) (v82 : FVec Ideal S64x8192 .f32) (v89 : Vec Ideal S64x8192 .f32)
    (v103 : Vec Ideal S64x1105 .f32) :
    k0_pay1 v68 v82 v89 v103
      = addf (addf (addf v68 (col v82 reduces_S64x8192_S64)) (col (ew (zeroV S64x8192) v89) reduces_S64x8192_S64))
          (col (ew (zeroV S64x1105) v103) reduces_S64x1105_S64) := rfl

/-- THE STORED COLUMN at row r: the seven rectangles' row sums of `lsK`, added left to right. -/
theorem stored_apply (v4 v21 v38 v55 v72 v89 : Vec Ideal S64x8192 .f32) (v103 : Vec Ideal S64x1105 .f32) (r : Fin 64) :
    k0_pay1 (k0_pay4 (k0_pay2 v4 v21) v38 k0_pay3 v55) (k0_pay5 v72) v89 v103 (ix2 r 0)
      = (∑ c : Fin 8192, Cert.Spec.lsK (v4 (ix2 r c))) + (∑ c : Fin 8192, Cert.Spec.lsK (v21 (ix2 r c)))
        + (∑ c : Fin 8192, Cert.Spec.lsK (v38 (ix2 r c))) + (∑ c : Fin 8192, Cert.Spec.lsK (v55 (ix2 r c)))
        + (∑ c : Fin 8192, Cert.Spec.lsK (v72 (ix2 r c))) + (∑ c : Fin 8192, Cert.Spec.lsK (v89 (ix2 r c)))
        + ∑ c : Fin 1105, Cert.Spec.lsK (v103 (ix2 r c)) := by
  rw [pay1_eq, pay4_eq, pay2_eq, pay3_eq, pay5_eq]
  simp only [addf_apply]
  rw [col_ew_apply _ v4 _ (zeroV_apply _) r, col_ew_apply _ v21 _ (zeroV_apply _) r,
    col_ew_apply _ v38 _ (zeroV_apply _) r, col_ew_apply _ v55 _ (zeroV_apply _) r,
    col_ew_apply _ v72 _ (zeroV_apply _) r, col_ew_apply _ v89 _ (zeroV_apply _) r,
    col_ew_apply _ v103 _ (zeroV_apply _) r, zeroV_apply, zero_add]

/-! ## A row of 50257 classes as seven runs of columns -/

/-- A sum over `a + b` consecutive positions is the sum over the first `a` plus the sum over the next `b`. -/
theorem sum_head_split {M : Type*} [AddCommMonoid M] {N : Nat} (f : Fin N → M) (a b : Nat) (hN : N = a + b) :
    ∑ c : Fin N, f c
      = ∑ c : Fin a, f ⟨c.val, by have := c.isLt; omega⟩ + ∑ c : Fin b, f ⟨a + c.val, by have := c.isLt; omega⟩ := by
  subst hN
  exact Fin.sum_univ_add f

/-- The same for a run that starts at position `o`. -/
theorem sum_off_split {M : Type*} [AddCommMonoid M] {N : Nat} (f : Fin N → M) (o a b ab oa : Nat)
    (hab : ab = a + b) (hoa : oa = o + a) (h : o + ab ≤ N) :
    ∑ c : Fin ab, f ⟨o + c.val, by have := c.isLt; omega⟩
      = ∑ c : Fin a, f ⟨o + c.val, by have := c.isLt; omega⟩ + ∑ c : Fin b, f ⟨oa + c.val, by have := c.isLt; omega⟩ := by
  subst hab hoa
  rw [Fin.sum_univ_add]
  refine congrArg₂ (· + ·) rfl (Finset.sum_congr rfl fun c _ => congrArg f (Fin.ext ?_))
  show o + (a + c.val) = o + a + c.val
  omega

/-- The 50257 classes of a row: six runs of 8192 columns and one of 1105. -/
theorem sum_chunks (f : Fin 50257 → EReal) :
    ∑ c : Fin 50257, f c
      = (∑ c : Fin 8192, f ⟨c.val, by omega⟩) + (∑ c : Fin 8192, f ⟨8192 + c.val, by omega⟩)
        + (∑ c : Fin 8192, f ⟨16384 + c.val, by omega⟩) + (∑ c : Fin 8192, f ⟨24576 + c.val, by omega⟩)
        + (∑ c : Fin 8192, f ⟨32768 + c.val, by omega⟩) + (∑ c : Fin 8192, f ⟨40960 + c.val, by omega⟩)
        + ∑ c : Fin 1105, f ⟨49152 + c.val, by omega⟩ := by
  rw [sum_head_split f 8192 42065 rfl,
    sum_off_split f 8192 8192 33873 42065 16384 rfl rfl (by decide),
    sum_off_split f 16384 8192 25681 33873 24576 rfl rfl (by decide),
    sum_off_split f 24576 8192 17489 25681 32768 rfl rfl (by decide),
    sum_off_split f 32768 8192 9297 17489 40960 rfl rfl (by decide),
    sum_off_split f 40960 8192 1105 9297 49152 rfl rfl (by decide)]
  simp only [add_assoc]

end Cert.KernelIdeal.HandValue

end
-- ==== Proof.KValue.lean ====
/-
  The pallas_call's output array at the ideal instance. At grid point t the body stores, at row r of its [64, 1] block,
  the sum of `lsK` over the 50257 classes of row r of the input block: the seven rectangles it loads are runs of that
  row's columns, 0 … 8191, 8192 … 16383, …, 40960 … 49151 and 49152 … 50256. Both windows' blocks at point t are block
  row t, so what point t writes back is rows 64 t … 64 t + 63 of the row sums of the argument array; the 32 points' blocks
  cover the 2048 rows (row b lies in the block of point b / 64), hence the array ends at `Cert.Spec.rowSums` of the
  argument.
-/
import proofs.«420997_j88828513616443_3_alg».proof.Proof.KPayload
import proofs.«420997_j88828513616443_3_alg».proof.Proof.KFrame
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.HandValue

open Idealize.ShloMosaic.ValueIdx Cert.KernelIdeal Cert.KernelIdeal.Gen

/-! ## The seven rectangles as runs of a row's columns -/

/-- A load of the input block through a unit-stride rectangle of all 64 rows and `n` columns from column `o` reads,
    at (r, c), the block at (r, o + c). -/
theorem ld_cols_apply {n : Nat} (x0 : Vec Ideal S64x50257 .f32) (off : Fin 2 → Nat) (o : Nat)
    (h0 : off 0 = 0) (h1 : off 1 = o)
    (inb : ∀ a, off a + (⟨2, ![64, n]⟩ : Shape).size a ≤ S64x50257.size a) (r : Fin 64) (c : Fin n)
    (hc : o + c.val < 50257) :
    View.ld x0 (Rect.unit (s := S64x50257) off (⟨2, ![64, n]⟩ : Shape).size inb) (ix2 r c) = x0 (ix2 r ⟨o + c.val, hc⟩) := by
  show x0 _ = x0 _
  refine congrArg x0 ?_
  funext a
  apply Fin.ext
  match a with
  | ⟨0, _⟩ => show off 0 + 1 * r.val = r.val; omega
  | ⟨1, _⟩ => show off 1 + 1 * c.val = o + c.val; omega

/-- The k-th wide rectangle starts at row 0 … -/
theorem off_row (k : Fin 6) : k0_off1 (BitVec.ofNat 32 k.val) 0 = 0 := by rw [k0_off1_eq k]; rfl
/-- … and column 8192 k. -/
theorem off_col (k : Fin 6) : k0_off1 (BitVec.ofNat 32 k.val) 1 = 8192 * k.val := by rw [k0_off1_eq k]; rfl

/-- THE STORED COLUMN of an input block at row r: the sum of `lsK` over all 50257 classes of row r of the block. -/
theorem stored_row (x0 : Vec Ideal S64x50257 .f32) (r : Fin 64) :
    k0_pay1
        (k0_pay4
          (k0_pay2 (View.ld x0 (Rect.unit (s := S64x50257) (k0_off1 0#32) S64x8192.size (k0_off1_inb 0)))
            (View.ld x0 (Rect.unit (s := S64x50257) (k0_off1 1#32) S64x8192.size (k0_off1_inb 1))))
          (View.ld x0 (Rect.unit (s := S64x50257) (k0_off1 2#32) S64x8192.size (k0_off1_inb 2))) k0_pay3
          (View.ld x0 (Rect.unit (s := S64x50257) (k0_off1 3#32) S64x8192.size (k0_off1_inb 3))))
        (k0_pay5 (View.ld x0 (Rect.unit (s := S64x50257) (k0_off1 4#32) S64x8192.size (k0_off1_inb 4))))
        (View.ld x0 (Rect.unit (s := S64x50257) (k0_off1 5#32) S64x8192.size (k0_off1_inb 5)))
        (View.ld x0 (Rect.unit (s := S64x50257) ![0, 49152] S64x1105.size inb_S64x50257_S64x1105_0_49152)) (ix2 r 0)
      = ∑ c : Fin 50257, Cert.Spec.lsK (x0 (ix2 r c)) := by
  refine (stored_apply _ _ _ _ _ _ _ r).trans ?_
  rw [sum_chunks fun c => Cert.Spec.lsK (x0 (ix2 r c))]
  refine congrArg₂ (· + ·) (congrArg₂ (· + ·) (congrArg₂ (· + ·) (congrArg₂ (· + ·) (congrArg₂ (· + ·) (congrArg₂ (· + ·) ?_ ?_) ?_) ?_) ?_) ?_) ?_
  · exact Finset.sum_congr rfl fun c _ => congrArg Cert.Spec.lsK
      ((ld_cols_apply x0 _ 0 (off_row 0) (off_col 0) _ r c (by have := c.isLt; omega)).trans
        (congrArg x0 (congrArg (ix2 r) (Fin.ext (Nat.zero_add _)))))
  · exact Finset.sum_congr rfl fun c _ => congrArg Cert.Spec.lsK
      (ld_cols_apply x0 _ 8192 (off_row 1) (off_col 1) _ r c (by have := c.isLt; omega))
  · exact Finset.sum_congr rfl fun c _ => congrArg Cert.Spec.lsK
      (ld_cols_apply x0 _ 16384 (off_row 2) (off_col 2) _ r c (by have := c.isLt; omega))
  · exact Finset.sum_congr rfl fun c _ => congrArg Cert.Spec.lsK
      (ld_cols_apply x0 _ 24576 (off_row 3) (off_col 3) _ r c (by have := c.isLt; omega))
  · exact Finset.sum_congr rfl fun c _ => congrArg Cert.Spec.lsK
      (ld_cols_apply x0 _ 32768 (off_row 4) (off_col 4) _ r c (by have := c.isLt; omega))
  · exact Finset.sum_congr rfl fun c _ => congrArg Cert.Spec.lsK
      (ld_cols_apply x0 _ 40960 (off_row 5) (off_col 5) _ r c (by have := c.isLt; omega))
  · exact Finset.sum_congr rfl fun c _ => congrArg Cert.Spec.lsK
      (ld_cols_apply x0 _ 49152 rfl rfl _ r c (by have := c.isLt; omega))

/-- The stored column of an input block at any index of the [64, 1] output block. -/
theorem stored_at (x0 : Vec Ideal S64x50257 .f32) (y : S64x1.Idx) :
    Hand.stored x0 y = ∑ k : Fin 50257, Cert.Spec.lsK (x0 (ix2 (y 0) k)) := by
  have hy : y = ix2 (y 0) 0 := by
    funext a
    match a with
    | ⟨0, _⟩ => rfl
    | ⟨1, _⟩ => exact Fin.ext (Nat.lt_one_iff.mp (y 1).isLt)
  exact (congrArg (Hand.stored x0) hy).trans (stored_row x0 (y 0))

/-! ## From the blocks to the array -/

variable (m : (ℓ : Loc nD τ sig) → Buf (Elt Ideal) ℓ)

theorem zero_offsets : (![0, 0] : Fin 2 → Nat) = fun _ => 0 := funext fun a => by fin_cases a <;> rfl

/-- The printed index maps, decided once over the grid: at point t both windows' blocks are block row t, block
    column 0. -/
theorem block_row_col : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT t WRITES BACK is block t of the row sums of the argument array. -/
theorem written_back (c : Dev nD) (t : Fin cfg0.N) :
    (Hand.dats m 0 c).flushed 1 t
      = ((cfg0.win 1).blk t).view.read (Elt Ideal) (Cert.Spec.rowSums (m ((c.tc : Thread nD τ).loc main_arg0))) := by
  generalize hG : Cert.Spec.rowSums (m ((c.tc : Thread nD τ).loc main_arg0)) = G
  show (cfg0.win 1).cut (grid0.coords t) ((Hand.dats m 0 c).after 1 t) = _
  rw [Hand.after0_1]
  unfold Hand.out0_1
  rw [View.canon_unit_zero zero_offsets]
  obtain ⟨e0, e1, e2, e3⟩ := block_row_col t
  funext j
  refine (stored_at (Hand.iblk m c 0 t) j).trans ?_
  show _ = G (((cfg0.win 1).blk t).view.emb j)
  rw [← hG]
  unfold Cert.Spec.rowSums
  refine Finset.sum_congr rfl fun k _ => congrArg Cert.Spec.lsK ?_
  show Hand.V m c main_arg0 (((cfg0.win 0).blk t).view.emb _) = m ((c.tc : Thread nD τ).loc main_arg0) _
  rw [Hand.V_main_arg0]
  refine congrArg _ ?_
  funext a
  apply Fin.ext
  match a with
  | ⟨0, _⟩ =>
    show win0_0.index t (0 : Fin 2) * 64 + 1 * (j 0).val = win0_1.index t (0 : Fin 2) * 64 + 1 * (j 0).val
    omega
  | ⟨1, _⟩ =>
    show win0_0.index t (1 : Fin 2) * 50257 + 1 * k.val = k.val
    omega

/-- An index of the output array is in point t's block iff each coordinate is in the block's range on its axis. -/
theorem mem_block_rows (t : Fin cfg0.N) (i : S2048x1.Idx) :
    i ∈ ((cfg0.win 1).blk t).view.set
      ↔ ∀ a : Fin 2, win0_1.index t a * S64x1.size a ≤ (i a).val ∧ (i a).val < win0_1.index t a * S64x1.size a + S64x1.size a := by
  show i ∈ ((View.whole main_v0).slice (win0_1.rect t)).set ↔ _
  rw [View.set_slice_whole, Rect.mem_set_unit]
  exact Iff.rfl

/-- Every row of the output array is in the block of the point its number divided by 64 names. -/
theorem row_covered (i : S2048x1.Idx) :
    ∃ t : Fin cfg0.N, (cfg0.win 1).flush t = true ∧ i ∈ ((cfg0.win 1).blk t).view.set := by
  have hi0 : (i 0).val < 2048 := (i 0).isLt
  have hi1 : (i 1).val < 1 := (i 1).isLt
  have hN : cfg0.N = 32 := N_0
  have ht : (i 0).val / 64 < cfg0.N := by rw [hN]; omega
  obtain ⟨t, htv⟩ : ∃ t : Fin cfg0.N, t.val = (i 0).val / 64 := ⟨⟨_, ht⟩, rfl⟩
  refine ⟨t, flush0_1 t, ?_⟩
  rw [mem_block_rows]
  obtain ⟨e0, e1, e2, e3⟩ := block_row_col t
  intro a
  match a with
  | ⟨0, _⟩ =>
    show win0_1.index t (0 : Fin 2) * 64 ≤ (i 0).val ∧ (i 0).val < win0_1.index t (0 : Fin 2) * 64 + 64
    omega
  | ⟨1, _⟩ =>
    show win0_1.index t (1 : Fin 2) * 1 ≤ (i 1).val ∧ (i 1).val < win0_1.index t (1 : Fin 2) * 1 + 1
    omega

/-- THE OUTPUT ARRAY after the run: the row sums of `lsK` over the argument array. -/
theorem arr_out (c : Dev nD) :
    (Hand.dats m 0 c).arrAt 1 cfg0.N = Cert.Spec.rowSums (m ((c.tc : Thread nD τ).loc main_arg0)) :=
  (Hand.dats m 0 c).arrAt_eq_of_cover 1 _ (fun t _ => written_back m c t) row_covered

end Cert.KernelIdeal.HandValue

end
-- ==== Proof.KTail.lean ====
/-
  What the kernel program's host operations after the region compute, for any element family.

  The 103 operations come as ten stretches. Each stretch is read on its own, from an arbitrary valuation V:
  the buffers that later stretches consume are given as the specification's functions of V at the buffers the
  stretch reads, and every reference outside the stretch's own result list keeps its contents. The ten readings
  are then composed along the concatenation: the last result buffer holds the specification's tail function of
  the two arguments and the region's output array, and the label argument is never written.
-/
import proofs.«420997_j88828513616443_3_alg».proof.Proof.Gen.KernelIdeal.Launch
import proofs.«420997_j88828513616443_3_alg».proof.Proof.Spec
import Idealize.ShloMosaic.Lib.StableHlo.Run
import Idealize.ShloMosaic.Lib.Pipeline.Frame
import Mathlib.Data.Finset.Insert
import Mathlib.Data.Finset.Dedup

noncomputable section

namespace Cert.KernelIdeal.HandTail

open Cert.KernelIdeal Cert.KernelIdeal.Gen Idealize.ShloMosaic Idealize.ShloMosaic.StableHlo

variable {F : FTy → Type} [FloatOps F]

/-! ## What each stretch writes -/

/-- A set that is one reference's buffer lies in the buffers of any list holding that reference. -/
theorem sub_of_mem {L : List (Ref sig .tc)} {s : Finset (DevRef τ sig)} {y : Ref sig .tc}
    (hs : s = {Proc.devRef .tc y}) (hy : y ∈ L) : s ⊆ (L.map (Proc.devRef (τ := τ) .tc)).toFinset := by
  subst hs
  exact Finset.singleton_subset_iff.mpr (List.mem_toFinset.mpr (List.mem_map_of_mem hy))

/-- The result references of the ten stretches, in program order. -/
abbrev wr0 : List (Ref sig .tc) := [main_v1]
abbrev wr1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_cst, main_call0_v14, main_v2]
abbrev wr2 : List (Ref sig .tc) :=
  [main_call1_v0, main_call1_call0_cst, main_call1_call0_v0, main_call1_call0_v1, main_call1_call0_v2, main_call1_call0_v3, main_call1_call0_v4, main_call1_call0_v5, main_call1_call0_v6, main_call1_call0_v7, main_call1_call0_v8, main_call1_call0_v9, main_call1_call0_v10, main_call1_call0_v11, main_call1_v1, main_v3]
abbrev wr3 : List (Ref sig .tc) := [main_cst, main_v4, main_cst_0, main_v5, main_v6, main_v7]
abbrev wr4 : List (Ref sig .tc) :=
  [main_call2_v0, main_call2_call0_cst, main_call2_call0_v0, main_call2_call0_v1, main_call2_call0_v2, main_call2_call0_v3, main_call2_call0_v4, main_call2_call0_v5, main_call2_call0_v6, main_call2_call0_v7, main_call2_call0_v8, main_call2_call0_v9, main_call2_call0_v10, main_call2_call0_v11, main_call2_v1, main_v8]
abbrev wr5 : List (Ref sig .tc) := [main_v9, main_v10, main_v11, main_v12, main_v13, main_c, main_v14]
abbrev wr6 : List (Ref sig .tc) :=
  [main_call3_v0, main_call3_c, main_call3_v1, main_call3_v2, main_call3_v3, main_call3_v4, main_call3_c_0, main_call3_v5, main_v15]
abbrev wr7 : List (Ref sig .tc) :=
  [main_v16, main_v17, main_v18, main_c_1, main_v19, main_v20, main_v21, main_cst_2, main_v22, main_cst_3]
abbrev wr8 : List (Ref sig .tc) := [main_call4_v0, main_call4_v1, main_v23]
abbrev wr9 : List (Ref sig .tc) :=
  [main_cst_4, main_v24, main_v25, main_cst_5, main_v26, main_v27, main_v28, main_v29, main_cst_6, main_v30, main_cst_7, main_v31, main_v32]

/-- Every operation of stretch 0 writes one buffer, and it is on the stretch's list. -/
theorem writes0 : (hostOps1 : List (HloOp τ sig (Elt F))).Forall fun op => op.writes ⊆ (wr0.map (Proc.devRef (τ := τ) .tc)).toFinset := by
  simp only [List.Forall]
  repeat' apply And.intro
  all_goals exact sub_of_mem rfl (by decide)
/-- So a reference off the list keeps its contents across stretch 0. -/
theorem keep0 (V : Valuation τ sig (Elt F)) (r : Ref sig .tc) (h : r ∉ wr0) :
    StableHlo.after hostOps1 V (Proc.devRef .tc r) = V (Proc.devRef .tc r) :=
  StableHlo.after_of_writes_sub hostOps1 V writes0 h
/-- Every operation of stretch 1 writes one buffer, and it is on the stretch's list. -/
theorem writes1 : (hostOps1_1 : List (HloOp τ sig (Elt F))).Forall fun op => op.writes ⊆ (wr1.map (Proc.devRef (τ := τ) .tc)).toFinset := by
  simp only [List.Forall]
  repeat' apply And.intro
  all_goals exact sub_of_mem rfl (by decide)
/-- So a reference off the list keeps its contents across stretch 1. -/
theorem keep1 (V : Valuation τ sig (Elt F)) (r : Ref sig .tc) (h : r ∉ wr1) :
    StableHlo.after hostOps1_1 V (Proc.devRef .tc r) = V (Proc.devRef .tc r) :=
  StableHlo.after_of_writes_sub hostOps1_1 V writes1 h
/-- Every operation of stretch 2 writes one buffer, and it is on the stretch's list. -/
theorem writes2 : (hostOps1_2 : List (HloOp τ sig (Elt F))).Forall fun op => op.writes ⊆ (wr2.map (Proc.devRef (τ := τ) .tc)).toFinset := by
  simp only [List.Forall]
  repeat' apply And.intro
  all_goals exact sub_of_mem rfl (by decide)
/-- So a reference off the list keeps its contents across stretch 2. -/
theorem keep2 (V : Valuation τ sig (Elt F)) (r : Ref sig .tc) (h : r ∉ wr2) :
    StableHlo.after hostOps1_2 V (Proc.devRef .tc r) = V (Proc.devRef .tc r) :=
  StableHlo.after_of_writes_sub hostOps1_2 V writes2 h
/-- Every operation of stretch 3 writes one buffer, and it is on the stretch's list. -/
theorem writes3 : (hostOps1_3 : List (HloOp τ sig (Elt F))).Forall fun op => op.writes ⊆ (wr3.map (Proc.devRef (τ := τ) .tc)).toFinset := by
  simp only [List.Forall]
  repeat' apply And.intro
  all_goals exact sub_of_mem rfl (by decide)
/-- So a reference off the list keeps its contents across stretch 3. -/
theorem keep3 (V : Valuation τ sig (Elt F)) (r : Ref sig .tc) (h : r ∉ wr3) :
    StableHlo.after hostOps1_3 V (Proc.devRef .tc r) = V (Proc.devRef .tc r) :=
  StableHlo.after_of_writes_sub hostOps1_3 V writes3 h
/-- Every operation of stretch 4 writes one buffer, and it is on the stretch's list. -/
theorem writes4 : (hostOps1_4 : List (HloOp τ sig (Elt F))).Forall fun op => op.writes ⊆ (wr4.map (Proc.devRef (τ := τ) .tc)).toFinset := by
  simp only [List.Forall]
  repeat' apply And.intro
  all_goals exact sub_of_mem rfl (by decide)
/-- So a reference off the list keeps its contents across stretch 4. -/
theorem keep4 (V : Valuation τ sig (Elt F)) (r : Ref sig .tc) (h : r ∉ wr4) :
    StableHlo.after hostOps1_4 V (Proc.devRef .tc r) = V (Proc.devRef .tc r) :=
  StableHlo.after_of_writes_sub hostOps1_4 V writes4 h
/-- Every operation of stretch 5 writes one buffer, and it is on the stretch's list. -/
theorem writes5 : (hostOps1_5 : List (HloOp τ sig (Elt F))).Forall fun op => op.writes ⊆ (wr5.map (Proc.devRef (τ := τ) .tc)).toFinset := by
  simp only [List.Forall]
  repeat' apply And.intro
  all_goals exact sub_of_mem rfl (by decide)
/-- So a reference off the list keeps its contents across stretch 5. -/
theorem keep5 (V : Valuation τ sig (Elt F)) (r : Ref sig .tc) (h : r ∉ wr5) :
    StableHlo.after hostOps1_5 V (Proc.devRef .tc r) = V (Proc.devRef .tc r) :=
  StableHlo.after_of_writes_sub hostOps1_5 V writes5 h
/-- Every operation of stretch 6 writes one buffer, and it is on the stretch's list. -/
theorem writes6 : (hostOps1_6 : List (HloOp τ sig (Elt F))).Forall fun op => op.writes ⊆ (wr6.map (Proc.devRef (τ := τ) .tc)).toFinset := by
  simp only [List.Forall]
  repeat' apply And.intro
  all_goals exact sub_of_mem rfl (by decide)
/-- So a reference off the list keeps its contents across stretch 6. -/
theorem keep6 (V : Valuation τ sig (Elt F)) (r : Ref sig .tc) (h : r ∉ wr6) :
    StableHlo.after hostOps1_6 V (Proc.devRef .tc r) = V (Proc.devRef .tc r) :=
  StableHlo.after_of_writes_sub hostOps1_6 V writes6 h
/-- Every operation of stretch 7 writes one buffer, and it is on the stretch's list. -/
theorem writes7 : (hostOps1_7 : List (HloOp τ sig (Elt F))).Forall fun op => op.writes ⊆ (wr7.map (Proc.devRef (τ := τ) .tc)).toFinset := by
  simp only [List.Forall]
  repeat' apply And.intro
  all_goals exact sub_of_mem rfl (by decide)
/-- So a reference off the list keeps its contents across stretch 7. -/
theorem keep7 (V : Valuation τ sig (Elt F)) (r : Ref sig .tc) (h : r ∉ wr7) :
    StableHlo.after hostOps1_7 V (Proc.devRef .tc r) = V (Proc.devRef .tc r) :=
  StableHlo.after_of_writes_sub hostOps1_7 V writes7 h
/-- Every operation of stretch 8 writes one buffer, and it is on the stretch's list. -/
theorem writes8 : (hostOps1_8 : List (HloOp τ sig (Elt F))).Forall fun op => op.writes ⊆ (wr8.map (Proc.devRef (τ := τ) .tc)).toFinset := by
  simp only [List.Forall]
  repeat' apply And.intro
  all_goals exact sub_of_mem rfl (by decide)
/-- So a reference off the list keeps its contents across stretch 8. -/
theorem keep8 (V : Valuation τ sig (Elt F)) (r : Ref sig .tc) (h : r ∉ wr8) :
    StableHlo.after hostOps1_8 V (Proc.devRef .tc r) = V (Proc.devRef .tc r) :=
  StableHlo.after_of_writes_sub hostOps1_8 V writes8 h
/-- Every operation of stretch 9 writes one buffer, and it is on the stretch's list. -/
theorem writes9 : (hostOps1_9 : List (HloOp τ sig (Elt F))).Forall fun op => op.writes ⊆ (wr9.map (Proc.devRef (τ := τ) .tc)).toFinset := by
  simp only [List.Forall]
  repeat' apply And.intro
  all_goals exact sub_of_mem rfl (by decide)
/-- So a reference off the list keeps its contents across stretch 9. -/
theorem keep9 (V : Valuation τ sig (Elt F)) (r : Ref sig .tc) (h : r ∉ wr9) :
    StableHlo.after hostOps1_9 V (Proc.devRef .tc r) = V (Proc.devRef .tc r) :=
  StableHlo.after_of_writes_sub hostOps1_9 V writes9 h

/-! ## Contents at a typed reference

A typed reference moves contents between the value's type and its buffer's type along an equation of types. -/

/-- Moving contents to the buffer's type and back gives them again. -/
theorem ofBuf_toBuf {T : BufTy} (x : TRef sig T) (v : T.Contents (Elt F)) : x.ofBuf (x.toBuf v) = v := by
  obtain ⟨r, h, h1, h2⟩ := x
  subst h
  rfl

/-- Contents moved to the buffer's type equal whatever they equal, up to the types, before the move. -/
theorem toBuf_eq {T : BufTy} (x : TRef sig T) {v : T.Contents (Elt F)} {w : x.ref.ty.Contents (Elt F)} (h : HEq v w) :
    x.toBuf v = w :=
  eq_of_heq ((cast_heq _ v).trans h)

/-! ## What each stretch computes -/

/-- Stretch 0: the region's column of row sums read as a vector. -/
theorem res0 (V : Valuation τ sig (Elt F)) :
    StableHlo.after hostOps1 V (Proc.devRef .tc main_v1)
      = shapeCast Spec.S2048 (V (Proc.devRef .tc main_v0)) Spec.shapeCasts_S2048x1_S2048 := by
  simp only [hostOps1]
  after_results_simp <;> rfl

/-- Stretch 1: the logit at each label. -/
theorem res1 (V : Valuation τ sig (Elt F)) :
    StableHlo.after hostOps1_1 V (Proc.devRef .tc main_v2)
      = Spec.takeAlong (V (Proc.devRef .tc main_arg0)) (V (Proc.devRef .tc main_arg1)) := by
  simp only [hostOps1_1]
  after_results_simp
  simp only [ofBuf_toBuf]
  exact toBuf_eq _ (heq_of_eq rfl)

/-- Stretch 2: log sigma of the labels' logits. -/
theorem res2 (V : Valuation τ sig (Elt F)) :
    StableHlo.after hostOps1_2 V (Proc.devRef .tc main_v3)
      = Spec.logSigmoid Spec.S2048x20 Spec.bcast_S_S2048x20 (V (Proc.devRef .tc main_v2)) := by
  simp only [hostOps1_2]
  after_results_simp
  simp only [ofBuf_toBuf]
  exact toBuf_eq _ (heq_of_eq rfl)

/-- Stretch 3: the row mean over the 20 labels, -/
theorem res3_mean (V : Valuation τ sig (Elt F)) :
    StableHlo.after hostOps1_3 V (Proc.devRef .tc main_v6)
      = Host.divf
          (Host.reduceAdd (V (Proc.devRef .tc main_v3)) (constant Spec.S_ .f32 0x00000000#32) Spec.reducesTo_S2048x20_S2048_d1 Spec.h_S_)
          (broadcastInDim Spec.S2048 ![] Spec.bcast_S_S2048 (constant Spec.S_ .f32 0x41A00000#32)) := by
  simp only [hostOps1_3]
  after_results_simp <;> rfl

/-- and the negated logits at the labels. -/
theorem res3_neg (V : Valuation τ sig (Elt F)) :
    StableHlo.after hostOps1_3 V (Proc.devRef .tc main_v7) = Host.negf (V (Proc.devRef .tc main_v2)) := by
  simp only [hostOps1_3]
  after_results_simp <;> rfl

/-- Stretch 4: log sigma of the negated logits. -/
theorem res4 (V : Valuation τ sig (Elt F)) :
    StableHlo.after hostOps1_4 V (Proc.devRef .tc main_v8)
      = Spec.logSigmoid Spec.S2048x20 Spec.bcast_S_S2048x20 (V (Proc.devRef .tc main_v7)) := by
  simp only [hostOps1_4]
  after_results_simp
  simp only [ofBuf_toBuf]
  exact toBuf_eq _ (heq_of_eq rfl)

/-- Stretch 5: the table (b, i, j) of whether labels i and j of row b are the same word, -/
theorem res5_same (V : Valuation τ sig (Elt F)) :
    StableHlo.after hostOps1_5 V (Proc.devRef .tc main_v13)
      = cmpi .eq
          (broadcastInDim Spec.S2048x20x20 ![0, 1, 2] Spec.bcast_S2048x20x1_S2048x20x20_0_1_2
            (broadcastInDim Spec.S2048x20x1 ![0, 1] Spec.bcast_S2048x20_S2048x20x1_0_1 (V (Proc.devRef .tc main_arg1))))
          (broadcastInDim Spec.S2048x20x20 ![0, 1, 2] Spec.bcast_S2048x1x20_S2048x20x20_0_1_2
            (broadcastInDim Spec.S2048x1x20 ![0, 2] Spec.bcast_S2048x20_S2048x1x20_0_2 (V (Proc.devRef .tc main_arg1)))) := by
  simp only [hostOps1_5]
  after_results_simp <;> rfl

/-- and the all-true 20 x 20 table. -/
theorem res5_ones (V : Valuation τ sig (Elt F)) :
    StableHlo.after hostOps1_5 V (Proc.devRef .tc main_v14)
      = broadcastInDim Spec.S20x20 ![] Spec.bcast_S_S20x20 (constantI Spec.S_ 1 1#1) := by
  simp only [hostOps1_5]
  after_results_simp <;> rfl

/-- Stretch 6: the given table kept strictly below the diagonal, false elsewhere. -/
theorem res6 (V : Valuation τ sig (Elt F)) :
    StableHlo.after hostOps1_6 V (Proc.devRef .tc main_v15)
      = select (cmpi .sge (addi (iotaInDim Spec.S20x20 32 0) (broadcastInDim Spec.S20x20 ![] Spec.bcast_S_S20x20 (constantI Spec.S_ 32 4294967295#32))) (iotaInDim Spec.S20x20 32 1))
          (V (Proc.devRef .tc main_v14))
          (broadcastInDim Spec.S20x20 ![] Spec.bcast_S_S20x20 (constantI Spec.S_ 1 0#1)) := by
  simp only [hostOps1_6]
  after_results_simp
  simp only [ofBuf_toBuf]
  exact toBuf_eq _ (heq_of_eq rfl)

/-- Label i of row b has no equal label j that the 20 x 20 table m admits. -/
def noEarlier (a : IVec Spec.S2048x20x20 1) (m : IVec Spec.S20x20 1) : IVec Spec.S2048x20 1 :=
  noti (Host.reduce IntOp.ori
    (andi a
      (broadcastInDim Spec.S2048x20x20 ![0, 1, 2] Spec.bcast_S1x20x20_S2048x20x20_0_1_2
        (broadcastInDim Spec.S1x20x20 ![1, 2] Spec.bcast_S20x20_S1x20x20_1_2 m)))
    (constantI Spec.S_ 1 0#1) Spec.reducesTo_S2048x20x20_S2048x20_d2 Spec.h_S_)

/-- Stretch 7: which labels are first occurrences, -/
theorem res7_first (V : Valuation τ sig (Elt F)) :
    StableHlo.after hostOps1_7 V (Proc.devRef .tc main_v20)
      = noEarlier (V (Proc.devRef .tc main_v13)) (V (Proc.devRef .tc main_v15)) := by
  simp only [hostOps1_7]
  after_results_simp <;> rfl

/-- how many a row has, as a float, -/
theorem res7_count (V : Valuation τ sig (Elt F)) :
    StableHlo.after hostOps1_7 V (Proc.devRef .tc main_v22)
      = Host.reduceAdd (uitofp (F := F) .f32 (noEarlier (V (Proc.devRef .tc main_v13)) (V (Proc.devRef .tc main_v15))))
          (constant Spec.S_ .f32 0x00000000#32) Spec.reducesTo_S2048x20_S2048_d1 Spec.h_S_ := by
  simp only [hostOps1_7]
  after_results_simp <;> rfl

/-- and a zero. -/
theorem res7_zero (V : Valuation τ sig (Elt F)) :
    StableHlo.after hostOps1_7 V (Proc.devRef .tc main_cst_3) = constant (F := F) Spec.S_ .f32 0x00000000#32 := by
  simp only [hostOps1_7]
  after_results_simp <;> rfl

/-- Stretch 8: the second array where the mask is set, the scalar elsewhere. -/
theorem res8 (V : Valuation τ sig (Elt F)) :
    StableHlo.after hostOps1_8 V (Proc.devRef .tc main_v23)
      = select (V (Proc.devRef .tc main_v20)) (V (Proc.devRef .tc main_v8))
          (broadcastInDim Spec.S2048x20 ![] Spec.bcast_S_S2048x20 (id (V (Proc.devRef .tc main_cst_3)))) := by
  simp only [hostOps1_8]
  after_results_simp
  simp only [ofBuf_toBuf]
  exact toBuf_eq _ (heq_of_eq rfl)

/-- Stretch 9: the loss from the labels' mean, the row sums, the masked array's row sums and the counts. -/
theorem res9 (V : Valuation τ sig (Elt F)) :
    StableHlo.after hostOps1_9 V (Proc.devRef .tc main_v32)
      = Spec.finish (V (Proc.devRef .tc main_v6))
          (Host.divf
            (subf (V (Proc.devRef .tc main_v1))
              (Host.reduceAdd (V (Proc.devRef .tc main_v23)) (constant Spec.S_ .f32 0x00000000#32) Spec.reducesTo_S2048x20_S2048_d1 Spec.h_S_))
            (subf (broadcastInDim Spec.S2048 ![] Spec.bcast_S_S2048 (constant Spec.S_ .f32 0x47445100#32))
              (V (Proc.devRef .tc main_v22)))) := by
  simp only [hostOps1_9]
  after_results_simp <;> rfl

/-! ## The ten in a row -/

/-- The last result buffer after all 103 operations is the specification's tail function of the logits, the labels
    and the region's row sums: each stretch's result is read off, and what it consumes is carried back unchanged
    through the stretches that do not write it, down to the starting valuation. -/
theorem tail_result (W : Valuation τ sig (Elt F)) :
    StableHlo.after (List.flatten [hostOps1, hostOps1_1, hostOps1_2, hostOps1_3, hostOps1_4, hostOps1_5, hostOps1_6, hostOps1_7, hostOps1_8, hostOps1_9]) W (Proc.devRef .tc main_v32)
      = Spec.tailFn (W (Proc.devRef .tc main_arg0)) (W (Proc.devRef .tc main_arg1)) (W (Proc.devRef .tc main_v0)) := by
  simp only [List.flatten_cons, List.flatten_nil, List.append_nil, StableHlo.after_append]
  rw [res9]
  rw [res8, keep8 _ main_v6 (by decide), keep8 _ main_v1 (by decide), keep8 _ main_v22 (by decide)]
  rw [res7_first, res7_count, res7_zero, keep7 _ main_v8 (by decide), keep7 _ main_v6 (by decide), keep7 _ main_v1 (by decide)]
  rw [res6, keep6 _ main_v13 (by decide), keep6 _ main_v8 (by decide), keep6 _ main_v6 (by decide), keep6 _ main_v1 (by decide)]
  rw [res5_same, res5_ones, keep5 _ main_v8 (by decide), keep5 _ main_v6 (by decide), keep5 _ main_v1 (by decide)]
  rw [res4, keep4 _ main_arg1 (by decide), keep4 _ main_v6 (by decide), keep4 _ main_v1 (by decide)]
  rw [res3_mean, res3_neg, keep3 _ main_arg1 (by decide), keep3 _ main_v1 (by decide)]
  rw [res2, keep2 _ main_v2 (by decide), keep2 _ main_arg1 (by decide), keep2 _ main_v1 (by decide)]
  rw [res1, keep1 _ main_arg1 (by decide), keep1 _ main_v1 (by decide)]
  rw [res0, keep0 _ main_arg0 (by decide), keep0 _ main_arg1 (by decide)]
  rfl

/-- No operation of the ten stretches writes the label argument. -/
theorem tail_arg1 (W : Valuation τ sig (Elt F)) :
    StableHlo.after (List.flatten [hostOps1, hostOps1_1, hostOps1_2, hostOps1_3, hostOps1_4, hostOps1_5, hostOps1_6, hostOps1_7, hostOps1_8, hostOps1_9]) W (Proc.devRef .tc main_arg1)
      = W (Proc.devRef .tc main_arg1) := by
  simp only [List.flatten_cons, List.flatten_nil, List.append_nil, StableHlo.after_append]
  rw [keep9 _ main_arg1 (by decide), keep8 _ main_arg1 (by decide), keep7 _ main_arg1 (by decide), keep6 _ main_arg1 (by decide),
    keep5 _ main_arg1 (by decide), keep4 _ main_arg1 (by decide), keep3 _ main_arg1 (by decide), keep2 _ main_arg1 (by decide),
    keep1 _ main_arg1 (by decide), keep0 _ main_arg1 (by decide)]

end Cert.KernelIdeal.HandTail

end
-- ==== Proof.KRun.lean ====
/-
  The idealized kernel program's run with its result named: the pallas_call leaves each row's sum of log sigma(-x) over
  all classes in its output array, and the host operations after it compute the loss from the arguments and that array.
-/
import proofs.«420997_j88828513616443_3_alg».proof.Proof.KFrame
import proofs.«420997_j88828513616443_3_alg».proof.Proof.KValue
import proofs.«420997_j88828513616443_3_alg».proof.Proof.KTail

noncomputable section

namespace Cert.KernelIdeal.HandRun

open Cert.KernelIdeal Cert.KernelIdeal.Gen Idealize.ShloMosaic Idealize.ShloMosaic.TcCoe Idealize.SL.Sem

/-- The result buffer bypasses the region: it is unscoped and is no window's array. -/
theorem v32_mem_rest : main_v32 ∈ Pipeline.restRefs sig spec0 :=
  Pipeline.mem_restRefs_of main_v32 rfl (fun w => by fin_cases w <;> decide)

/-- The labels bypass it too. -/
theorem arg1_mem_rest : main_arg1 ∈ Pipeline.restRefs sig spec0 :=
  Pipeline.mem_restRefs_of main_arg1 rfl (fun w => by fin_cases w <;> decide)

/-- Every weakly fair execution of the idealized kernel program ends with its result at the host tail's function of the
    arguments and the row sums, and with the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
          = Cert.Spec.tailFn (F := Ideal) (m ((c.tc : Thread nD τ).loc main_arg0)) (m ((c.tc : Thread nD τ).loc main_arg1))
              (Cert.Spec.rowSums (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, Hand.post_arg0 m h c, ?_⟩) (Hand.run_main (F := Ideal) m ρ)
  · rw [Hand.post_rest m h c main_v32 v32_mem_rest, HandTail.tail_result, Hand.W_arg0, Hand.W_arg1, Hand.W_v0, HandValue.arr_out]
  · rw [Hand.post_rest m h c main_arg1 arg1_mem_rest, HandTail.tail_arg1, Hand.W_arg1]

end Cert.KernelIdeal.HandRun

end
-- ==== Proof.RefRun.lean ====
/-
  The reference program's run, for any float values.

  @main of the reference is a straight line: forty-five operations of its own and, at four calls, the bodies of the
  functions it calls — the gather of one logit per label with its range test (twenty-two operations), the
  log-sigmoid of those twenty logits per row (a negation, the fourteen operations of softplus, a negation), the same
  sixteen over the whole 2048 x 50257 array, and the three of the masked choice. Written out at the buffers each call
  names, that is one list of 102 operations, each reading buffers written earlier in the list or the two arguments.

  Three facts follow. The program equals the list run in order. Folding the operations' results over any contents of
  the buffers leaves, at the result buffer, the specification's function `Cert.Spec.refFn` of the two arguments'
  contents, and leaves the arguments as they were: every step of the fold is a lookup of an earlier result, and what
  remains is the same composition of pure operations that the specification writes over its own copies of the shapes.
  And so every weakly fair execution of @main from any memory with zero counters terminates with the result buffer at
  that function of the arguments' launch contents, the arguments unchanged.
-/
import proofs.«420997_j88828513616443_3_alg».proof.Proof.Gen.ReferenceIdeal
import proofs.«420997_j88828513616443_3_alg».proof.Proof.Spec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 102 operations in program order, each call replaced by its callee's operations over the buffers that
    call names: the label gather (into `main_call0`), the log-sigmoid of the gathered logits (`main_call1`, its
    softplus in `main_call1.call0`), @main's own index and mask arithmetic, the log-sigmoid of the negated logits
    (`main_call2`, `main_call2.call0`), the masked choice (`main_call3`), and the two means and their sum. -/
abbrev ops : List (HloOp τ sig (Elt F)) :=
  [
    StableHlo.TRef.nullary main_call0.c (constantI S_ 32 0#32),
    StableHlo.TRef.unary main_call0.c main_call0.v0 (broadcastInDim S2048x20 ![] bcast_S_S2048x20),
    StableHlo.TRef.binary (.of main_arg1 : StableHlo.TRef sig ⟨S2048x20, .i32⟩) main_call0.v0 main_call0.v1 (cmpi .slt),
    StableHlo.TRef.nullary main_call0.c_0 (constantI S_ 32 50257#32),
    StableHlo.TRef.unary main_call0.c_0 main_call0.v2 (broadcastInDim S2048x20 ![] bcast_S_S2048x20),
    StableHlo.TRef.binary (.of main_arg1 : StableHlo.TRef sig ⟨S2048x20, .i32⟩) main_call0.v2 main_call0.v3 addi,
    StableHlo.TRef.ternary main_call0.v1 main_call0.v3 (.of main_arg1 : StableHlo.TRef sig ⟨S2048x20, .i32⟩) main_call0.v4 select,
    StableHlo.TRef.reshape main_call0.v4 main_call0.v5 rfl shapeCasts_S2048x20_S2048x20x1,
    StableHlo.TRef.nullary main_call0.c_1 (constantI S1 32 50256#32),
    StableHlo.TRef.nullary main_call0.c_2 (constantI S_ 32 0#32),
    StableHlo.TRef.unary main_call0.c_2 main_call0.v6 (broadcastInDim S2048x20x1 ![] bcast_S_S2048x20x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S2048x20x1 ![0, 1, 2] bcast_S1x1x1_S2048x20x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S2048x20x1_S2048x20_d2 h_S_),
    StableHlo.TRef.binary (.of main_arg0 : StableHlo.TRef sig ⟨S2048x50257, .f32⟩) main_call0.v5 main_call0.v13 (fun x i => Host.gather gather_S2048x50257_S2048x20x1_S2048x20_n_1_0_0_1_2_11 x i),
    StableHlo.TRef.nullary main_call0.cst (constant S_ .f32 0x7FC00000#32),
    StableHlo.TRef.unary main_call0.cst main_call0.v14 (broadcastInDim S2048x20 ![] bcast_S_S2048x20),
    StableHlo.TRef.ternary main_call0.v12 main_call0.v13 main_call0.v14 main_call0.v15 select,
    StableHlo.TRef.unary (.of main_v0 : StableHlo.TRef sig ⟨S2048x20, .f32⟩) main_call1.v0 Host.negf,
    StableHlo.TRef.nullary main_call1.call0.cst (constant S_ .f32 0x00000000#32),
    StableHlo.TRef.unary main_call1.call0.cst main_call1.call0.v0 (broadcastInDim S2048x20 ![] bcast_S_S2048x20),
    StableHlo.TRef.binary main_call1.v0 main_call1.call0.v0 main_call1.call0.v1 maximumf,
    StableHlo.TRef.unary main_call1.call0.cst main_call1.call0.v2 (broadcastInDim S2048x20 ![] bcast_S_S2048x20),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S2048x20 ![] bcast_S_S2048x20),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.nullary main_cst (constant S_ .f32 0x00000000#32),
    StableHlo.binary main_v1 main_cst main_v2 ((fun x v => Host.reduceAdd x v reducesTo_S2048x20_S2048_d1 h_S_) : (⟨S2048x20, .f32⟩ : BufTy).Contents (Elt F) → (⟨S_, .f32⟩ : BufTy).Contents (Elt F) → (⟨S2048, .f32⟩ : BufTy).Contents (Elt F)),
    StableHlo.nullary main_cst_0 (constant S_ .f32 0x41A00000#32),
    StableHlo.unary main_cst_0 main_v3 (broadcastInDim S2048 ![] bcast_S_S2048 : (⟨S_, .f32⟩ : BufTy).Contents (Elt F) → (⟨S2048, .f32⟩ : BufTy).Contents (Elt F)),
    StableHlo.binary main_v2 main_v3 main_v4 (Host.divf : (⟨S2048, .f32⟩ : BufTy).Contents (Elt F) → (⟨S2048, .f32⟩ : BufTy).Contents (Elt F) → (⟨S2048, .f32⟩ : BufTy).Contents (Elt F)),
    StableHlo.nullary main_v5 (iotaInDim S2048 32 0),
    StableHlo.unary main_v5 main_v6 (broadcastInDim S2048x1 ![0] bcast_S2048_S2048x1_0 : (⟨S2048, .i32⟩ : BufTy).Contents (Elt F) → (⟨S2048x1, .i32⟩ : BufTy).Contents (Elt F)),
    StableHlo.nullary main_c (constantI S_ 1 1#1),
    StableHlo.unary main_c main_v7 (broadcastInDim S2048x50257 ![] bcast_S_S2048x50257 : (⟨S_, .i1⟩ : BufTy).Contents (Elt F) → (⟨S2048x50257, .i1⟩ : BufTy).Contents (Elt F)),
    StableHlo.nullary main_c_1 (constantI S_ 32 0#32),
    StableHlo.unary main_c_1 main_v8 (broadcastInDim S2048x1 ![] bcast_S_S2048x1 : (⟨S_, .i32⟩ : BufTy).Contents (Elt F) → (⟨S2048x1, .i32⟩ : BufTy).Contents (Elt F)),
    StableHlo.binary main_v6 main_v8 main_v9 (cmpi .slt : (⟨S2048x1, .i32⟩ : BufTy).Contents (Elt F) → (⟨S2048x1, .i32⟩ : BufTy).Contents (Elt F) → (⟨S2048x1, .i1⟩ : BufTy).Contents (Elt F)),
    StableHlo.nullary main_c_2 (constantI S_ 32 2048#32),
    StableHlo.unary main_c_2 main_v10 (broadcastInDim S2048x1 ![] bcast_S_S2048x1 : (⟨S_, .i32⟩ : BufTy).Contents (Elt F) → (⟨S2048x1, .i32⟩ : BufTy).Contents (Elt F)),
    StableHlo.binary main_v6 main_v10 main_v11 (addi : (⟨S2048x1, .i32⟩ : BufTy).Contents (Elt F) → (⟨S2048x1, .i32⟩ : BufTy).Contents (Elt F) → (⟨S2048x1, .i32⟩ : BufTy).Contents (Elt F)),
    StableHlo.ternary main_v9 main_v11 main_v6 main_v12 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
    StableHlo.nullary main_c_3 (constantI S_ 32 0#32),
    StableHlo.unary main_c_3 main_v13 (broadcastInDim S2048x20 ![] bcast_S_S2048x20 : (⟨S_, .i32⟩ : BufTy).Contents (Elt F) → (⟨S2048x20, .i32⟩ : BufTy).Contents (Elt F)),
    StableHlo.binary main_arg1 main_v13 main_v14 (cmpi .slt : (⟨S2048x20, .i32⟩ : BufTy).Contents (Elt F) → (⟨S2048x20, .i32⟩ : BufTy).Contents (Elt F) → (⟨S2048x20, .i1⟩ : BufTy).Contents (Elt F)),
    StableHlo.nullary main_c_4 (constantI S_ 32 50257#32),
    StableHlo.unary main_c_4 main_v15 (broadcastInDim S2048x20 ![] bcast_S_S2048x20 : (⟨S_, .i32⟩ : BufTy).Contents (Elt F) → (⟨S2048x20, .i32⟩ : BufTy).Contents (Elt F)),
    StableHlo.binary main_arg1 main_v15 main_v16 (addi : (⟨S2048x20, .i32⟩ : BufTy).Contents (Elt F) → (⟨S2048x20, .i32⟩ : BufTy).Contents (Elt F) → (⟨S2048x20, .i32⟩ : BufTy).Contents (Elt F)),
    StableHlo.ternary main_v14 main_v16 main_arg1 main_v17 (select : (⟨S2048x20, .i1⟩ : BufTy).Contents (Elt F) → (⟨S2048x20, .i32⟩ : BufTy).Contents (Elt F) → (⟨S2048x20, .i32⟩ : BufTy).Contents (Elt F) → (⟨S2048x20, .i32⟩ : BufTy).Contents (Elt F)),
    StableHlo.unary main_v12 main_v18 (broadcastInDim S2048x20 ![0, 1] bcast_S2048x1_S2048x20_0_1 : (⟨S2048x1, .i32⟩ : BufTy).Contents (Elt F) → (⟨S2048x20, .i32⟩ : BufTy).Contents (Elt F)),
    StableHlo.unary main_v18 main_v19 (broadcastInDim S2048x20x1 ![0, 1] bcast_S2048x20_S2048x20x1_0_1 : (⟨S2048x20, .i32⟩ : BufTy).Contents (Elt F) → (⟨S2048x20x1, .i32⟩ : BufTy).Contents (Elt F)),
    StableHlo.unary main_v17 main_v20 (broadcastInDim S2048x20x1 ![0, 1] bcast_S2048x20_S2048x20x1_0_1 : (⟨S2048x20, .i32⟩ : BufTy).Contents (Elt F) → (⟨S2048x20x1, .i32⟩ : BufTy).Contents (Elt F)),
    StableHlo.binary main_v19 main_v20 main_v21 ((fun a b => concatenate S2048x20x2 2 [⟨S2048x20x1, a⟩, ⟨S2048x20x1, b⟩] concatenates_S2048x20x1_S2048x20x1_S2048x20x2_d2) : (⟨S2048x20x1, .i32⟩ : BufTy).Contents (Elt F) → (⟨S2048x20x1, .i32⟩ : BufTy).Contents (Elt F) → (⟨S2048x20x2, .i32⟩ : BufTy).Contents (Elt F)),
    StableHlo.nullary main_c_5 (constantI S_ 1 0#1),
    StableHlo.unary main_c_5 main_v22 (broadcastInDim S2048x20 ![] bcast_S_S2048x20 : (⟨S_, .i1⟩ : BufTy).Contents (Elt F) → (⟨S2048x20, .i1⟩ : BufTy).Contents (Elt F)),
    StableHlo.ternary main_v7 main_v21 main_v22 main_v23 ((fun x i u => Host.scatter scatter_S2048x50257_S2048x20x2_S2048x20_n_01_01_2 (fun _ b => b) x i u) : (⟨S2048x50257, .i1⟩ : BufTy).Contents (Elt F) → (⟨S2048x20x2, .i32⟩ : BufTy).Contents (Elt F) → (⟨S2048x20, .i1⟩ : BufTy).Contents (Elt F) → (⟨S2048x50257, .i1⟩ : BufTy).Contents (Elt F)),
    StableHlo.unary main_arg0 main_v24 (Host.negf : (⟨S2048x50257, .f32⟩ : BufTy).Contents (Elt F) → (⟨S2048x50257, .f32⟩ : BufTy).Contents (Elt F)),
    StableHlo.TRef.unary (.of main_v24 : StableHlo.TRef sig ⟨S2048x50257, .f32⟩) main_call2.v0 Host.negf,
    StableHlo.TRef.nullary main_call2.call0.cst (constant S_ .f32 0x00000000#32),
    StableHlo.TRef.unary main_call2.call0.cst main_call2.call0.v0 (broadcastInDim S2048x50257 ![] bcast_S_S2048x50257),
    StableHlo.TRef.binary main_call2.v0 main_call2.call0.v0 main_call2.call0.v1 maximumf,
    StableHlo.TRef.unary main_call2.call0.cst main_call2.call0.v2 (broadcastInDim S2048x50257 ![] bcast_S_S2048x50257),
    StableHlo.TRef.binary main_call2.v0 main_call2.call0.v2 main_call2.call0.v3 subf,
    StableHlo.TRef.binary main_call2.call0.v3 main_call2.call0.v3 main_call2.call0.v4 (cmpf .une),
    StableHlo.TRef.unary main_call2.call0.cst main_call2.call0.v5 (broadcastInDim S2048x50257 ![] bcast_S_S2048x50257),
    StableHlo.TRef.binary main_call2.v0 main_call2.call0.v5 main_call2.call0.v6 addf,
    StableHlo.TRef.unary main_call2.call0.v3 main_call2.call0.v7 Host.absf,
    StableHlo.TRef.unary main_call2.call0.v7 main_call2.call0.v8 Host.negf,
    StableHlo.TRef.unary main_call2.call0.v8 main_call2.call0.v9 Host.exp,
    StableHlo.TRef.unary main_call2.call0.v9 main_call2.call0.v10 Host.log1p,
    StableHlo.TRef.binary main_call2.call0.v1 main_call2.call0.v10 main_call2.call0.v11 addf,
    StableHlo.TRef.ternary main_call2.call0.v4 main_call2.call0.v6 main_call2.call0.v11 main_call2.call0.v12 select,
    StableHlo.TRef.unary main_call2.call0.v12 main_call2.v2 Host.negf,
    StableHlo.nullary main_cst_6 (constant S_ .f32 0x00000000#32),
    StableHlo.TRef.unary (.of main_cst_6 : StableHlo.TRef sig ⟨S_, .f32⟩) main_call3.v0 id,
    StableHlo.TRef.unary main_call3.v0 main_call3.v1 (broadcastInDim S2048x50257 ![] bcast_S_S2048x50257),
    StableHlo.TRef.ternary (.of main_v23 : StableHlo.TRef sig ⟨S2048x50257, .i1⟩) (.of main_v25 : StableHlo.TRef sig ⟨S2048x50257, .f32⟩) main_call3.v1 main_call3.v2 select,
    StableHlo.nullary main_cst_7 (constant S_ .f32 0x00000000#32),
    StableHlo.binary main_v26 main_cst_7 main_v27 ((fun x v => Host.reduceAdd x v reducesTo_S2048x50257_S2048_d1 h_S_) : (⟨S2048x50257, .f32⟩ : BufTy).Contents (Elt F) → (⟨S_, .f32⟩ : BufTy).Contents (Elt F) → (⟨S2048, .f32⟩ : BufTy).Contents (Elt F)),
    StableHlo.unary main_v23 main_v28 ((extui 32 · natLt_1_32) : (⟨S2048x50257, .i1⟩ : BufTy).Contents (Elt F) → (⟨S2048x50257, .i32⟩ : BufTy).Contents (Elt F)),
    StableHlo.nullary main_c_8 (constantI S_ 32 0#32),
    StableHlo.binary main_v28 main_c_8 main_v29 ((fun x v => Host.reduce IntOp.addi x v reducesTo_S2048x50257_S2048_d1 h_S_) : (⟨S2048x50257, .i32⟩ : BufTy).Contents (Elt F) → (⟨S_, .i32⟩ : BufTy).Contents (Elt F) → (⟨S2048, .i32⟩ : BufTy).Contents (Elt F)),
    StableHlo.unary main_v29 main_v30 (sitofp .f32 : (⟨S2048, .i32⟩ : BufTy).Contents (Elt F) → (⟨S2048, .f32⟩ : BufTy).Contents (Elt F)),
    StableHlo.binary main_v27 main_v30 main_v31 (Host.divf : (⟨S2048, .f32⟩ : BufTy).Contents (Elt F) → (⟨S2048, .f32⟩ : BufTy).Contents (Elt F) → (⟨S2048, .f32⟩ : BufTy).Contents (Elt F)),
    StableHlo.binary main_v4 main_v31 main_v32 (addf : (⟨S2048, .f32⟩ : BufTy).Contents (Elt F) → (⟨S2048, .f32⟩ : BufTy).Contents (Elt F) → (⟨S2048, .f32⟩ : BufTy).Contents (Elt F)),
    StableHlo.nullary main_cst_9 (constant S_ .f32 0x00000000#32),
    StableHlo.binary main_v32 main_cst_9 main_v33 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_10 (constant S_ .f32 0x45000000#32),
    StableHlo.binary main_v33 main_cst_10 main_v34 (Host.divf : (⟨S_, .f32⟩ : BufTy).Contents (Elt F) → (⟨S_, .f32⟩ : BufTy).Contents (Elt F) → (⟨S_, .f32⟩ : BufTy).Contents (Elt F)),
    StableHlo.unary main_v34 main_v35 (Host.negf : (⟨S_, .f32⟩ : BufTy).Contents (Elt F) → (⟨S_, .f32⟩ : BufTy).Contents (Elt F)) ]

-- both sides are unfolded through one hundred and two sequencing steps
set_option maxRecDepth 8192 in
/-- @main is that list run in order: a called function's body is its own operations in sequence ending in the empty
    return, and sequencing after such a body is sequencing after each of its operations in turn, so with each call
    replaced by its body and each buffer record by its fields both sides are the same chain of single operations. -/
theorem main_eq (c : Dev nD) : main (F := F) c = seq ops := rfl

/-- No buffer of the signature is scoped. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., nullary_bufs_sub .., binary_bufs_sub .., nullary_bufs_sub .., unary_bufs_sub ..,
    binary_bufs_sub .., nullary_bufs_sub .., unary_bufs_sub .., nullary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., unary_bufs_sub .., binary_bufs_sub .., nullary_bufs_sub ..,
    unary_bufs_sub .., ternary_bufs_sub .., unary_bufs_sub .., unary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., nullary_bufs_sub .., unary_bufs_sub .., unary_bufs_sub .., ternary_bufs_sub .., nullary_bufs_sub ..,
    binary_bufs_sub .., unary_bufs_sub .., nullary_bufs_sub .., binary_bufs_sub .., unary_bufs_sub .., binary_bufs_sub ..,
    binary_bufs_sub .., nullary_bufs_sub .., binary_bufs_sub .., nullary_bufs_sub .., binary_bufs_sub .., unary_bufs_sub ..⟩

/-! ## The list in six stretches -/

/-- The first stretch: the labels wrapped as an index, their range test, and the gather of one logit per label. -/
abbrev opsA : List (HloOp τ sig (Elt F)) :=
  [
    StableHlo.TRef.nullary main_call0.c (constantI S_ 32 0#32),
    StableHlo.TRef.unary main_call0.c main_call0.v0 (broadcastInDim S2048x20 ![] bcast_S_S2048x20),
    StableHlo.TRef.binary (.of main_arg1 : StableHlo.TRef sig ⟨S2048x20, .i32⟩) main_call0.v0 main_call0.v1 (cmpi .slt),
    StableHlo.TRef.nullary main_call0.c_0 (constantI S_ 32 50257#32),
    StableHlo.TRef.unary main_call0.c_0 main_call0.v2 (broadcastInDim S2048x20 ![] bcast_S_S2048x20),
    StableHlo.TRef.binary (.of main_arg1 : StableHlo.TRef sig ⟨S2048x20, .i32⟩) main_call0.v2 main_call0.v3 addi,
    StableHlo.TRef.ternary main_call0.v1 main_call0.v3 (.of main_arg1 : StableHlo.TRef sig ⟨S2048x20, .i32⟩) main_call0.v4 select,
    StableHlo.TRef.reshape main_call0.v4 main_call0.v5 rfl shapeCasts_S2048x20_S2048x20x1,
    StableHlo.TRef.nullary main_call0.c_1 (constantI S1 32 50256#32),
    StableHlo.TRef.nullary main_call0.c_2 (constantI S_ 32 0#32),
    StableHlo.TRef.unary main_call0.c_2 main_call0.v6 (broadcastInDim S2048x20x1 ![] bcast_S_S2048x20x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S2048x20x1 ![0, 1, 2] bcast_S1x1x1_S2048x20x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S2048x20x1_S2048x20_d2 h_S_),
    StableHlo.TRef.binary (.of main_arg0 : StableHlo.TRef sig ⟨S2048x50257, .f32⟩) main_call0.v5 main_call0.v13 (fun x i => Host.gather gather_S2048x50257_S2048x20x1_S2048x20_n_1_0_0_1_2_11 x i),
    StableHlo.TRef.nullary main_call0.cst (constant S_ .f32 0x7FC00000#32),
    StableHlo.TRef.unary main_call0.cst main_call0.v14 (broadcastInDim S2048x20 ![] bcast_S_S2048x20),
    StableHlo.TRef.ternary main_call0.v12 main_call0.v13 main_call0.v14 main_call0.v15 select ]

/-- The second stretch: the log-sigmoid of the gathered logits and its mean over a row's twenty labels. -/
abbrev opsB : List (HloOp τ sig (Elt F)) :=
  [
    StableHlo.TRef.unary (.of main_v0 : StableHlo.TRef sig ⟨S2048x20, .f32⟩) main_call1.v0 Host.negf,
    StableHlo.TRef.nullary main_call1.call0.cst (constant S_ .f32 0x00000000#32),
    StableHlo.TRef.unary main_call1.call0.cst main_call1.call0.v0 (broadcastInDim S2048x20 ![] bcast_S_S2048x20),
    StableHlo.TRef.binary main_call1.v0 main_call1.call0.v0 main_call1.call0.v1 maximumf,
    StableHlo.TRef.unary main_call1.call0.cst main_call1.call0.v2 (broadcastInDim S2048x20 ![] bcast_S_S2048x20),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S2048x20 ![] bcast_S_S2048x20),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.nullary main_cst (constant S_ .f32 0x00000000#32),
    StableHlo.binary main_v1 main_cst main_v2 ((fun x v => Host.reduceAdd x v reducesTo_S2048x20_S2048_d1 h_S_) : (⟨S2048x20, .f32⟩ : BufTy).Contents (Elt F) → (⟨S_, .f32⟩ : BufTy).Contents (Elt F) → (⟨S2048, .f32⟩ : BufTy).Contents (Elt F)),
    StableHlo.nullary main_cst_0 (constant S_ .f32 0x41A00000#32),
    StableHlo.unary main_cst_0 main_v3 (broadcastInDim S2048 ![] bcast_S_S2048 : (⟨S_, .f32⟩ : BufTy).Contents (Elt F) → (⟨S2048, .f32⟩ : BufTy).Contents (Elt F)),
    StableHlo.binary main_v2 main_v3 main_v4 (Host.divf : (⟨S2048, .f32⟩ : BufTy).Contents (Elt F) → (⟨S2048, .f32⟩ : BufTy).Contents (Elt F) → (⟨S2048, .f32⟩ : BufTy).Contents (Elt F)) ]

/-- The third stretch: the all-ones mask, the row numbers and the wrapped labels, each of the two spread to a column of
    index components. -/
abbrev opsC1 : List (HloOp τ sig (Elt F)) :=
  [
    StableHlo.nullary main_v5 (iotaInDim S2048 32 0),
    StableHlo.unary main_v5 main_v6 (broadcastInDim S2048x1 ![0] bcast_S2048_S2048x1_0 : (⟨S2048, .i32⟩ : BufTy).Contents (Elt F) → (⟨S2048x1, .i32⟩ : BufTy).Contents (Elt F)),
    StableHlo.nullary main_c (constantI S_ 1 1#1),
    StableHlo.unary main_c main_v7 (broadcastInDim S2048x50257 ![] bcast_S_S2048x50257 : (⟨S_, .i1⟩ : BufTy).Contents (Elt F) → (⟨S2048x50257, .i1⟩ : BufTy).Contents (Elt F)),
    StableHlo.nullary main_c_1 (constantI S_ 32 0#32),
    StableHlo.unary main_c_1 main_v8 (broadcastInDim S2048x1 ![] bcast_S_S2048x1 : (⟨S_, .i32⟩ : BufTy).Contents (Elt F) → (⟨S2048x1, .i32⟩ : BufTy).Contents (Elt F)),
    StableHlo.binary main_v6 main_v8 main_v9 (cmpi .slt : (⟨S2048x1, .i32⟩ : BufTy).Contents (Elt F) → (⟨S2048x1, .i32⟩ : BufTy).Contents (Elt F) → (⟨S2048x1, .i1⟩ : BufTy).Contents (Elt F)),
    StableHlo.nullary main_c_2 (constantI S_ 32 2048#32),
    StableHlo.unary main_c_2 main_v10 (broadcastInDim S2048x1 ![] bcast_S_S2048x1 : (⟨S_, .i32⟩ : BufTy).Contents (Elt F) → (⟨S2048x1, .i32⟩ : BufTy).Contents (Elt F)),
    StableHlo.binary main_v6 main_v10 main_v11 (addi : (⟨S2048x1, .i32⟩ : BufTy).Contents (Elt F) → (⟨S2048x1, .i32⟩ : BufTy).Contents (Elt F) → (⟨S2048x1, .i32⟩ : BufTy).Contents (Elt F)),
    StableHlo.ternary main_v9 main_v11 main_v6 main_v12 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
    StableHlo.nullary main_c_3 (constantI S_ 32 0#32),
    StableHlo.unary main_c_3 main_v13 (broadcastInDim S2048x20 ![] bcast_S_S2048x20 : (⟨S_, .i32⟩ : BufTy).Contents (Elt F) → (⟨S2048x20, .i32⟩ : BufTy).Contents (Elt F)),
    StableHlo.binary main_arg1 main_v13 main_v14 (cmpi .slt : (⟨S2048x20, .i32⟩ : BufTy).Contents (Elt F) → (⟨S2048x20, .i32⟩ : BufTy).Contents (Elt F) → (⟨S2048x20, .i1⟩ : BufTy).Contents (Elt F)),
    StableHlo.nullary main_c_4 (constantI S_ 32 50257#32),
    StableHlo.unary main_c_4 main_v15 (broadcastInDim S2048x20 ![] bcast_S_S2048x20 : (⟨S_, .i32⟩ : BufTy).Contents (Elt F) → (⟨S2048x20, .i32⟩ : BufTy).Contents (Elt F)),
    StableHlo.binary main_arg1 main_v15 main_v16 (addi : (⟨S2048x20, .i32⟩ : BufTy).Contents (Elt F) → (⟨S2048x20, .i32⟩ : BufTy).Contents (Elt F) → (⟨S2048x20, .i32⟩ : BufTy).Contents (Elt F)),
    StableHlo.ternary main_v14 main_v16 main_arg1 main_v17 (select : (⟨S2048x20, .i1⟩ : BufTy).Contents (Elt F) → (⟨S2048x20, .i32⟩ : BufTy).Contents (Elt F) → (⟨S2048x20, .i32⟩ : BufTy).Contents (Elt F) → (⟨S2048x20, .i32⟩ : BufTy).Contents (Elt F)),
    StableHlo.unary main_v12 main_v18 (broadcastInDim S2048x20 ![0, 1] bcast_S2048x1_S2048x20_0_1 : (⟨S2048x1, .i32⟩ : BufTy).Contents (Elt F) → (⟨S2048x20, .i32⟩ : BufTy).Contents (Elt F)),
    StableHlo.unary main_v18 main_v19 (broadcastInDim S2048x20x1 ![0, 1] bcast_S2048x20_S2048x20x1_0_1 : (⟨S2048x20, .i32⟩ : BufTy).Contents (Elt F) → (⟨S2048x20x1, .i32⟩ : BufTy).Contents (Elt F)),
    StableHlo.unary main_v17 main_v20 (broadcastInDim S2048x20x1 ![0, 1] bcast_S2048x20_S2048x20x1_0_1 : (⟨S2048x20, .i32⟩ : BufTy).Contents (Elt F) → (⟨S2048x20x1, .i32⟩ : BufTy).Contents (Elt F)) ]

/-- The fourth stretch: the two columns joined into index pairs, and the mask cleared at every pair. -/
abbrev opsC2 : List (HloOp τ sig (Elt F)) :=
  [
    StableHlo.binary main_v19 main_v20 main_v21 ((fun a b => concatenate S2048x20x2 2 [⟨S2048x20x1, a⟩, ⟨S2048x20x1, b⟩] concatenates_S2048x20x1_S2048x20x1_S2048x20x2_d2) : (⟨S2048x20x1, .i32⟩ : BufTy).Contents (Elt F) → (⟨S2048x20x1, .i32⟩ : BufTy).Contents (Elt F) → (⟨S2048x20x2, .i32⟩ : BufTy).Contents (Elt F)),
    StableHlo.nullary main_c_5 (constantI S_ 1 0#1),
    StableHlo.unary main_c_5 main_v22 (broadcastInDim S2048x20 ![] bcast_S_S2048x20 : (⟨S_, .i1⟩ : BufTy).Contents (Elt F) → (⟨S2048x20, .i1⟩ : BufTy).Contents (Elt F)),
    StableHlo.ternary main_v7 main_v21 main_v22 main_v23 ((fun x i u => Host.scatter scatter_S2048x50257_S2048x20x2_S2048x20_n_01_01_2 (fun _ b => b) x i u) : (⟨S2048x50257, .i1⟩ : BufTy).Contents (Elt F) → (⟨S2048x20x2, .i32⟩ : BufTy).Contents (Elt F) → (⟨S2048x20, .i1⟩ : BufTy).Contents (Elt F) → (⟨S2048x50257, .i1⟩ : BufTy).Contents (Elt F)) ]

/-- The fifth stretch: the logits negated and the log-sigmoid of that over the whole array. -/
abbrev opsD : List (HloOp τ sig (Elt F)) :=
  [
    StableHlo.unary main_arg0 main_v24 (Host.negf : (⟨S2048x50257, .f32⟩ : BufTy).Contents (Elt F) → (⟨S2048x50257, .f32⟩ : BufTy).Contents (Elt F)),
    StableHlo.TRef.unary (.of main_v24 : StableHlo.TRef sig ⟨S2048x50257, .f32⟩) main_call2.v0 Host.negf,
    StableHlo.TRef.nullary main_call2.call0.cst (constant S_ .f32 0x00000000#32),
    StableHlo.TRef.unary main_call2.call0.cst main_call2.call0.v0 (broadcastInDim S2048x50257 ![] bcast_S_S2048x50257),
    StableHlo.TRef.binary main_call2.v0 main_call2.call0.v0 main_call2.call0.v1 maximumf,
    StableHlo.TRef.unary main_call2.call0.cst main_call2.call0.v2 (broadcastInDim S2048x50257 ![] bcast_S_S2048x50257),
    StableHlo.TRef.binary main_call2.v0 main_call2.call0.v2 main_call2.call0.v3 subf,
    StableHlo.TRef.binary main_call2.call0.v3 main_call2.call0.v3 main_call2.call0.v4 (cmpf .une),
    StableHlo.TRef.unary main_call2.call0.cst main_call2.call0.v5 (broadcastInDim S2048x50257 ![] bcast_S_S2048x50257),
    StableHlo.TRef.binary main_call2.v0 main_call2.call0.v5 main_call2.call0.v6 addf,
    StableHlo.TRef.unary main_call2.call0.v3 main_call2.call0.v7 Host.absf,
    StableHlo.TRef.unary main_call2.call0.v7 main_call2.call0.v8 Host.negf,
    StableHlo.TRef.unary main_call2.call0.v8 main_call2.call0.v9 Host.exp,
    StableHlo.TRef.unary main_call2.call0.v9 main_call2.call0.v10 Host.log1p,
    StableHlo.TRef.binary main_call2.call0.v1 main_call2.call0.v10 main_call2.call0.v11 addf,
    StableHlo.TRef.ternary main_call2.call0.v4 main_call2.call0.v6 main_call2.call0.v11 main_call2.call0.v12 select,
    StableHlo.TRef.unary main_call2.call0.v12 main_call2.v2 Host.negf ]

/-- The last stretch: the masked choice, its row sums, the count of kept classes, the second mean, and the loss from the
    two means. -/
abbrev opsE : List (HloOp τ sig (Elt F)) :=
  [
    StableHlo.nullary main_cst_6 (constant S_ .f32 0x00000000#32),
    StableHlo.TRef.unary (.of main_cst_6 : StableHlo.TRef sig ⟨S_, .f32⟩) main_call3.v0 id,
    StableHlo.TRef.unary main_call3.v0 main_call3.v1 (broadcastInDim S2048x50257 ![] bcast_S_S2048x50257),
    StableHlo.TRef.ternary (.of main_v23 : StableHlo.TRef sig ⟨S2048x50257, .i1⟩) (.of main_v25 : StableHlo.TRef sig ⟨S2048x50257, .f32⟩) main_call3.v1 main_call3.v2 select,
    StableHlo.nullary main_cst_7 (constant S_ .f32 0x00000000#32),
    StableHlo.binary main_v26 main_cst_7 main_v27 ((fun x v => Host.reduceAdd x v reducesTo_S2048x50257_S2048_d1 h_S_) : (⟨S2048x50257, .f32⟩ : BufTy).Contents (Elt F) → (⟨S_, .f32⟩ : BufTy).Contents (Elt F) → (⟨S2048, .f32⟩ : BufTy).Contents (Elt F)),
    StableHlo.unary main_v23 main_v28 ((extui 32 · natLt_1_32) : (⟨S2048x50257, .i1⟩ : BufTy).Contents (Elt F) → (⟨S2048x50257, .i32⟩ : BufTy).Contents (Elt F)),
    StableHlo.nullary main_c_8 (constantI S_ 32 0#32),
    StableHlo.binary main_v28 main_c_8 main_v29 ((fun x v => Host.reduce IntOp.addi x v reducesTo_S2048x50257_S2048_d1 h_S_) : (⟨S2048x50257, .i32⟩ : BufTy).Contents (Elt F) → (⟨S_, .i32⟩ : BufTy).Contents (Elt F) → (⟨S2048, .i32⟩ : BufTy).Contents (Elt F)),
    StableHlo.unary main_v29 main_v30 (sitofp .f32 : (⟨S2048, .i32⟩ : BufTy).Contents (Elt F) → (⟨S2048, .f32⟩ : BufTy).Contents (Elt F)),
    StableHlo.binary main_v27 main_v30 main_v31 (Host.divf : (⟨S2048, .f32⟩ : BufTy).Contents (Elt F) → (⟨S2048, .f32⟩ : BufTy).Contents (Elt F) → (⟨S2048, .f32⟩ : BufTy).Contents (Elt F)),
    StableHlo.binary main_v4 main_v31 main_v32 (addf : (⟨S2048, .f32⟩ : BufTy).Contents (Elt F) → (⟨S2048, .f32⟩ : BufTy).Contents (Elt F) → (⟨S2048, .f32⟩ : BufTy).Contents (Elt F)),
    StableHlo.nullary main_cst_9 (constant S_ .f32 0x00000000#32),
    StableHlo.binary main_v32 main_cst_9 main_v33 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_10 (constant S_ .f32 0x45000000#32),
    StableHlo.binary main_v33 main_cst_10 main_v34 (Host.divf : (⟨S_, .f32⟩ : BufTy).Contents (Elt F) → (⟨S_, .f32⟩ : BufTy).Contents (Elt F) → (⟨S_, .f32⟩ : BufTy).Contents (Elt F)),
    StableHlo.unary main_v34 main_v35 (Host.negf : (⟨S_, .f32⟩ : BufTy).Contents (Elt F) → (⟨S_, .f32⟩ : BufTy).Contents (Elt F)) ]

/-! ## The list is its six stretches, and a fold over a concatenation is the folds in turn -/

theorem ops_split :
    (ops : List (HloOp τ sig (Elt F))) = opsA ++ (opsB ++ (opsC1 ++ (opsC2 ++ (opsD ++ opsE)))) := rfl

/-- Folding over two lists in a row is folding over the second from where the first ends. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Contents moved to a typed reference's buffer type and back are unchanged. -/
theorem ofBuf_toBuf {T : BufTy} (x : TRef sig T) (v : T.Contents (Elt F)) : x.ofBuf (x.toBuf v) = v := by
  obtain ⟨r, h, _, _⟩ := x
  subst h
  rfl

/-! ## Each stretch: what it leaves at the buffers the later stretches read, and the buffers it leaves alone

A stretch's value is read off in three steps. Each operation's result at its own buffer is its function of its
operands' contents, and at any other buffer what was there; applied through the stretch this leaves one composed term
over the incoming contents. Inside a called function an operation is stated at the tensor value's type and moved to its
buffer's type and back; at these literal buffers the two types are the same, so the moves cancel in pairs and the
unpaired ones are the identity. What is left is the specification's function written out. The reductions, the gather
and the scatter are kept closed while the two sides are compared: the comparison is of how the operations are
composed, never of what they compute. -/

attribute [local irreducible] Host.reduce Host.reduceAdd Host.gather Host.scatter in
set_option maxRecDepth 8192 in
set_option maxHeartbeats 800000 in
/-- After the first stretch the gathered-logit buffer holds the specification's `takeAlong` of the two arguments. -/
theorem opsA_v0 (W : Valuation τ sig (Elt F)) :
    after opsA W (Proc.devRef .tc main_v0) = Cert.Spec.takeAlong (W (Proc.devRef .tc main_arg0)) (W (Proc.devRef .tc main_arg1)) := by
  after_results_simp
  simp only [ofBuf_toBuf]
  simp only [TRef.toBuf, TRef.ofBuf, cast_eq]
  rfl

/-- The first stretch writes neither argument. -/
theorem opsA_arg0 (W : Valuation τ sig (Elt F)) :
    after opsA W (Proc.devRef .tc main_arg0) = W (Proc.devRef .tc main_arg0) := by
  simp only [after_cons, after_nil]
  rfl

theorem opsA_arg1 (W : Valuation τ sig (Elt F)) :
    after opsA W (Proc.devRef .tc main_arg1) = W (Proc.devRef .tc main_arg1) := by
  simp only [after_cons, after_nil]
  rfl

attribute [local irreducible] Host.reduce Host.reduceAdd Host.gather Host.scatter in
set_option maxRecDepth 8192 in
set_option maxHeartbeats 800000 in
/-- After the second stretch the first mean's buffer holds the row mean of the log-sigmoid of what the gathered-logit
    buffer held. -/
theorem opsB_v4 (W : Valuation τ sig (Elt F)) :
    after opsB W (Proc.devRef .tc main_v4)
      = Host.divf
          (Host.reduceAdd (Cert.Spec.logSigmoid S2048x20 bcast_S_S2048x20 (W (Proc.devRef .tc main_v0)))
            (constant S_ .f32 0x00000000#32) reducesTo_S2048x20_S2048_d1 h_S_)
          (broadcastInDim S2048 ![] bcast_S_S2048 (constant S_ .f32 0x41A00000#32)) := by
  after_results_simp
  simp only [ofBuf_toBuf]
  simp only [TRef.toBuf, TRef.ofBuf, cast_eq]
  rfl

/-- The second stretch writes neither argument. -/
theorem opsB_arg0 (W : Valuation τ sig (Elt F)) :
    after opsB W (Proc.devRef .tc main_arg0) = W (Proc.devRef .tc main_arg0) := by
  simp only [after_cons, after_nil]
  rfl

theorem opsB_arg1 (W : Valuation τ sig (Elt F)) :
    after opsB W (Proc.devRef .tc main_arg1) = W (Proc.devRef .tc main_arg1) := by
  simp only [after_cons, after_nil]
  rfl

attribute [local irreducible] Host.reduce Host.reduceAdd Host.gather Host.scatter in
set_option maxRecDepth 8192 in
set_option maxHeartbeats 800000 in
/-- After the third stretch the first index column holds the row numbers, spread along the labels and then to a
    component. -/
theorem opsC1_v19 (W : Valuation τ sig (Elt F)) :
    after opsC1 W (Proc.devRef .tc main_v19)
      = broadcastInDim S2048x20x1 ![0, 1] bcast_S2048x20_S2048x20x1_0_1
          (broadcastInDim S2048x20 ![0, 1] bcast_S2048x1_S2048x20_0_1 Cert.Spec.rowIdx) := by
  after_results_simp
  rfl

attribute [local irreducible] Host.reduce Host.reduceAdd Host.gather Host.scatter in
set_option maxRecDepth 8192 in
set_option maxHeartbeats 800000 in
/-- After the third stretch the second index column holds the wrapped labels as a component. -/
theorem opsC1_v20 (W : Valuation τ sig (Elt F)) :
    after opsC1 W (Proc.devRef .tc main_v20)
      = broadcastInDim S2048x20x1 ![0, 1] bcast_S2048x20_S2048x20x1_0_1 (Cert.Spec.wrapIdx (W (Proc.devRef .tc main_arg1))) := by
  after_results_simp
  rfl

attribute [local irreducible] Host.reduce Host.reduceAdd Host.gather Host.scatter in
set_option maxRecDepth 8192 in
set_option maxHeartbeats 800000 in
/-- After the third stretch the initial mask is set everywhere. -/
theorem opsC1_v7 (W : Valuation τ sig (Elt F)) :
    after opsC1 W (Proc.devRef .tc main_v7) = broadcastInDim S2048x50257 ![] bcast_S_S2048x50257 (constantI S_ 1 1#1) := by
  after_results_simp

/-- The third stretch writes neither the first mean nor the logits. -/
theorem opsC1_v4 (W : Valuation τ sig (Elt F)) :
    after opsC1 W (Proc.devRef .tc main_v4) = W (Proc.devRef .tc main_v4) := by
  simp only [after_cons, after_nil]
  rfl

theorem opsC1_arg0 (W : Valuation τ sig (Elt F)) :
    after opsC1 W (Proc.devRef .tc main_arg0) = W (Proc.devRef .tc main_arg0) := by
  simp only [after_cons, after_nil]
  rfl

attribute [local irreducible] Host.reduce Host.reduceAdd Host.gather Host.scatter in
set_option maxRecDepth 8192 in
set_option maxHeartbeats 800000 in
/-- After the fourth stretch the mask's buffer holds the initial mask cleared at every pair of the two index
    columns. -/
theorem opsC2_v23 (W : Valuation τ sig (Elt F)) :
    after opsC2 W (Proc.devRef .tc main_v23)
      = Host.scatter Cert.Spec.scatterDims (fun _ b => b) (W (Proc.devRef .tc main_v7))
          (concatenate S2048x20x2 2 [⟨S2048x20x1, (W (Proc.devRef .tc main_v19))⟩, ⟨S2048x20x1, (W (Proc.devRef .tc main_v20))⟩]
            concatenates_S2048x20x1_S2048x20x1_S2048x20x2_d2)
          (broadcastInDim S2048x20 ![] bcast_S_S2048x20 (constantI S_ 1 0#1)) := by
  after_results_simp
  rfl

/-- The fourth stretch writes neither the first mean nor the logits. -/
theorem opsC2_v4 (W : Valuation τ sig (Elt F)) :
    after opsC2 W (Proc.devRef .tc main_v4) = W (Proc.devRef .tc main_v4) := by
  simp only [after_cons, after_nil]
  rfl

theorem opsC2_arg0 (W : Valuation τ sig (Elt F)) :
    after opsC2 W (Proc.devRef .tc main_arg0) = W (Proc.devRef .tc main_arg0) := by
  simp only [after_cons, after_nil]
  rfl

attribute [local irreducible] Host.reduce Host.reduceAdd Host.gather Host.scatter in
set_option maxRecDepth 8192 in
set_option maxHeartbeats 800000 in
/-- After the fifth stretch its result buffer holds the log-sigmoid of the negated logits. -/
theorem opsD_v25 (W : Valuation τ sig (Elt F)) :
    after opsD W (Proc.devRef .tc main_v25)
      = Cert.Spec.logSigmoid S2048x50257 bcast_S_S2048x50257 (Host.negf (W (Proc.devRef .tc main_arg0))) := by
  after_results_simp
  simp only [ofBuf_toBuf]
  simp only [TRef.toBuf, TRef.ofBuf, cast_eq]
  rfl

/-- The fifth stretch writes neither the first mean nor the mask. -/
theorem opsD_v4 (W : Valuation τ sig (Elt F)) :
    after opsD W (Proc.devRef .tc main_v4) = W (Proc.devRef .tc main_v4) := by
  simp only [after_cons, after_nil]
  rfl

theorem opsD_v23 (W : Valuation τ sig (Elt F)) :
    after opsD W (Proc.devRef .tc main_v23) = W (Proc.devRef .tc main_v23) := by
  simp only [after_cons, after_nil]
  rfl

attribute [local irreducible] Host.reduce Host.reduceAdd Host.gather Host.scatter in
set_option maxRecDepth 8192 in
set_option maxHeartbeats 800000 in
/-- After the last stretch the result buffer holds the loss from the first mean and from the mean, over the classes the
    mask keeps, of what the fifth stretch left. -/
theorem opsE_v35 (W : Valuation τ sig (Elt F)) :
    after opsE W (Proc.devRef .tc main_v35)
      = Cert.Spec.finish (W (Proc.devRef .tc main_v4))
        (Host.divf
          (Host.reduceAdd
            (select (W (Proc.devRef .tc main_v23)) (W (Proc.devRef .tc main_v25))
              (broadcastInDim S2048x50257 ![] bcast_S_S2048x50257 (id (constant S_ .f32 0x00000000#32))))
            (constant S_ .f32 0x00000000#32) reducesTo_S2048x50257_S2048_d1 h_S_)
          (sitofp .f32 (Host.reduce IntOp.addi (extui 32 (W (Proc.devRef .tc main_v23)) natLt_1_32) (constantI S_ 32 0#32)
            reducesTo_S2048x50257_S2048_d1 h_S_))) := by
  after_results_simp
  simp only [ofBuf_toBuf]
  simp only [TRef.toBuf, TRef.ofBuf, cast_eq]
  rfl

/-! ## The whole list -/

attribute [local irreducible] Host.reduce Host.reduceAdd Host.gather Host.scatter in
/-- Folded over any contents, the list leaves at the result buffer the specification's function of the two arguments'
    contents: the stretches' values substituted into one another, last to first, are `Cert.Spec.refFn` with its two
    means, its mask and its index pairs written out. -/
theorem out_eq (W : Valuation τ sig (Elt F)) :
    after ops W (Proc.devRef .tc main_v35)
      = Cert.Spec.refFn (W (Proc.devRef .tc main_arg0)) (W (Proc.devRef .tc main_arg1)) := by
  rw [ops_split, after_app, after_app, after_app, after_app, after_app,
    opsE_v35, opsD_v4, opsD_v23, opsD_v25,
    opsC2_v4, opsC2_v23, opsC2_arg0,
    opsC1_v4, opsC1_v7, opsC1_v19, opsC1_v20, opsC1_arg0,
    opsB_v4, opsB_arg0, opsB_arg1, opsA_v0, opsA_arg0, opsA_arg1]
  rfl

/-- The list writes neither argument. -/
theorem arg0_eq (W : Valuation τ sig (Elt F)) :
    after ops W (Proc.devRef .tc main_arg0) = W (Proc.devRef .tc main_arg0) := by
  simp only [after_cons, after_nil]
  rfl

theorem arg1_eq (W : Valuation τ sig (Elt F)) :
    after ops W (Proc.devRef .tc main_arg1) = W (Proc.devRef .tc main_arg1) := by
  simp only [after_cons, after_nil]
  rfl

/-- On the one device, for any float values, from any memory with zero counters: every weakly fair execution of @main
    terminates with the result buffer at `Cert.Spec.refFn` of the two arguments' launch contents, and the arguments'
    buffers as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
          = Cert.Spec.refFn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.Hand

end
-- ==== Proof.PreFacts.lean ====
/-
  What the precondition says of the arguments, at the ideal instance.

  The precondition is a conjunction of three statements "every element of an array of bits is set":
  |x| < +inf over the logits, 0 ≤ t and t < 50257 over the labels. A conjunction of bits that is 1 has both bits 1;
  a reduction by "and" over all axes that is 1 met only 1s. So each comparison holds at each element: a logit whose
  absolute value lies below +inf is a real number, and a label word whose signed value passes both comparisons lies
  in [0, 50257).
-/
import proofs.«420997_j88828513616443_3_alg».proof.Pre_finite_inputs
import proofs.«420997_j88828513616443_3_alg».proof.Proof.Gen.Pre_finite_inputs
import Idealize.ShloMosaic.PureOps
import Idealize.ShloMosaic.PureOps.Ideal
import Idealize.ShloMosaic.Lib.ReduceAll
import Idealize.ShloMosaic.Lib.ValueIdx
import Idealize.ShloMosaic.Lib.StableHlo.Predicate

noncomputable section

namespace Cert.Proof.PreFacts

open Idealize.ShloMosaic Cert.Pre_finite_inputs

/-- A shape of rank 0 has one index. -/
instance : Subsingleton S_.Idx := ⟨fun a b => funext fun d => d.elim0⟩

/-- The three element facts the precondition's three conjuncts state. -/
theorem elems (x : FVec Ideal S2048x50257 .f32) (t : IVec S2048x20 32)
    (h : Cert.Pre_finite_inputs.fn (F := Ideal) x t = fun _ => 1#1) :
    (∀ i, Ideal.cmp .olt (max (x i) (-(x i))) (Ideal.ofBits .f32 0x7F800000#32) = 1#1)
      ∧ (∀ j, IntOp.cmpi .sge (t j) 0#32 = 1#1) ∧ (∀ j, IntOp.cmpi .slt (t j) 50257#32 = 1#1) := by
  have h0 := congrFun h ValueIdx.ix0
  dsimp only [Cert.Pre_finite_inputs.fn, andi] at h0
  obtain ⟨h12, h3⟩ := IntOp.andi_eq_one.1 h0
  obtain ⟨h1, h2⟩ := IntOp.andi_eq_one.1 h12
  refine ⟨fun i => ?_, fun j => ?_, fun j => ?_⟩
  · exact Host.reduce_andi_all _ _ _ _ _ h1 i
  · exact Host.reduce_andi_all _ _ _ _ _ h2 j
  · exact Host.reduce_andi_all _ _ _ _ _ h3 j

/-- The pattern 0x7F800000 denotes +inf. -/
theorem inf_bits : Ideal.ofBits .f32 0x7F800000#32 = (⊤ : EReal) := by
  simp [Ideal.ofBits, Ideal.ieee]

/-- An extended real whose absolute value lies below +inf is a real number. -/
theorem real_of_abs_lt_top (a : EReal) (ha : max a (-a) < ⊤) : ∃ r : ℝ, a = (r : EReal) := by
  induction a using EReal.rec with
  | bot => exact absurd ha (by simp)
  | coe r => exact ⟨r, rfl⟩
  | top => exact absurd ha (by simp)

/-- Every logit is a real number. -/
theorem fin_of_pre (x : FVec Ideal Cert.Pre_finite_inputs.S2048x50257 .f32) (t : IVec Cert.Pre_finite_inputs.S2048x20 32)
    (h : Cert.Pre_finite_inputs.fn (F := Ideal) x t = fun _ => 1#1) : ∀ i, ∃ r : ℝ, x i = (r : EReal) := by
  intro i
  have a := (elems x t h).1 i
  rw [inf_bits] at a
  simp only [Ideal.cmp, StableHlo.Predicate.ofBool_eq_one_iff, decide_eq_true_eq] at a
  exact real_of_abs_lt_top (x i) a

/-- Every label, read signed, lies in [0, 50257). -/
theorem range_of_pre (x : FVec Ideal Cert.Pre_finite_inputs.S2048x50257 .f32) (t : IVec Cert.Pre_finite_inputs.S2048x20 32)
    (h : Cert.Pre_finite_inputs.fn (F := Ideal) x t = fun _ => 1#1) : ∀ j, 0 ≤ (t j).toInt ∧ (t j).toInt < 50257 := by
  intro j
  have a := (elems x t h).2.1 j
  have b := (elems x t h).2.2 j
  simp only [IntOp.cmpi, StableHlo.Predicate.ofBool_eq_one_iff, BitVec.sle, BitVec.slt, decide_eq_true_eq] at a b
  have e0 : (0#32 : BitVec 32).toInt = 0 := by decide
  have e1 : (50257#32 : BitVec 32).toInt = 50257 := by decide
  rw [e0] at a
  rw [e1] at b
  exact ⟨a, b⟩

end Cert.Proof.PreFacts

end
-- ==== Proof.Elem.lean ====
/-
  The two spellings of log sigma(-x) on one extended real, and their common value on a real.

  The pallas_call body writes  min(0 - x, 0) - log1p(exp(0 - |0 - x|))  (`lsK`, Spec.lean); the host's
  `jax.nn.log_sigmoid y = -softplus(-y)` lowers to  -(max(-y, 0) + log1p(exp(-|(-y) - 0|)))  behind a self-inequality
  test that is never true on the extended reals (`lsigI`). At y = -x with x real both are the real number
  `ell x = min(-x, 0) - log(1 + exp(-|x|))`.
-/
import proofs.«420997_j88828513616443_3_alg».proof.Proof.Spec
import Idealize.ShloMosaic.PureOps.Ideal.Laws
import Mathlib.Analysis.SpecialFunctions.Log.Basic

noncomputable section

namespace Cert.Spec

open Idealize.ShloMosaic

/-- `jax.nn.log_sigmoid` on one extended real, as the host's lowered operations compute it at the ideal instance. -/
def lsigI (y : EReal) : EReal :=
  -(max (-y) 0 + Ideal.log1p (Ideal.exp (-(max (-y - 0) (-(-y - 0))))))

/-- log sigma(-r) for a real r. -/
def ell (r : ℝ) : ℝ := min (-r) 0 - Real.log (1 + Real.exp (-|r|))

/-- The lowered `log_sigmoid` read at an index, at the ideal instance: the self-inequality test is false on the extended
    reals, so the second branch is taken. -/
theorem logSigmoid_apply (S : Shape) (hb : S_.BroadcastsInDim S (![] : Fin 0 → Fin S.rank)) (y : FVec Ideal S .f32) (i : S.Idx) :
    logSigmoid (F := Ideal) S hb y i = lsigI (y i) := by
  -- a constant array holds one word at every index, so its broadcast reads that word, and the zero word denotes 0
  have hz : broadcastInDim S ![] hb (constant (F := Ideal) S_ .f32 0x00000000#32) i = 0 := by
    show Ideal.ofBits .f32 0x00000000#32 = 0
    exact Ideal.ofBits_zero_f32
  -- no extended real differs from itself
  have hc : ∀ a : EReal, Ideal.cmp .une a a = 0#1 := fun a => by simp [Ideal.cmp]
  -- every operation acts index by index: with z = -(y i) and Z the broadcast zero read at i, the term is
  -- -(if z - Z ≠ z - Z then z + Z else max z Z + log1p (exp (-(max (z - Z) (-(z - Z))))))
  show -(Scalar.select
      (Ideal.cmp .une (-(y i) - broadcastInDim S ![] hb (constant (F := Ideal) S_ .f32 0x00000000#32) i)
        (-(y i) - broadcastInDim S ![] hb (constant (F := Ideal) S_ .f32 0x00000000#32) i))
      (-(y i) + broadcastInDim S ![] hb (constant (F := Ideal) S_ .f32 0x00000000#32) i)
      (max (-(y i)) (broadcastInDim S ![] hb (constant (F := Ideal) S_ .f32 0x00000000#32) i)
        + Ideal.log1p (Ideal.exp (-(max (-(y i) - broadcastInDim S ![] hb (constant (F := Ideal) S_ .f32 0x00000000#32) i)
            (-(-(y i) - broadcastInDim S ![] hb (constant (F := Ideal) S_ .f32 0x00000000#32) i))))))) = lsigI (y i)
  rw [hc, ValueIdx.select_zero, hz]
  rfl

/-- The coercion of the reals into the extended reals keeps maxima and minima. -/
private theorem coe_max' (a b : ℝ) : ((max a b : ℝ) : EReal) = max (a : EReal) (b : EReal) :=
  EReal.coe_strictMono.monotone.map_max
private theorem coe_min' (a b : ℝ) : ((min a b : ℝ) : EReal) = min (a : EReal) (b : EReal) :=
  EReal.coe_strictMono.monotone.map_min

/-- log(1 + e) of a real exponential taken on the extended reals is the real logarithm: 1 + exp t is above zero. -/
private theorem log1p_exp_coe (t : ℝ) : Ideal.log1p (Ideal.exp (t : EReal)) = ((Real.log (1 + Real.exp t) : ℝ) : EReal) := by
  unfold Ideal.log1p
  rw [Ideal.exp_coe, ← EReal.coe_one, ← EReal.coe_add, Ideal.log_coe, if_neg (not_le.mpr (by positivity))]

theorem lsK_coe (r : ℝ) : lsK (r : EReal) = ((ell r : ℝ) : EReal) := by
  unfold lsK ell
  rw [zero_sub, ← EReal.coe_neg r, ← EReal.coe_neg (-r), ← coe_max', ← EReal.coe_zero, ← coe_min', ← EReal.coe_sub 0,
    log1p_exp_coe, ← EReal.coe_sub]
  -- |r| = max(-r, r)
  rw [neg_neg, max_comm (-r) r, ← abs_eq_max_neg, zero_sub]

theorem lsigI_neg_coe (r : ℝ) : lsigI (-(r : EReal)) = ((ell r : ℝ) : EReal) := by
  unfold lsigI ell
  rw [neg_neg, ← EReal.coe_zero, ← EReal.coe_sub, ← EReal.coe_neg (r - 0), ← coe_max', ← coe_max', ← EReal.coe_neg,
    log1p_exp_coe, ← EReal.coe_add, ← EReal.coe_neg]
  -- -(max(r, 0) + L) = min(-r, 0) - L, and |r| = max(r, -r)
  rw [sub_zero, ← abs_eq_max_neg, neg_add', ← min_neg_neg, neg_zero]

/-- The coercion of a finite real sum. -/
theorem coe_finset_sum {ι : Type} (s : Finset ι) (f : ι → ℝ) : ((∑ i ∈ s, f i : ℝ) : EReal) = ∑ i ∈ s, (f i : EReal) := by
  induction s using Finset.cons_induction with
  | empty => rw [Finset.sum_empty, Finset.sum_empty, EReal.coe_zero]
  | cons a s ha ih => rw [Finset.sum_cons, Finset.sum_cons, EReal.coe_add, ih]

/-- The words of the two float constants that are read as numbers. -/
theorem ofBits_50257 : Ideal.ofBits .f32 0x47445100#32 = ((50257 : ℝ) : EReal) := by
  -- sign 0, exponent field 142, fraction field 4477184: (2^23 + 4477184) * 2^(142 - 127 - 23) = 12865792 / 256
  simp [Ideal.ofBits, Ideal.ieee, -EReal.coe_mul]; norm_num

end Cert.Spec

end
-- ==== Proof.Comb.lean ====
/-
  Counting first occurrences.

  A row carries K labels t : Fin K → Fin n, repeats allowed.  Label k is a FIRST occurrence when no earlier label
  has the same value.  Every value that is taken at all is taken by exactly one first occurrence (the least index
  taking it), so t restricted to the first occurrences is a bijection onto the set of values taken.  Hence a sum over
  the values taken equals the sum over first occurrences, and a sum over the values NOT taken equals the full sum
  minus the sum over first occurrences.
-/
import Mathlib.Algebra.BigOperators.Group.Finset.Basic
import Mathlib.Algebra.BigOperators.Group.Finset.Piecewise
import Mathlib.Algebra.BigOperators.Ring.Finset
import Mathlib.Data.Fintype.Card
import Mathlib.Data.Real.Basic

namespace Cert.Comb

open Finset

variable {n K : ℕ}

/-- Label k is a first occurrence: no earlier label carries the same value. -/
def firstP (t : Fin K → Fin n) (k : Fin K) : Prop := ¬∃ j : Fin K, j < k ∧ t j = t k

/-- Two distinct first occurrences carry distinct values: of two indices with one value the later one is no
first occurrence. -/
theorem eq_of_firstP (t : Fin K → Fin n) {a b : Fin K} (ha : firstP t a) (hb : firstP t b) (hab : t a = t b) :
    a = b := by
  rcases lt_trichotomy a b with h | h | h
  · exact absurd ⟨a, h, hab⟩ hb
  · exact h
  · exact absurd ⟨b, h, hab.symm⟩ ha

/-- Every value taken is taken by a first occurrence: descend to earlier indices with the same value until none
is left. -/
theorem exists_firstP (t : Fin K → Fin n) (k : Fin K) : ∃ j, firstP t j ∧ t j = t k := by
  induction k using WellFoundedLT.induction with
  | _ k ih =>
    by_cases h : firstP t k
    · exact ⟨k, h, rfl⟩
    · obtain ⟨j, hjk, hj⟩ := not_not.mp h
      obtain ⟨i, hi, hti⟩ := ih j hjk
      exact ⟨i, hi, hti.trans hj⟩

section

variable (t : Fin K → Fin n) [DecidablePred (firstP t)]

/-- The labels are injective on the first occurrences. -/
theorem injOn_firstP : Set.InjOn t (↑(univ.filter (firstP t)) : Set (Fin K)) := by
  intro a ha b hb hab
  simp only [coe_filter, mem_univ, true_and, Set.mem_setOf_eq] at ha hb
  exact eq_of_firstP t ha hb hab

/-- The first occurrences take every value that is taken. -/
theorem image_firstP : (univ.filter (firstP t)).image t = univ.image t := by
  ext c
  simp only [mem_image, mem_filter, mem_univ, true_and]
  constructor
  · rintro ⟨k, _, hk⟩
    exact ⟨k, hk⟩
  · rintro ⟨k, hk⟩
    obtain ⟨j, hj, hjk⟩ := exists_firstP t k
    exact ⟨j, hj, hjk.trans hk⟩

/-- A sum over the values taken is the sum over the first occurrences. -/
theorem sum_image_eq_sum_firstP (f : Fin n → ℝ) :
    ∑ c ∈ univ.image t, f c = ∑ k : Fin K, if firstP t k then f (t k) else 0 := by
  rw [← image_firstP t, Finset.sum_image (injOn_firstP t), Finset.sum_filter]

/-- The sum over the values that are no label is the full sum minus the sum over the first occurrences. -/
theorem sum_not_label [∀ c : Fin n, Decidable (∃ k, t k = c)] (f : Fin n → ℝ) :
    (∑ c : Fin n, if (∃ k, t k = c) then 0 else f c)
      = (∑ c : Fin n, f c) - ∑ k : Fin K, if firstP t k then f (t k) else 0 := by
  have hmem : ∀ c : Fin n, (∃ k, t k = c) ↔ c ∈ univ.image t := by
    intro c
    simp only [mem_image, mem_univ, true_and]
  have hsplit : ∀ c : Fin n,
      f c = (if (∃ k, t k = c) then 0 else f c) + (if c ∈ univ.image t then f c else 0) := by
    intro c
    by_cases h : ∃ k, t k = c
    · rw [if_pos h, if_pos ((hmem c).mp h), zero_add]
    · rw [if_neg h, if_neg (fun h' => h ((hmem c).mpr h')), add_zero]
  have htot : (∑ c : Fin n, f c)
      = (∑ c : Fin n, if (∃ k, t k = c) then 0 else f c) + ∑ c ∈ univ.image t, f c := by
    rw [← Finset.univ_inter (univ.image t), ← Finset.sum_ite_mem, ← Finset.sum_add_distrib]
    exact Finset.sum_congr rfl (fun c _ => hsplit c)
  rw [htot, sum_image_eq_sum_firstP t f, add_sub_cancel_right]

/-- The number of values that are no label is n minus the number of first occurrences. -/
theorem card_not_label [∀ c : Fin n, Decidable (∃ k, t k = c)]
    [DecidablePred fun c : Fin n => ¬∃ k, t k = c] :
    ((Finset.univ.filter fun c : Fin n => ¬∃ k, t k = c).card : ℝ)
      = (n : ℝ) - ∑ k : Fin K, if firstP t k then (1 : ℝ) else 0 := by
  have h1 : ((Finset.univ.filter fun c : Fin n => ¬∃ k, t k = c).card : ℝ)
      = ∑ c : Fin n, if (∃ k, t k = c) then (0 : ℝ) else 1 := by
    rw [← Finset.sum_boole]
    refine Finset.sum_congr rfl (fun c _ => ?_)
    by_cases h : ∃ k, t k = c
    · rw [if_pos h, if_neg (not_not.mpr h)]
    · rw [if_neg h, if_pos h]
  have h2 : (∑ _c : Fin n, (1 : ℝ)) = (n : ℝ) := by
    rw [Finset.sum_const, Finset.card_univ, Fintype.card_fin, nsmul_eq_mul, mul_one]
  rw [h1, sum_not_label t (fun _ => (1 : ℝ)), h2]

end

end Cert.Comb
-- ==== Proof.GatherRead.lean ====
/-
  Reading the take-along-axis gather at an index, under the label range 0 ≤ t < 50257.

  With every label in range the numpy-style wrap leaves the labels as they are, the range test is set everywhere, and
  so the gather's select keeps the gathered element: entry (b, k) of the result is x[b, t[b, k]]. The gather's operand
  index is computed axis by axis: axis 0 is a batching axis and carries the result's row b; axis 1 is the collapsed,
  start-indexed axis and carries the label, read signed and clamped into [0, 50256], which under the range is the
  label's own value.
-/
import proofs.«420997_j88828513616443_3_alg».proof.Proof.Spec
import Idealize.ShloMosaic.PureOps.Reduce

noncomputable section

namespace Cert.Spec

open Idealize.ShloMosaic
open Idealize.ShloMosaic.ValueIdx

variable {F : FTy → Type} [FloatOps F]

/-- A label in range, as a word: its unsigned value is its signed value, below 50257. -/
theorem toNat_of_range (v : BitVec 32) (h : 0 ≤ v.toInt ∧ v.toInt < 50257) : (v.toNat : Int) = v.toInt ∧ v.toNat < 50257 := by
  rw [BitVec.toInt_eq_toNat_cond] at h
  have := v.isLt
  constructor
  · rw [BitVec.toInt_eq_toNat_cond]; split <;> omega
  · split at h <;> omega

/-- A word that is not negative is not below zero in the signed order. -/
theorem slt_zero_of_nonneg (v : BitVec 32) (h : 0 ≤ v.toInt) : IntOp.cmpi .slt v 0#32 = 0#1 := by
  show BitVec.ofBool (decide (v.toInt < (0#32).toInt)) = 0#1
  have h0 : (0#32).toInt = 0 := by decide
  rw [h0, decide_eq_false (by omega)]
  rfl

/-- A word that is not negative is at least zero in the signed order. -/
theorem sge_zero_of_nonneg (v : BitVec 32) (h : 0 ≤ v.toInt) : IntOp.cmpi .sge v 0#32 = 1#1 := by
  show BitVec.ofBool (decide ((0#32).toInt ≤ v.toInt)) = 1#1
  have h0 : (0#32).toInt = 0 := by decide
  rw [h0, decide_eq_true h]
  rfl

/-- A word whose signed value is below 50257 is at most 50256 in the signed order. -/
theorem sle_max_of_lt (v : BitVec 32) (h : v.toInt < 50257) : IntOp.cmpi .sle v 50256#32 = 1#1 := by
  show BitVec.ofBool (decide (v.toInt ≤ (50256#32).toInt)) = 1#1
  have h0 : (50256#32).toInt = 50256 := by decide
  rw [h0, decide_eq_true (by omega)]
  rfl

/-- In range, no label is negative, so the wrap leaves every label as it is. -/
theorem wrapIdx_of_range (t : IVec S2048x20 32) (hrange : ∀ j, 0 ≤ (t j).toInt ∧ (t j).toInt < 50257) : wrapIdx t = t := by
  funext j
  show Scalar.select (IntOp.cmpi .slt (t j) 0#32) (IntOp.addi (t j) 50257#32) (t j) = t j
  rw [slt_zero_of_nonneg _ (hrange j).1, select_zero]

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- In range, the test 0 ≤ label ≤ 50256 is set at every entry: each entry's and-reduction over the unit axis folds only 1s. -/
theorem inRange_of_range (t : IVec S2048x20 32) (hrange : ∀ j, 0 ≤ (t j).toInt ∧ (t j).toInt < 50257) :
    inRange t = fun _ => 1#1 := by
  funext j
  unfold inRange
  rw [Host.reduce_eq_foldl]
  refine foldl_andi_one _ _ (fun i _ => ?_)
  show IntOp.andi (IntOp.cmpi .sge (startIdx t i) 0#32) (IntOp.cmpi .sle (startIdx t i) 50256#32) = 1#1
  have hs : startIdx t i = t (Shape.reshapeEquiv shapeCasts_S2048x20_S2048x20x1 i) := by
    unfold startIdx; rw [wrapIdx_of_range t hrange]; rfl
  rw [hs, sge_zero_of_nonneg _ (hrange _).1, sle_max_of_lt _ (hrange _).2]
  rfl

/-- The start indices at (b, k, 0): the label t[b, k]. -/
theorem startIdx_of_range (t : IVec S2048x20 32) (hrange : ∀ j, 0 ≤ (t j).toInt ∧ (t j).toInt < 50257)
    (b : Fin 2048) (k : Fin 20) (u : Fin 1) : startIdx t (ix3 b k u) = t (ix2 b k) := by
  unfold startIdx
  rw [wrapIdx_of_range t hrange]
  unfold shapeCast
  refine congrArg t (Shape.reshapeEquiv_eq_of_rowMajor shapeCasts_S2048x20_S2048x20x1 ?_)
  rw [Shape.rowMajor_val_two, Shape.rowMajor_val_three]
  show b.val * 20 + k.val = (b.val * 20 + k.val) * 1 + u.val
  omega

/-- On the batching axis the gather's operand index carries the result's row. -/
theorem batchCoord_zero (j : S2048x20.Idx) : gatherDims.batchCoord j 0 = (j 0).val := by
  unfold GatherDims.batchCoord
  rw [dif_pos (show (0 : Fin 2) ∈ gatherDims.operandBatchingDims from List.mem_singleton.mpr rfl)]
  unfold GatherDims.siCoord
  simp only [Fin.val_cast]
  refine congrArg (fun a => (j a).val) (?_ : _ = (0 : Fin 2))
  rfl

/-- Result entry (b, k) reads its start index at (b, k, 0). -/
theorem siIdx_zero (b : Fin 2048) (k : Fin 20) (c : Fin gatherDims.startIndexMap.length) :
    gatherDims.siIdx (ix2 b k) c = ix3 b k 0 := by
  funext a
  refine Fin.ext ?_
  match a with
  | ⟨0, _⟩ => rfl
  | ⟨1, _⟩ => rfl
  | ⟨2, _⟩ =>
    have := c.isLt
    show c.val = 0
    have hl : gatherDims.startIndexMap.length = 1 := rfl
    omega

/-- The gather's operand index for result entry (b, k): row b, class t[b, k]. -/
theorem gatherDims_operandIdx (t : IVec S2048x20 32) (hrange : ∀ j, 0 ≤ (t j).toInt ∧ (t j).toInt < 50257)
    (b : Fin 2048) (k : Fin 20) (hlt : (t (ix2 b k)).toNat < 50257) :
    gatherDims.operandIdx (ix2 b k) (startIdx t) = ix2 b ⟨(t (ix2 b k)).toNat, hlt⟩ := by
  funext a
  refine Fin.ext ?_
  match a with
  | ⟨0, _⟩ =>
    show gatherDims.start (ix2 b k) (startIdx t) 0 + gatherDims.batchCoord (ix2 b k) 0 + gatherDims.offCoord (ix2 b k) 0 = b.val
    rw [GatherDims.start_batching _ _ _ _ (List.mem_singleton.mpr rfl),
      GatherDims.offCoord_eq_zero _ _ _ (fun h => ((GatherDims.mem_sKept _ _).mp h).2 (List.mem_singleton.mpr rfl)),
      batchCoord_zero]
    show 0 + b.val + 0 = b.val
    omega
  | ⟨1, _⟩ =>
    show gatherDims.start (ix2 b k) (startIdx t) 1 + gatherDims.batchCoord (ix2 b k) 1 + gatherDims.offCoord (ix2 b k) 1
      = (t (ix2 b k)).toNat
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gatherDims.startIndexMap from List.mem_singleton.mpr rfl), siIdx_zero,
      startIdx_of_range t hrange]
    show min (t (ix2 b k)).toInt.toNat (50257 - 1) + 0 + 0 = _
    have := toNat_of_range _ (hrange (ix2 b k))
    omega

/-- Under the label range, entry (b, k) of the take-along-axis is x[b, t[b, k]]. -/
theorem takeAlong_apply (x : FVec F S2048x50257 .f32) (t : IVec S2048x20 32)
    (hrange : ∀ j, 0 ≤ (t j).toInt ∧ (t j).toInt < 50257) (b : Fin 2048) (k : Fin 20)
    (hlt : (t (ix2 b k)).toNat < 50257) :
    takeAlong x t (ix2 b k) = x (ix2 b ⟨(t (ix2 b k)).toNat, hlt⟩) := by
  unfold takeAlong
  rw [select_apply, inRange_of_range t hrange, select_one]
  unfold Host.gather
  rw [gatherDims_operandIdx t hrange b k hlt]

/-- The bound the reading's index needs, from the range. -/
theorem toNat_lt_of_range (t : IVec S2048x20 32) (hrange : ∀ j, 0 ≤ (t j).toInt ∧ (t j).toInt < 50257)
    (j : S2048x20.Idx) : (t j).toNat < 50257 :=
  (toNat_of_range _ (hrange j)).2

end Cert.Spec

end
-- ==== Proof.LibScatterSet.lean ====
/-
  Reading a scatter that overwrites with one constant: the element at an index is the constant exactly when
  some update index lands there, and the operand's element otherwise.
-/
import Idealize.ShloMosaic.PureOps.ShapeOps

namespace Idealize.ShloMosaic

open Classical in
/-- A scatter whose body returns the update, with every update the same value `v`, read at an operand index
    `i`: the left fold over the update indices writes `v` at `i` as soon as one update index's result index is
    `i` and never writes anything else there, so the order of the updates does not matter — the result is `v`
    when some update index lands at `i`, and the operand's own element when none does. -/
theorem Host.scatter_set_const {α : Type} {s si u : Shape} {w : Nat} (d : ScatterDims s si u) (x : s.Idx → α)
    (idx : IVec si w) (v : α) (i : s.Idx) :
    Host.scatter d (fun _ b => b) x idx (fun _ => v) i
      = if ∃ j : u.Idx, d.resultIdx? j idx = some i then v else x i := by
  -- every update index is the row-major position of some number below the updates' element count
  have hiff : (∃ j : u.Idx, d.resultIdx? j idx = some i)
      ↔ ∃ n ∈ List.finRange u.numel, d.resultIdx? (u.rowMajor.symm n) idx = some i := by
    constructor
    · rintro ⟨j, h⟩
      exact ⟨u.rowMajor j, List.mem_finRange _, by rw [Equiv.symm_apply_apply]; exact h⟩
    · rintro ⟨n, _, h⟩; exact ⟨_, h⟩
  simp only [hiff]
  unfold Host.scatter
  -- the statement for the fold over any list of update positions, from any accumulator
  generalize List.finRange u.numel = l
  induction l generalizing x with
  | nil => simp
  | cons n l ih =>
    rw [List.foldl_cons, ih]
    by_cases hl : ∃ m ∈ l, d.resultIdx? (u.rowMajor.symm m) idx = some i
    · have hnl : ∃ m ∈ n :: l, d.resultIdx? (u.rowMajor.symm m) idx = some i := by
        obtain ⟨m, hm, h⟩ := hl
        exact ⟨m, List.mem_cons_of_mem _ hm, h⟩
      rw [if_pos hl, if_pos hnl]
    · rw [if_neg hl]
      cases hn : d.resultIdx? (u.rowMajor.symm n) idx with
      | none =>
        have hnl : ¬ ∃ m ∈ n :: l, d.resultIdx? (u.rowMajor.symm m) idx = some i := by
          rintro ⟨m, hm, h⟩
          rcases List.mem_cons.1 hm with rfl | hm
          · rw [hn] at h; cases h
          · exact hl ⟨m, hm, h⟩
        rw [if_neg hnl]
      | some i₀ =>
        by_cases hi : i = i₀
        · have hnl : ∃ m ∈ n :: l, d.resultIdx? (u.rowMajor.symm m) idx = some i :=
            ⟨n, List.mem_cons_self, by rw [hn, hi]⟩
          rw [if_pos hnl]
          simp only [hi, if_true]
        · have hnl : ¬ ∃ m ∈ n :: l, d.resultIdx? (u.rowMajor.symm m) idx = some i := by
            rintro ⟨m, hm, h⟩
            rcases List.mem_cons.1 hm with rfl | hm
            · rw [hn] at h; exact hi (Option.some.inj h).symm
            · exact hl ⟨m, hm, h⟩
          rw [if_neg hnl]
          simp only [if_neg hi]

end Idealize.ShloMosaic
-- ==== Proof.MaskRead.lean ====
/-
  The reference's boolean mask ones((2048, 50257)).at[rows, t].set(False) read at an index (b, c): it is cleared
  exactly when class c is one of row b's 20 labels.

  The mask is a scatter of the constant 0 into an array of ones, one element per label: update index (p, q) carries
  the index pair (p, t[p, q]) — the row number and the label, each read as numpy reads an index, which leaves a
  non-negative one as it is — and no window coordinate, both operand axes being inserted. So the update lands at
  (b, c) exactly when p = b and t[b, q] = c; a scatter that writes one constant holds that constant at an index
  exactly when some update lands there.
-/
import proofs.«420997_j88828513616443_3_alg».proof.Proof.Spec
import proofs.«420997_j88828513616443_3_alg».proof.Proof.LibScatterSet
import Idealize.ShloMosaic.Lib.Pipeline.Value
import Idealize.ShloMosaic.Lib.StableHlo.Predicate

noncomputable section

namespace Cert.Spec

open Idealize.ShloMosaic

/-! ## The scatter's dimension numbers at an update index (p, q) -/

/-- No operand axis of the mask's scatter keeps a window coordinate: both are inserted. -/
theorem window_eq_zero (j : S2048x20.Idx) (a : Fin 2) : scatterDims.window j a = 0 := by
  unfold ScatterDims.window
  rw [dif_neg]
  revert a
  decide

/-- On operand axis 0 the window of update index (p, q) starts at component 0 of its index pair. -/
theorem start_axis0 (idx : IVec S2048x20x2 32) (p : Fin 2048) (q : Fin 20) :
    scatterDims.start (ValueIdx.ix2 p q) idx 0 = (idx (ValueIdx.ix3 p q 0)).toInt := by
  unfold ScatterDims.start
  rw [dif_pos (by decide)]
  congr 2
  funext b
  refine Fin.ext ?_
  match b with
  | ⟨0, _⟩ => rfl
  | ⟨1, _⟩ => rfl
  | ⟨2, _⟩ => rfl

/-- On operand axis 1 the window of update index (p, q) starts at component 1 of its index pair. -/
theorem start_axis1 (idx : IVec S2048x20x2 32) (p : Fin 2048) (q : Fin 20) :
    scatterDims.start (ValueIdx.ix2 p q) idx 1 = (idx (ValueIdx.ix3 p q 1)).toInt := by
  unfold ScatterDims.start
  rw [dif_pos (by decide)]
  congr 2
  funext b
  refine Fin.ext ?_
  match b with
  | ⟨0, _⟩ => rfl
  | ⟨1, _⟩ => rfl
  | ⟨2, _⟩ => rfl

/-! ## The index pairs -/

/-- A word that reads non-negative as a signed integer is not below zero: the numpy-style wrap leaves it alone. -/
theorem select_slt_zero (x a : BitVec 32) (h : 0 ≤ x.toInt) :
    Scalar.select (IntOp.cmpi .slt x 0#32) a x = x := by
  have hc : IntOp.cmpi .slt x 0#32 = 0#1 := by
    unfold IntOp.cmpi
    have h0 : (0#32 : BitVec 32).toInt = 0 := by decide
    simp only [BitVec.slt, h0]
    rw [decide_eq_false (by omega)]
    rfl
  rw [hc]
  exact ValueIdx.select_zero _ _

/-- A non-negative label is its own wrapped label. -/
theorem wrapIdx_apply (t : IVec S2048x20 32) (j : S2048x20.Idx) (h : 0 ≤ (t j).toInt) : wrapIdx t j = t j :=
  select_slt_zero (t j) _ h

/-- Component 0 of update index (p, q)'s index pair is the row number p. -/
theorem scatterIdx_row (t : IVec S2048x20 32) (p : Fin 2048) (q : Fin 20) :
    scatterIdx t (ValueIdx.ix3 p q 0) = BitVec.ofNat 32 p.val := by
  unfold scatterIdx
  refine (concatenate_pair_apply_left (t := S2048x20x2) (s₁ := S2048x20x1) (s₂ := S2048x20x1) 2 _ _
    concatenates_S2048x20x1_S2048x20x1_S2048x20x2_d2 _ rfl (ValueIdx.ix3 p q (0 : Fin 1)) ?_).trans ?_
  · intro b
    match b with
    | ⟨0, _⟩ => rfl
    | ⟨1, _⟩ => rfl
    | ⟨2, _⟩ => rfl
  show Scalar.select (IntOp.cmpi .slt (BitVec.ofNat 32 p.val) 0#32) _ (BitVec.ofNat 32 p.val) = _
  exact select_slt_zero _ _ (by
    rw [StableHlo.Predicate.toInt_ofNat_small p.val (by have := p.isLt; omega)]; omega)

/-- Component 1 of update index (p, q)'s index pair is the wrapped label of (p, q). -/
theorem scatterIdx_col (t : IVec S2048x20 32) (p : Fin 2048) (q : Fin 20) :
    scatterIdx t (ValueIdx.ix3 p q 1) = wrapIdx t (ValueIdx.ix2 p q) := by
  unfold scatterIdx
  refine (concatenate_pair_apply_right (t := S2048x20x2) (s₁ := S2048x20x1) (s₂ := S2048x20x1) 2 _ _
    concatenates_S2048x20x1_S2048x20x1_S2048x20x2_d2 _ rfl rfl (ValueIdx.ix3 p q (0 : Fin 1)) ?_ rfl).trans ?_
  · intro b hb
    match b with
    | ⟨0, _⟩ => rfl
    | ⟨1, _⟩ => rfl
    | ⟨2, _⟩ => exact absurd rfl hb
  show wrapIdx t _ = wrapIdx t _
  congr 1
  funext a
  match a with
  | ⟨0, _⟩ => rfl
  | ⟨1, _⟩ => rfl

/-! ## Where an update lands, and the mask at an index -/

/-- Where update index (p, q) of the mask's scatter lands: at (b, c) exactly when its two index components, read as
    signed integers, are b and c. -/
theorem resultIdx_eq_some_iff (idx : IVec S2048x20x2 32) (p : Fin 2048) (q : Fin 20) (b : Fin 2048) (c : Fin 50257) :
    scatterDims.resultIdx? (ValueIdx.ix2 p q) idx = some (ValueIdx.ix2 b c)
      ↔ (idx (ValueIdx.ix3 p q 0)).toInt = (b.val : Int) ∧ (idx (ValueIdx.ix3 p q 1)).toInt = (c.val : Int) := by
  have h0 := start_axis0 idx p q
  have h1 := start_axis1 idx p q
  have w0 := window_eq_zero (ValueIdx.ix2 p q) 0
  have w1 := window_eq_zero (ValueIdx.ix2 p q) 1
  have hb := b.isLt
  have hc := c.isLt
  unfold ScatterDims.resultIdx?
  split
  · next h =>
    rw [Option.some.injEq]
    have g0 := h 0
    have g1 := h 1
    rw [h0, w0] at g0
    rw [h1, w1] at g1
    constructor
    · intro hf
      have e0 : (scatterDims.start (ValueIdx.ix2 p q) idx 0
          + ((scatterDims.window (ValueIdx.ix2 p q) 0 : Nat) : Int)).toNat = b.val :=
        congrArg (fun f : S2048x50257.Idx => (f 0).val) hf
      have e1 : (scatterDims.start (ValueIdx.ix2 p q) idx 1
          + ((scatterDims.window (ValueIdx.ix2 p q) 1 : Nat) : Int)).toNat = c.val :=
        congrArg (fun f : S2048x50257.Idx => (f 1).val) hf
      rw [h0, w0] at e0
      rw [h1, w1] at e1
      omega
    · rintro ⟨e0, e1⟩
      funext a
      refine Fin.ext ?_
      match a with
      | ⟨0, _⟩ =>
        show (scatterDims.start (ValueIdx.ix2 p q) idx 0
          + ((scatterDims.window (ValueIdx.ix2 p q) 0 : Nat) : Int)).toNat = b.val
        rw [h0, w0, e0]; omega
      | ⟨1, _⟩ =>
        show (scatterDims.start (ValueIdx.ix2 p q) idx 1
          + ((scatterDims.window (ValueIdx.ix2 p q) 1 : Nat) : Int)).toNat = c.val
        rw [h1, w1, e1]; omega
  · next h =>
    constructor
    · intro hf; cases hf
    · rintro ⟨e0, e1⟩
      refine absurd ?_ h
      intro a
      match a with
      | ⟨0, _⟩ =>
        show 0 ≤ scatterDims.start (ValueIdx.ix2 p q) idx 0 + ((scatterDims.window (ValueIdx.ix2 p q) 0 : Nat) : Int)
          ∧ scatterDims.start (ValueIdx.ix2 p q) idx 0 + ((scatterDims.window (ValueIdx.ix2 p q) 0 : Nat) : Int)
            < ((2048 : Nat) : Int)
        rw [h0, w0, e0]; omega
      | ⟨1, _⟩ =>
        show 0 ≤ scatterDims.start (ValueIdx.ix2 p q) idx 1 + ((scatterDims.window (ValueIdx.ix2 p q) 1 : Nat) : Int)
          ∧ scatterDims.start (ValueIdx.ix2 p q) idx 1 + ((scatterDims.window (ValueIdx.ix2 p q) 1 : Nat) : Int)
            < ((50257 : Nat) : Int)
        rw [h1, w1, e1]; omega

/-- THE MASK AT (b, c): cleared exactly when class c is one of row b's 20 labels, for labels in [0, 50257). -/
theorem maskR_apply (t : IVec S2048x20 32) (hrange : ∀ j, 0 ≤ (t j).toInt ∧ (t j).toInt < 50257) (b : Fin 2048) (c : Fin 50257) :
    maskR t (ValueIdx.ix2 b c) = if ∃ k : Fin 20, (t (ValueIdx.ix2 b k)).toInt = (c.val : Int) then 0#1 else 1#1 := by
  have hland : ∀ (p : Fin 2048) (q : Fin 20),
      scatterDims.resultIdx? (ValueIdx.ix2 p q) (scatterIdx t) = some (ValueIdx.ix2 b c)
        ↔ p = b ∧ (t (ValueIdx.ix2 p q)).toInt = (c.val : Int) := by
    intro p q
    rw [resultIdx_eq_some_iff, scatterIdx_row, scatterIdx_col, wrapIdx_apply t _ (hrange _).1,
      StableHlo.Predicate.toInt_ofNat_small p.val (by have := p.isLt; omega)]
    constructor
    · rintro ⟨e0, e1⟩; exact ⟨Fin.ext (by exact_mod_cast e0), e1⟩
    · rintro ⟨e0, e1⟩; exact ⟨by rw [e0], e1⟩
  have hiff : (∃ j : S2048x20.Idx, scatterDims.resultIdx? j (scatterIdx t) = some (ValueIdx.ix2 b c))
      ↔ ∃ k : Fin 20, (t (ValueIdx.ix2 b k)).toInt = (c.val : Int) := by
    constructor
    · rintro ⟨j, hj⟩
      obtain ⟨p, q, rfl⟩ : ∃ (p : Fin 2048) (q : Fin 20), j = ValueIdx.ix2 p q := ⟨j 0, j 1, ValueIdx.eq_ix2 j⟩
      obtain ⟨rfl, hq⟩ := (hland p q).1 hj
      exact ⟨q, hq⟩
    · rintro ⟨k, hk⟩
      exact ⟨ValueIdx.ix2 b k, (hland b k).2 ⟨rfl, hk⟩⟩
  show Host.scatter scatterDims (fun _ v => v)
      (broadcastInDim S2048x50257 ![] bcast_S_S2048x50257 (constantI S_ 1 1#1)) (scatterIdx t)
      (fun _ => 0#1) (ValueIdx.ix2 b c) = _
  rw [Host.scatter_set_const]
  by_cases hk : ∃ k : Fin 20, (t (ValueIdx.ix2 b k)).toInt = (c.val : Int)
  · rw [if_pos hk, if_pos (hiff.2 hk)]
  · rw [if_neg hk, if_neg (fun h => hk (hiff.1 h))]
    rfl

end Cert.Spec

end
-- ==== Proof.KRead.lean ====
/-
  The kernel program's per-row mean over the classes that are no label, read at one row at the ideal instance.

  Label k of row b is a FIRST occurrence when no earlier label j < k of the row carries the same word. The program
  finds this with a 20 x 20 comparison table masked by the strict lower triangle (entry (i, j) set iff j < i) and an
  or over the last axis; the mean is then (rowSum - sum over first occurrences of log sigma(-x[b, t_k])) divided by
  (50257 - number of first occurrences).
-/
import proofs.«420997_j88828513616443_3_alg».proof.Proof.Spec
import proofs.«420997_j88828513616443_3_alg».proof.Proof.Elem
import Idealize.ShloMosaic.Lib.ValueIdx
import Idealize.ShloMosaic.Lib.ValueLayout
import Idealize.ShloMosaic.Lib.Pipeline.Value
import Idealize.ShloMosaic.PureOps.Ideal.Laws

noncomputable section

namespace Cert.Spec

open Idealize.ShloMosaic
open scoped BigOperators

/-! ## The strict lower triangle -/

/-- On words below 20 the signed test i - 1 >= j (the subtraction wrapping) is the test j < i. -/
private theorem tril_word (i j : Fin 20) :
    Scalar.select (IntOp.cmpi .sge (IntOp.addi (BitVec.ofNat 32 i.val) 4294967295#32) (BitVec.ofNat 32 j.val)) (1#1 : BitVec 1) (0#1 : BitVec 1)
      = if j < i then 1#1 else 0#1 := by
  revert i j
  decide +kernel

/-- Entry (i, j) of the mask is set exactly where j < i. -/
theorem trilMask_apply (i j : Fin 20) : trilMask (ValueIdx.ix2 i j) = if j < i then 1#1 else 0#1 :=
  tril_word i j

/-! ## An or over a finite family of bits -/

private theorem ori_eq_one_iff (p q : BitVec 1) : IntOp.ori p q = 1#1 ↔ p = 1#1 ∨ q = 1#1 := by
  rcases BitVec.eq_zero_or_eq_one p with h | h <;> rcases BitVec.eq_zero_or_eq_one q with h' | h' <;>
    subst h <;> subst h' <;> decide

/-- The or of a finite family of bits, from 0, is 1 exactly when some member is 1. -/
private theorem fold_ori_eq_one_iff {ι : Type} [DecidableEq ι] (s : Finset ι) (f : ι → BitVec 1) :
    s.fold IntOp.ori 0#1 f = 1#1 ↔ ∃ j ∈ s, f j = 1#1 := by
  induction s using Finset.induction_on with
  | empty => simp
  | insert a s ha ih =>
    rw [Finset.fold_insert ha, ori_eq_one_iff, ih, Finset.exists_mem_insert]

/-! ## First occurrences -/

/-- Label k of row b is a first occurrence: no earlier label of the row carries the same word. -/
def firstB (t : IVec S2048x20 32) (b : Fin 2048) (k : Fin 20) : Prop :=
  ¬∃ j : Fin 20, j < k ∧ t (ValueIdx.ix2 b j) = t (ValueIdx.ix2 b k)

private theorem reduces_S2048x20x20_S2048x20_d2 : S2048x20x20.Reduces [2] S2048x20 := by decide

private theorem reduces_S2048x20_S2048_d1 : S2048x20.Reduces [1] S2048 := by decide

/-- The index over (b, k) with j inserted on the last axis. -/
private theorem lift3 (b : Fin 2048) (k j : Fin 20) :
    reduces_S2048x20x20_S2048x20_d2.lift (ValueIdx.ix2 b k) j = ValueIdx.ix3 b k j := by
  funext a
  match a with
  | ⟨0, _⟩ => rfl
  | ⟨1, _⟩ => rfl
  | ⟨2, _⟩ => rfl

/-- The index over b with k inserted on the last axis. -/
private theorem lift2 (b : Fin 2048) (k : Fin 20) :
    reduces_S2048x20_S2048_d1.lift (ValueIdx.ix1 b) k = ValueIdx.ix2 b k := by
  funext a
  match a with
  | ⟨0, _⟩ => rfl
  | ⟨1, _⟩ => rfl

/-- The label compared, read at (b, k, j): label k of row b. -/
private theorem bcastRow_apply (t : IVec S2048x20 32) (b : Fin 2048) (k j : Fin 20) :
    broadcastInDim S2048x20x20 ![0, 1, 2] bcast_S2048x20x1_S2048x20x20_0_1_2
        (broadcastInDim S2048x20x1 ![0, 1] bcast_S2048x20_S2048x20x1_0_1 t) (ValueIdx.ix3 b k j)
      = t (ValueIdx.ix2 b k) := by
  rw [broadcastInDim_apply _ _ _ (ValueIdx.ix3 b k j) (ValueIdx.ix3 b k (0 : Fin 1)) (by
    intro a
    match a with
    | ⟨0, _⟩ => rfl
    | ⟨1, _⟩ => rfl
    | ⟨2, _⟩ => rfl)]
  exact broadcastInDim_apply _ _ _ (ValueIdx.ix3 b k (0 : Fin 1)) (ValueIdx.ix2 b k) (by
    intro a
    match a with
    | ⟨0, _⟩ => rfl
    | ⟨1, _⟩ => rfl)

/-- The label it is compared with, read at (b, k, j): label j of row b. -/
private theorem bcastCol_apply (t : IVec S2048x20 32) (b : Fin 2048) (k j : Fin 20) :
    broadcastInDim S2048x20x20 ![0, 1, 2] bcast_S2048x1x20_S2048x20x20_0_1_2
        (broadcastInDim S2048x1x20 ![0, 2] bcast_S2048x20_S2048x1x20_0_2 t) (ValueIdx.ix3 b k j)
      = t (ValueIdx.ix2 b j) := by
  rw [broadcastInDim_apply _ _ _ (ValueIdx.ix3 b k j) (ValueIdx.ix3 b (0 : Fin 1) j) (by
    intro a
    match a with
    | ⟨0, _⟩ => rfl
    | ⟨1, _⟩ => rfl
    | ⟨2, _⟩ => rfl)]
  exact broadcastInDim_apply _ _ _ (ValueIdx.ix3 b (0 : Fin 1) j) (ValueIdx.ix2 b j) (by
    intro a
    match a with
    | ⟨0, _⟩ => rfl
    | ⟨1, _⟩ => rfl)

/-- The mask, read at (b, k, j): entry (k, j) of the triangle. -/
private theorem bcastMask_apply (m : IVec S20x20 1) (b : Fin 2048) (k j : Fin 20) :
    broadcastInDim S2048x20x20 ![0, 1, 2] bcast_S1x20x20_S2048x20x20_0_1_2
        (broadcastInDim S1x20x20 ![1, 2] bcast_S20x20_S1x20x20_1_2 m) (ValueIdx.ix3 b k j)
      = m (ValueIdx.ix2 k j) := by
  rw [broadcastInDim_apply _ _ _ (ValueIdx.ix3 b k j) (ValueIdx.ix3 (0 : Fin 1) k j) (by
    intro a
    match a with
    | ⟨0, _⟩ => rfl
    | ⟨1, _⟩ => rfl
    | ⟨2, _⟩ => rfl)]
  exact broadcastInDim_apply _ _ _ (ValueIdx.ix3 (0 : Fin 1) k j) (ValueIdx.ix2 k j) (by
    intro a
    match a with
    | ⟨0, _⟩ => rfl
    | ⟨1, _⟩ => rfl)

private theorem cmpi_eq_one_iff (p q : BitVec 32) : IntOp.cmpi .eq p q = 1#1 ↔ p = q := by
  show BitVec.ofBool (p == q) = 1#1 ↔ p = q
  by_cases h : p = q
  · have e : (p == q) = true := by simp [h]
    rw [e]; exact ⟨fun _ => h, fun _ => rfl⟩
  · have e : (p == q) = false := by simp [h]
    rw [e]; exact ⟨fun h' => absurd h' (by decide), fun h' => absurd h' h⟩

private theorem andi_eq_one_iff (p q : BitVec 1) : IntOp.andi p q = 1#1 ↔ p = 1#1 ∧ q = 1#1 := by
  rcases BitVec.eq_zero_or_eq_one p with h | h <;> rcases BitVec.eq_zero_or_eq_one q with h' | h' <;>
    subst h <;> subst h' <;> decide

private theorem not_eq_ite (p : BitVec 1) (P : Prop) [Decidable P] (h : p = 1#1 ↔ ¬P) : ~~~p = if P then 1#1 else 0#1 := by
  rcases BitVec.eq_zero_or_eq_one p with hp | hp
  · subst hp
    have : P := by
      by_contra hn
      exact absurd (h.2 hn) (by decide)
    rw [if_pos this]; decide
  · subst hp
    rw [if_neg (h.1 rfl)]; decide

/-- The or over the last axis of a table of bits, at (b, k), is 1 exactly when some entry (b, k, j) is 1. -/
private theorem fold_last_eq_one_iff (X : IVec S2048x20x20 1) (b : Fin 2048) (k : Fin 20) :
    (Finset.univ : Finset (Fin (S2048x20x20.size 2))).fold IntOp.ori 0#1
        (X ∘ reduces_S2048x20x20_S2048x20_d2.lift (ValueIdx.ix2 b k)) = 1#1
      ↔ ∃ j : Fin 20, X (ValueIdx.ix3 b k j) = 1#1 := by
  refine (fold_ori_eq_one_iff _ _).trans ⟨?_, ?_⟩
  · rintro ⟨j, _, hj⟩
    exact ⟨j, (congrArg X (lift3 b k j)).symm.trans hj⟩
  · rintro ⟨j, hj⟩
    exact ⟨j, Finset.mem_univ _, (congrArg X (lift3 b k j)).trans hj⟩

/-- One entry of the masked comparison table. -/
private theorem pairBit_apply (t : IVec S2048x20 32) (b : Fin 2048) (k j : Fin 20) :
    andi
        (cmpi .eq
          (broadcastInDim S2048x20x20 ![0, 1, 2] bcast_S2048x20x1_S2048x20x20_0_1_2 (broadcastInDim S2048x20x1 ![0, 1] bcast_S2048x20_S2048x20x1_0_1 t))
          (broadcastInDim S2048x20x20 ![0, 1, 2] bcast_S2048x1x20_S2048x20x20_0_1_2 (broadcastInDim S2048x1x20 ![0, 2] bcast_S2048x20_S2048x1x20_0_2 t)))
        (broadcastInDim S2048x20x20 ![0, 1, 2] bcast_S1x20x20_S2048x20x20_0_1_2 (broadcastInDim S1x20x20 ![1, 2] bcast_S20x20_S1x20x20_1_2 trilMask))
        (ValueIdx.ix3 b k j) = 1#1
      ↔ j < k ∧ t (ValueIdx.ix2 b j) = t (ValueIdx.ix2 b k) := by
  show IntOp.andi (IntOp.cmpi .eq _ _) _ = 1#1 ↔ _
  rw [bcastRow_apply, bcastCol_apply, bcastMask_apply, trilMask_apply, andi_eq_one_iff, cmpi_eq_one_iff]
  by_cases h : j < k
  · rw [if_pos h]; exact ⟨fun h' => ⟨h, h'.1.symm⟩, fun h' => ⟨h'.2.symm, rfl⟩⟩
  · rw [if_neg h]; exact ⟨fun h' => absurd h'.2 (by decide), fun h' => absurd h'.1 h⟩

open Classical in
/-- The program's first-occurrence bit at (b, k). -/
theorem firstOcc_apply (t : IVec S2048x20 32) (b : Fin 2048) (k : Fin 20) :
    firstOcc t (ValueIdx.ix2 b k) = if firstB t b k then 1#1 else 0#1 := by
  unfold firstOcc
  show ~~~(Host.reduce IntOp.ori _ _ reducesTo_S2048x20x20_S2048x20_d2 h_S_ (ValueIdx.ix2 b k)) = _
  rw [Host.reduce_eq_fold_single IntOp.ori _ _ reducesTo_S2048x20x20_S2048x20_d2 reduces_S2048x20x20_S2048x20_d2 h_S_]
  refine not_eq_ite _ _ ((fold_last_eq_one_iff _ b k).trans ?_)
  unfold firstB
  rw [not_not]
  exact exists_congr fun j => pairBit_apply t b k j

/-! ## The mean -/

/-- The host's sum over a row's 20 entries, from a zero initial value. -/
theorem rowSum20_apply (X : FVec Ideal S2048x20 .f32) (b : Fin 2048) :
    Host.reduceAdd X (constant S_ .f32 0x00000000#32) reducesTo_S2048x20_S2048_d1 h_S_ (ValueIdx.ix1 b)
      = ∑ k : Fin 20, X (ValueIdx.ix2 b k) := by
  show Ideal.hostReduceAdd reducesTo_S2048x20_S2048_d1 X (Ideal.ofBits .f32 0x00000000#32) (ValueIdx.ix1 b) = _
  rw [Ideal.hostReduceAdd_single reducesTo_S2048x20_S2048_d1 reduces_S2048x20_S2048_d1, Ideal.ofBits_zero_f32, zero_add]
  exact Finset.sum_congr rfl fun k _ => congrArg X (lift2 b k)

/-- The column of row sums read as a vector. -/
private theorem outCast_apply (out : FVec Ideal S2048x1 .f32) (b : Fin 2048) :
    shapeCast S2048 out shapeCasts_S2048x1_S2048 (ValueIdx.ix1 b) = out (ValueIdx.ix2 b 0) :=
  shapeCast_apply out shapeCasts_S2048x1_S2048 (ValueIdx.ix1 b) (ValueIdx.ix2 b 0) (by
    rw [Shape.rowMajor_val_two, Shape.rowMajor_val_one]
    show b.val * 1 + 0 = b.val
    omega)

open Classical in
/-- One term of the subtracted sum: log sigma(-x[b, t_k]) at a first occurrence, else 0. -/
private theorem selTerm_apply (x : FVec Ideal S2048x50257 .f32) (t : IVec S2048x20 32) (b : Fin 2048) (k : Fin 20) :
    select (firstOcc t) (logSigmoid (F := Ideal) S2048x20 bcast_S_S2048x20 (Host.negf (takeAlong x t)))
        (broadcastInDim S2048x20 ![] bcast_S_S2048x20 (id (constant S_ .f32 0x00000000#32))) (ValueIdx.ix2 b k)
      = if firstB t b k then lsigI (-(takeAlong (F := Ideal) x t (ValueIdx.ix2 b k))) else 0 := by
  show Scalar.select (firstOcc t (ValueIdx.ix2 b k))
      (logSigmoid (F := Ideal) S2048x20 bcast_S_S2048x20 (Host.negf (takeAlong x t)) (ValueIdx.ix2 b k))
      (Ideal.ofBits .f32 0x00000000#32) = _
  rw [firstOcc_apply, logSigmoid_apply, Ideal.ofBits_zero_f32]
  by_cases h : firstB t b k
  · rw [if_pos h, if_pos h, ValueIdx.select_one]; rfl
  · rw [if_neg h, if_neg h, ValueIdx.select_zero]

open Classical in
/-- One term of the count: 1 at a first occurrence, else 0. -/
private theorem cntTerm_apply (t : IVec S2048x20 32) (b : Fin 2048) (k : Fin 20) :
    uitofp (F := Ideal) .f32 (firstOcc t) (ValueIdx.ix2 b k) = if firstB t b k then (1 : EReal) else 0 := by
  show FloatOps.uitofp (F := Ideal) .f32 (firstOcc t (ValueIdx.ix2 b k)) = _
  rw [firstOcc_apply]
  by_cases h : firstB t b k
  · rw [if_pos h, if_pos h]
    show (((1#1 : BitVec 1).toNat : ℝ) : EReal) = 1
    simp
  · rw [if_neg h, if_neg h]
    show (((0#1 : BitVec 1).toNat : ℝ) : EReal) = 0
    simp

open Classical in
/-- The kernel program's mean over the classes that are no label, at row b. -/
theorem negMeanK_apply (x : FVec Ideal S2048x50257 .f32) (t : IVec S2048x20 32) (out : FVec Ideal S2048x1 .f32) (b : Fin 2048) :
    negMeanK (F := Ideal) x t out (ValueIdx.ix1 b)
      = Ideal.div (out (ValueIdx.ix2 b 0) - ∑ k : Fin 20, (if firstB t b k then lsigI (-(takeAlong (F := Ideal) x t (ValueIdx.ix2 b k))) else 0))
                  (((50257 : ℝ) : EReal) - ∑ k : Fin 20, (if firstB t b k then (1 : EReal) else 0)) := by
  unfold negMeanK
  show Ideal.div
      (shapeCast S2048 out shapeCasts_S2048x1_S2048 (ValueIdx.ix1 b)
        - Host.reduceAdd (F := Ideal) _ (constant (F := Ideal) S_ .f32 0x00000000#32) reducesTo_S2048x20_S2048_d1 h_S_ (ValueIdx.ix1 b))
      (Ideal.ofBits .f32 0x47445100#32
        - Host.reduceAdd (F := Ideal) _ (constant (F := Ideal) S_ .f32 0x00000000#32) reducesTo_S2048x20_S2048_d1 h_S_ (ValueIdx.ix1 b)) = _
  rw [outCast_apply, rowSum20_apply, rowSum20_apply, ofBits_50257]
  exact congrArg₂ Ideal.div
    (congrArg (_ - ·) (Finset.sum_congr rfl fun k _ => selTerm_apply x t b k))
    (congrArg (_ - ·) (Finset.sum_congr rfl fun k _ => cntTerm_apply t b k))

end Cert.Spec

end
-- ==== Proof.RRead.lean ====
/-
  The reference's per-row mean over the classes that are no label, read at one row at the ideal instance.

  The numerator is a float sum over the class axis of a select on the mask bit: the sum over c of log sigma(-x[b, c])
  where the bit is set and 0 elsewhere. The denominator is a 32-bit integer sum of the mask bits widened to words,
  converted signed: a wrapping sum of 50257 words each 0 or 1 is the word of the number of set bits, that number is
  below 2^31, so its signed reading is the number itself.
-/
import proofs.«420997_j88828513616443_3_alg».proof.Proof.Spec
import proofs.«420997_j88828513616443_3_alg».proof.Proof.Elem
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Mathlib.Data.Fintype.Card

noncomputable section

namespace Cert.Spec

open Idealize.ShloMosaic Idealize.ShloMosaic.ValueIdx
open scoped BigOperators

namespace RRead

/-- The class-axis reduction's shape fact in the form that names the index with a class inserted. -/
theorem reduces_S2048x50257_S2048_d1 : S2048x50257.Reduces [1] S2048 := by decide

/-- Row b with class c inserted on the class axis is the index (b, c). -/
theorem lift_ix1 (b : Fin 2048) (c : Fin 50257) :
    reduces_S2048x50257_S2048_d1.lift (ix1 b) c = ix2 b c := by
  funext a
  match a with
  | ⟨0, _⟩ => rfl
  | ⟨1, _⟩ => rfl

/-! ## A wrapping sum of widened bits counts the set bits -/

/-- A one-bit word widened to 32 bits is the word 0 or the word 1. -/
theorem setWidth_bit (v : BitVec 1) : v.setWidth 32 = if v = 1#1 then 1#32 else 0#32 := by
  revert v; decide

/-- The 32-bit sum, in any order, of the widened bits over a finite set is the word of the number of set bits. -/
theorem fold_addi_bits {ι : Type} [DecidableEq ι] (s : Finset ι) (g : ι → BitVec 1) :
    s.fold IntOp.addi 0#32 (fun c => (g c).setWidth 32) = BitVec.ofNat 32 (s.filter fun c => g c = 1#1).card := by
  induction s using Finset.induction_on with
  | empty => rfl
  | insert a s ha ih =>
    rw [Finset.fold_insert ha, ih, Finset.filter_insert, setWidth_bit]
    by_cases h : g a = 1#1
    · rw [if_pos h, if_pos h, Finset.card_insert_of_notMem (fun hm => ha (Finset.mem_filter.1 hm).1), Nat.add_comm,
        BitVec.ofNat_add]
      rfl
    · rw [if_neg h, if_neg h]
      show 0#32 + _ = _
      rw [BitVec.zero_add]

/-! ## The two sums at a row -/

/-- The float sum: over the classes of the row, log sigma(-x[b, c]) where the bit is set and 0 elsewhere. -/
theorem maskedSum_apply (x : FVec Ideal S2048x50257 .f32) (m : IVec S2048x50257 1) (b : Fin 2048) :
    Host.reduceAdd
        (select m (logSigmoid (F := Ideal) S2048x50257 bcast_S_S2048x50257 (Host.negf x))
          (broadcastInDim S2048x50257 ![] bcast_S_S2048x50257 (id (constant (F := Ideal) S_ .f32 0x00000000#32))))
        (constant (F := Ideal) S_ .f32 0x00000000#32) reducesTo_S2048x50257_S2048_d1 h_S_ (ix1 b)
      = ∑ c : Fin 50257, (if m (ix2 b c) = 1#1 then lsigI (-(x (ix2 b c))) else 0) := by
  rw [hostReduceAdd_apply, Ideal.hostReduceAdd_single _ reduces_S2048x50257_S2048_d1, constant_apply,
    Ideal.ofBits_zero_f32, zero_add]
  refine Finset.sum_congr rfl fun (c : Fin 50257) _ => ?_
  rw [lift_ix1, select_apply, logSigmoid_apply, broadcastInDim_scalar_apply]
  have h1 : Host.negf x (ix2 b c) = -(x (ix2 b c)) := rfl
  have h2 : id (constant (F := Ideal) S_ .f32 0x00000000#32) ix0 = 0 := by
    rw [id_eq, constant_apply, Ideal.ofBits_zero_f32]
  rw [h1, h2]
  rfl

/-- The integer sum: the word of the number of set bits of the row. -/
theorem maskCount_apply (m : IVec S2048x50257 1) (b : Fin 2048) :
    Host.reduce IntOp.addi (extui 32 m natLt_1_32) (constantI S_ 32 0#32) reducesTo_S2048x50257_S2048_d1 h_S_ (ix1 b)
      = BitVec.ofNat 32 (Finset.univ.filter fun c : Fin 50257 => m (ix2 b c) = 1#1).card := by
  rw [Host.reduce_eq_fold_single IntOp.addi _ _ _ reduces_S2048x50257_S2048_d1]
  have hf : (extui 32 m natLt_1_32 ∘ reduces_S2048x50257_S2048_d1.lift (ix1 b))
      = fun c : Fin 50257 => (m (ix2 b c)).setWidth 32 := by
    refine funext fun (c : Fin 50257) => ?_
    show (m (reduces_S2048x50257_S2048_d1.lift (ix1 b) c)).setWidth 32 = _
    rw [lift_ix1]
  rw [hf]
  exact fold_addi_bits _ _

/-! ## The mean at a row -/

/-- A count of classes, as a 32-bit word read signed, is the count. -/
theorem toInt_ofNat_card (s : Finset (Fin 50257)) : (BitVec.ofNat 32 s.card).toInt = (s.card : ℤ) := by
  have hle : s.card ≤ 50257 := by
    have := Finset.card_le_univ s
    rwa [Fintype.card_fin] at this
  have hmod : s.card % 2 ^ 32 = s.card := Nat.mod_eq_of_lt (by omega)
  rw [BitVec.toInt_eq_toNat_of_lt (by rw [BitVec.toNat_ofNat, hmod]; omega), BitVec.toNat_ofNat, hmod]

/-- The quotient of the two sums for any mask, read at row b. -/
theorem maskedMean_apply (x : FVec Ideal S2048x50257 .f32) (m : IVec S2048x50257 1) (b : Fin 2048) :
    Host.divf
        (Host.reduceAdd
          (select m (logSigmoid (F := Ideal) S2048x50257 bcast_S_S2048x50257 (Host.negf x))
            (broadcastInDim S2048x50257 ![] bcast_S_S2048x50257 (id (constant (F := Ideal) S_ .f32 0x00000000#32))))
          (constant (F := Ideal) S_ .f32 0x00000000#32) reducesTo_S2048x50257_S2048_d1 h_S_)
        (sitofp (F := Ideal) .f32
          (Host.reduce IntOp.addi (extui 32 m natLt_1_32) (constantI S_ 32 0#32) reducesTo_S2048x50257_S2048_d1 h_S_))
        (ix1 b)
      = Ideal.div (∑ c : Fin 50257, (if m (ix2 b c) = 1#1 then lsigI (-(x (ix2 b c))) else 0))
          ((((Finset.univ.filter fun c : Fin 50257 => m (ix2 b c) = 1#1).card : ℝ)) : EReal) := by
  rw [hostDivf_apply, maskedSum_apply, sitofp_apply, maskCount_apply]
  show Ideal.div _ ((((BitVec.ofNat 32 _).toInt : ℝ)) : EReal) = _
  rw [toInt_ofNat_card, Int.cast_natCast]

end RRead

/-- The reference's mean over the classes that are no label, at row b: the sum of log sigma(-x[b, c]) over the classes whose
    mask bit is set, divided by their number. -/
theorem negMeanR_apply (x : FVec Ideal S2048x50257 .f32) (t : IVec S2048x20 32) (b : Fin 2048) :
    negMeanR (F := Ideal) x t (ValueIdx.ix1 b)
      = Ideal.div (∑ c : Fin 50257, (if maskR t (ValueIdx.ix2 b c) = 1#1 then lsigI (-(x (ValueIdx.ix2 b c))) else 0))
          ((((Finset.univ.filter fun c : Fin 50257 => maskR t (ValueIdx.ix2 b c) = 1#1).card : ℝ)) : EReal) := by
  unfold negMeanR
  exact RRead.maskedMean_apply x (maskR t) b

end Cert.Spec

end
-- ==== Proof.Bridge.lean ====
/-
  The bridge: on finite logits and labels in range the kernel program's result and the reference's are one number.

  Both end in the same last operations (`finish`) over the same positive mean, so it is enough that the two negative
  means agree row by row. In a row b write T for the set of classes that are a label, f(c) = log sigma(-x[b, c]) (a real
  number, since x is finite) and call a label a first occurrence when no earlier label of the row is the same class.
  The reference divides the sum of f over the classes outside T by their number. The kernel divides
  (sum of f over ALL classes) - (sum over first occurrences k of f(t_k)) by 50257 - (number of first occurrences).
  Each class of T is t_k for exactly one first occurrence k, so the subtracted sum is the sum of f over T and the
  subtracted count is the size of T: numerators and denominators agree.
-/
import proofs.«420997_j88828513616443_3_alg».proof.Proof.Spec
import proofs.«420997_j88828513616443_3_alg».proof.Proof.Elem
import proofs.«420997_j88828513616443_3_alg».proof.Proof.Comb
import proofs.«420997_j88828513616443_3_alg».proof.Proof.GatherRead
import proofs.«420997_j88828513616443_3_alg».proof.Proof.MaskRead
import proofs.«420997_j88828513616443_3_alg».proof.Proof.KRead
import proofs.«420997_j88828513616443_3_alg».proof.Proof.RRead

noncomputable section

namespace Cert.Spec
open Idealize.ShloMosaic Classical

/-- A label word in range reads the same signed and unsigned. -/
theorem word_of_range (w : BitVec 32) (h : 0 ≤ w.toInt ∧ w.toInt < 50257) : w.toNat < 50257 ∧ w.toInt = (w.toNat : Int) := by
  rw [BitVec.toInt_eq_toNat_cond] at h
  have := w.isLt
  constructor
  · split at h <;> omega
  · rw [BitVec.toInt_eq_toNat_cond]; split at h <;> split <;> omega

/-- The kernel program's result and the reference's agree on finite logits and labels in range. -/
theorem bridge (x : FVec Ideal S2048x50257 .f32) (t : IVec S2048x20 32)
    (hfin : ∀ i, ∃ r : ℝ, x i = (r : EReal))
    (hrange : ∀ j, 0 ≤ (t j).toInt ∧ (t j).toInt < 50257) :
    tailFn (F := Ideal) x t (rowSums x) = refFn (F := Ideal) x t := by
  unfold tailFn refFn
  refine congrArg (finish (posMean x t)) ?_
  funext i
  obtain ⟨b, rfl⟩ : ∃ b : Fin 2048, i = ValueIdx.ix1 b := ⟨i 0, ValueIdx.eq_ix1 i⟩
  rw [negMeanK_apply, negMeanR_apply]
  choose xr hxr using hfin
  -- the row's labels as class numbers, and the row's real summands
  have hlt : ∀ k : Fin 20, (t (ValueIdx.ix2 b k)).toNat < 50257 := fun k => (word_of_range _ (hrange _)).1
  let tb : Fin 20 → Fin 50257 := fun k => ⟨(t (ValueIdx.ix2 b k)).toNat, hlt k⟩
  let fb : Fin 50257 → ℝ := fun c => ell (xr (ValueIdx.ix2 b c))
  have hfirst : ∀ k, firstB t b k ↔ Cert.Comb.firstP tb k := fun k => by
    unfold firstB Cert.Comb.firstP
    refine not_congr (exists_congr fun j => and_congr Iff.rfl ⟨fun e => Fin.ext (by show (t _).toNat = (t _).toNat; rw [e]), fun e => BitVec.eq_of_toNat_eq (by have h : (tb j).val = (tb k).val := congrArg Fin.val e; exact h)⟩)
  have hmask : ∀ c : Fin 50257, maskR t (ValueIdx.ix2 b c) = 1#1 ↔ ¬∃ k, tb k = c := fun c => by
    rw [maskR_apply t hrange b c]
    have hiff : (∃ k : Fin 20, (t (ValueIdx.ix2 b k)).toInt = (c.val : Int)) ↔ ∃ k, tb k = c :=
      exists_congr fun k => by
        rw [(word_of_range _ (hrange _)).2]
        exact ⟨fun e => Fin.ext (by exact_mod_cast e), fun e => by exact_mod_cast Fin.ext_iff.mp e⟩
    by_cases h : ∃ k, tb k = c
    · rw [if_pos (hiff.mpr h)]; exact ⟨fun e => absurd e (by decide), fun hn => absurd h hn⟩
    · rw [if_neg (fun h' => h (hiff.mp h'))]; exact ⟨fun _ => h, fun _ => rfl⟩
  -- numerators
  have hnumK : rowSums x (ValueIdx.ix2 b 0) - ∑ k : Fin 20, (if firstB t b k then lsigI (-(takeAlong (F := Ideal) x t (ValueIdx.ix2 b k))) else 0)
      = (((∑ c, fb c) - ∑ k : Fin 20, (if Cert.Comb.firstP tb k then fb (tb k) else 0) : ℝ) : EReal) := by
    have h1 : rowSums x (ValueIdx.ix2 b 0) = ((∑ c, fb c : ℝ) : EReal) := by
      rw [coe_finset_sum]
      show (∑ c : Fin 50257, lsK (x (ValueIdx.ix2 b c))) = _
      exact Finset.sum_congr rfl fun c _ => by rw [hxr, lsK_coe]
    have h2 : (∑ k : Fin 20, (if firstB t b k then lsigI (-(takeAlong (F := Ideal) x t (ValueIdx.ix2 b k))) else 0))
        = ((∑ k : Fin 20, (if Cert.Comb.firstP tb k then fb (tb k) else 0) : ℝ) : EReal) := by
      rw [coe_finset_sum]
      refine Finset.sum_congr rfl fun k _ => ?_
      rw [takeAlong_apply x t hrange b k (hlt k), hxr, lsigI_neg_coe]
      by_cases hk : firstB t b k
      · rw [if_pos hk, if_pos ((hfirst k).mp hk)]
      · rw [if_neg hk, if_neg (fun h => hk ((hfirst k).mpr h)), EReal.coe_zero]
    rw [h1, h2, ← EReal.coe_sub]
  have hnumR : (∑ c : Fin 50257, (if maskR t (ValueIdx.ix2 b c) = 1#1 then lsigI (-(x (ValueIdx.ix2 b c))) else 0))
      = ((∑ c : Fin 50257, (if (∃ k, tb k = c) then 0 else fb c) : ℝ) : EReal) := by
    rw [coe_finset_sum]
    refine Finset.sum_congr rfl fun c _ => ?_
    by_cases h : ∃ k, tb k = c
    · rw [if_neg (fun e => ((hmask c).mp e) h), if_pos h, EReal.coe_zero]
    · rw [if_pos ((hmask c).mpr h), if_neg h, hxr, lsigI_neg_coe]
  -- denominators
  have hdenK : (((50257 : ℝ) : EReal) - ∑ k : Fin 20, (if firstB t b k then (1 : EReal) else 0))
      = (((50257 : ℝ) - ∑ k : Fin 20, (if Cert.Comb.firstP tb k then (1 : ℝ) else 0) : ℝ) : EReal) := by
    rw [EReal.coe_sub, coe_finset_sum]
    refine congrArg (fun s => ((50257 : ℝ) : EReal) - s) (Finset.sum_congr rfl fun k _ => ?_)
    by_cases hk : firstB t b k
    · rw [if_pos hk, if_pos ((hfirst k).mp hk), EReal.coe_one]
    · rw [if_neg hk, if_neg (fun h => hk ((hfirst k).mpr h)), EReal.coe_zero]
  have hdenR : ((Finset.univ.filter fun c : Fin 50257 => maskR t (ValueIdx.ix2 b c) = 1#1).card : ℝ)
      = ((Finset.univ.filter fun c : Fin 50257 => ¬∃ k, tb k = c).card : ℝ) := by
    have hflt : (Finset.univ.filter fun c : Fin 50257 => maskR t (ValueIdx.ix2 b c) = 1#1)
        = (Finset.univ.filter fun c : Fin 50257 => ¬∃ k, tb k = c) := Finset.filter_congr fun c _ => hmask c
    rw [hflt]
  rw [hnumK, hnumR, hdenK, hdenR, Cert.Comb.sum_not_label tb fb, Cert.Comb.card_not_label tb]
  norm_num

end Cert.Spec
end
-- ==== Proof.lean ====
/-
  The certificate of the multi-label soft-margin loss kernel against its jnp reference, over the extended reals, for
  finite logits and labels in [0, 50257).

  The kernel program sums log sigma(-x) over ALL classes of each row in one pallas_call and, on the host, subtracts the
  terms of the row's distinct labels (found as first occurrences among the 20 label words) and divides by the number of
  remaining classes; the reference masks the labels out of the class axis by a scatter and sums and counts what is left.
  The two agree because each labelled class is met at exactly one first occurrence (Proof/Comb.lean, Proof/Bridge.lean).
  The label range is needed: the reference reads a negative label as numpy does (from the end) before it masks, while
  the kernel compares the raw label words, so a row holding both -1 and 50256 is counted differently by the two.

  Frames: the kernel programs' (word level and idealized) from the launch theorems around one region followed by host
  operations (Proof/KFrame.lean, Proof/KFrameBits.lean); the reference's from its run (Proof/RefRun.lean).
  Values: the region's output array (Proof/KPayload.lean, Proof/KValue.lean), the host tail (Proof/KTail.lean), the
  reference's operations (Proof/RefRun.lean), both as the functions of Proof/Spec.lean.
-/
import proofs.«420997_j88828513616443_3_alg».proof.Defs
import proofs.«420997_j88828513616443_3_alg».proof.Proof.Gen.Kernel
import proofs.«420997_j88828513616443_3_alg».proof.Proof.Gen.KernelIdeal
import proofs.«420997_j88828513616443_3_alg».proof.Proof.Gen.ReferenceIdeal
import proofs.«420997_j88828513616443_3_alg».proof.Proof.Gen.Pre_finite_inputs
import proofs.«420997_j88828513616443_3_alg».proof.Proof.KFrame
import proofs.«420997_j88828513616443_3_alg».proof.Proof.KFrameBits
import proofs.«420997_j88828513616443_3_alg».proof.Proof.KRun
import proofs.«420997_j88828513616443_3_alg».proof.Proof.RefRun
import proofs.«420997_j88828513616443_3_alg».proof.Proof.PreFacts
import proofs.«420997_j88828513616443_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Run from memories that agree on the arguments, the two idealized programs end at one number: the kernel's at the
    host tail's function of the row sums, the reference's at its own function, and the two are equal on finite logits
    and labels in range (`Cert.Spec.bridge`), which the precondition grants. -/
theorem algebraic : Cert.algebraic_KernelIdeal_ReferenceIdeal := by
  intro m ρ m' ρ' hpre hagree
  refine ⟨_, Cert.KernelIdeal.HandRun.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact (Cert.Spec.bridge _ _ (Cert.Proof.PreFacts.fin_of_pre _ _ (hpre c)) (Cert.Proof.PreFacts.range_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
